-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x97 : Shape := ⟨2, ![131072, 97]⟩
abbrev S48x97 : Shape := ⟨2, ![48, 97]⟩
abbrev S48 : Shape := ⟨1, ![48]⟩
abbrev S384x32 : Shape := ⟨2, ![384, 32]⟩
abbrev S384 : Shape := ⟨1, ![384]⟩
abbrev S6x64 : Shape := ⟨2, ![6, 64]⟩
abbrev S6 : Shape := ⟨1, ![6]⟩
abbrev S131072 : Shape := ⟨1, ![131072]⟩
abbrev S_ : Shape := ⟨0, ![]⟩

class Facts : Prop where
  bcast_S_S131072x97 : S_.BroadcastsInDim S131072x97 (![] : Fin 0 → Fin S131072x97.rank)
  reducesTo_S131072x97_S_d0_1 : S131072x97.ReducesTo [0, 1] S_
  h_S_ : 0 < S_.numel
  bcast_S_S48x97 : S_.BroadcastsInDim S48x97 (![] : Fin 0 → Fin S48x97.rank)
  reducesTo_S48x97_S_d0_1 : S48x97.ReducesTo [0, 1] S_
  bcast_S_S48 : S_.BroadcastsInDim S48 (![] : Fin 0 → Fin S48.rank)
  reducesTo_S48_S_d0 : S48.ReducesTo [0] S_
  bcast_S_S384x32 : S_.BroadcastsInDim S384x32 (![] : Fin 0 → Fin S384x32.rank)
  reducesTo_S384x32_S_d0_1 : S384x32.ReducesTo [0, 1] S_
  bcast_S_S384 : S_.BroadcastsInDim S384 (![] : Fin 0 → Fin S384.rank)
  reducesTo_S384_S_d0 : S384.ReducesTo [0] S_
  bcast_S_S6x64 : S_.BroadcastsInDim S6x64 (![] : Fin 0 → Fin S6x64.rank)
  reducesTo_S6x64_S_d0_1 : S6x64.ReducesTo [0, 1] S_
  bcast_S_S6 : S_.BroadcastsInDim S6 (![] : Fin 0 → Fin S6.rank)
  reducesTo_S6_S_d0 : S6.ReducesTo [0] S_
  bcast_S_S131072 : S_.BroadcastsInDim S131072 (![] : Fin 0 → Fin S131072.rank)
  reducesTo_S131072_S_d0 : S131072.ReducesTo [0] S_

variable [Facts]

def fn_part3 {F : FTy → Type} [FloatOps F] (main_arg10 : IVec S131072 32) (main_v48 : IVec S_ 1) (main_v50 : IVec S131072 1) : IVec S_ 1 :=
  let main_c_19 : IVec S_ 1 := constantI S_ 1 1#1
  let main_v51 : IVec S_ 1 := (fun x v => Host.reduce IntOp.andi x v reducesTo_S131072_S_d0 h_S_) main_v50 main_c_19
  let main_v52 : IVec S_ 1 := andi main_v48 main_v51
  let main_c_20 : IVec S_ 32 := constantI S_ 32 60#32
  let main_v53 : IVec S131072 32 := broadcastInDim S131072 ![] bcast_S_S131072 main_c_20
  let main_v54 : IVec S131072 1 := cmpi .slt main_arg10 main_v53
  let main_c_21 : IVec S_ 1 := constantI S_ 1 1#1
  let main_v55 : IVec S_ 1 := (fun x v => Host.reduce IntOp.andi x v reducesTo_S131072_S_d0 h_S_) main_v54 main_c_21
  let main_v56 : IVec S_ 1 := andi main_v52 main_v55
  main_v56

def fn_part2 {F : FTy → Type} [FloatOps F] (main_arg7 : FVec F S384 .f32) (main_arg8 : FVec F S6x64 .f32) (main_arg9 : FVec F S6 .f32) (main_arg10 : IVec S131072 32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S6x64 .f32 := Host.absf main_arg8
  let main_cst_14 : FVec F S_ .f32 := constant S_ .f32 0x7F800000#32
  let main_v40 : FVec F S6x64 .f32 := broadcastInDim S6x64 ![] bcast_S_S6x64 main_cst_14
  let main_v41 : IVec S6x64 1 := cmpf .olt main_v39 main_v40
  let main_c_15 : IVec S_ 1 := constantI S_ 1 1#1
  let main_v42 : IVec S_ 1 := (fun x v => Host.reduce IntOp.andi x v reducesTo_S6x64_S_d0_1 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_c_18 : IVec S_ 32 := constantI S_ 32 0#32
  let main_v49 : IVec S131072 32 := broadcastInDim S131072 ![] bcast_S_S131072 main_c_18
  let main_v50 : IVec S131072 1 := cmpi .sge main_arg10 main_v49
  fn_part3 (F := F) main_arg10 main_v48 main_v50

def fn_part1 {F : FTy → Type} [FloatOps F] (main_arg4 : FVec F S48x97 .f32) (main_arg5 : FVec F S48 .f32) (main_arg6 : FVec F S384x32 .f32) (main_arg7 : FVec F S384 .f32) (main_arg8 : FVec F S6x64 .f32) (main_arg9 : FVec F S6 .f32) (main_arg10 : IVec S131072 32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x97 .f32 := Host.absf main_arg4
  let main_cst_6 : FVec F S_ .f32 := constant S_ .f32 0x7F800000#32
  let main_v20 : FVec F S48x97 .f32 := broadcastInDim S48x97 ![] bcast_S_S48x97 main_cst_6
  let main_v21 : IVec S48x97 1 := cmpf .olt main_v19 main_v20
  let main_c_7 : IVec S_ 1 := constantI S_ 1 1#1
  let main_v22 : IVec S_ 1 := (fun x v => Host.reduce IntOp.andi x v reducesTo_S48x97_S_d0_1 h_S_) main_v21 main_c_7
  let main_v23 : IVec S_ 1 := andi main_v18 main_v22
  let main_v24 : FVec F S48 .f32 := Host.absf main_arg5
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S384x32 .f32 := Host.absf main_arg6
  let main_cst_10 : FVec F S_ .f32 := constant S_ .f32 0x7F800000#32
  let main_v30 : FVec F S384x32 .f32 := broadcastInDim S384x32 ![] bcast_S_S384x32 main_cst_10
  let main_v31 : IVec S384x32 1 := cmpf .olt main_v29 main_v30
  let main_c_11 : IVec S_ 1 := constantI S_ 1 1#1
  let main_v32 : IVec S_ 1 := (fun x v => Host.reduce IntOp.andi x v reducesTo_S384x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x97 .f32) (main_arg1 : FVec F S131072x97 .f32) (main_arg2 : FVec F S48x97 .f32) (main_arg3 : FVec F S48 .f32) (main_arg4 : FVec F S48x97 .f32) (main_arg5 : FVec F S48 .f32) (main_arg6 : FVec F S384x32 .f32) (main_arg7 : FVec F S384 .f32) (main_arg8 : FVec F S6x64 .f32) (main_arg9 : FVec F S6 .f32) (main_arg10 : IVec S131072 32) : IVec S_ 1 :=
  let main_v0 : FVec F S131072x97 .f32 := Host.absf main_arg0
  let main_cst : FVec F S_ .f32 := constant S_ .f32 0x7F800000#32
  let main_v1 : FVec F S131072x97 .f32 := broadcastInDim S131072x97 ![] bcast_S_S131072x97 main_cst
  let main_v2 : IVec S131072x97 1 := cmpf .olt main_v0 main_v1
  let main_c : IVec S_ 1 := constantI S_ 1 1#1
  let main_v3 : IVec S_ 1 := (fun x v => Host.reduce IntOp.andi x v reducesTo_S131072x97_S_d0_1 h_S_) main_v2 main_c
  let main_v4 : FVec F S131072x97 .f32 := Host.absf main_arg1
  let main_cst_0 : FVec F S_ .f32 := constant S_ .f32 0x7F800000#32
  let main_v5 : FVec F S131072x97 .f32 := broadcastInDim S131072x97 ![] bcast_S_S131072x97 main_cst_0
  let main_v6 : IVec S131072x97 1 := cmpf .olt main_v4 main_v5
  let main_c_1 : IVec S_ 1 := constantI S_ 1 1#1
  let main_v7 : IVec S_ 1 := (fun x v => Host.reduce IntOp.andi x v reducesTo_S131072x97_S_d0_1 h_S_) main_v6 main_c_1
  let main_v8 : IVec S_ 1 := andi main_v3 main_v7
  let main_v9 : FVec F S48x97 .f32 := Host.absf main_arg2
  let main_cst_2 : FVec F S_ .f32 := constant S_ .f32 0x7F800000#32
  let main_v10 : FVec F S48x97 .f32 := broadcastInDim S48x97 ![] bcast_S_S48x97 main_cst_2
  let main_v11 : IVec S48x97 1 := cmpf .olt main_v9 main_v10
  let main_c_3 : IVec S_ 1 := constantI S_ 1 1#1
  let main_v12 : IVec S_ 1 := (fun x v => Host.reduce IntOp.andi x v reducesTo_S48x97_S_d0_1 h_S_) main_v11 main_c_3
  let main_v13 : IVec S_ 1 := andi main_v8 main_v12
  let main_v14 : FVec F S48 .f32 := Host.absf main_arg3
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg4 main_arg5 main_arg6 main_arg7 main_arg8 main_arg9 main_arg10 main_v13 main_v16
-- ==== Kernel.lean ====
abbrev S131072x97 : Shape := ⟨2, ![131072, 97]⟩
abbrev S48x97 : Shape := ⟨2, ![48, 97]⟩
abbrev S48 : Shape := ⟨1, ![48]⟩
abbrev S384x32 : Shape := ⟨2, ![384, 32]⟩
abbrev S384 : Shape := ⟨1, ![384]⟩
abbrev S6x64 : Shape := ⟨2, ![6, 64]⟩
abbrev S6 : Shape := ⟨1, ![6]⟩
abbrev S131072 : Shape := ⟨1, ![131072]⟩
abbrev S_ : Shape := ⟨0, ![]⟩
abbrev S1x384 : Shape := ⟨2, ![1, 384]⟩
abbrev S1x6 : Shape := ⟨2, ![1, 6]⟩
abbrev S48x194 : Shape := ⟨2, ![48, 194]⟩
abbrev S96x194 : Shape := ⟨2, ![96, 194]⟩
abbrev S96 : Shape := ⟨1, ![96]⟩
abbrev S1x96 : Shape := ⟨2, ![1, 96]⟩
abbrev S131072x1 : Shape := ⟨2, ![131072, 1]⟩
abbrev S2048x97 : Shape := ⟨2, ![2048, 97]⟩
abbrev S2048x1 : Shape := ⟨2, ![2048, 1]⟩
abbrev S2048x194 : Shape := ⟨2, ![2048, 194]⟩
abbrev S194x96 : Shape := ⟨2, ![194, 96]⟩
abbrev S2048x96 : Shape := ⟨2, ![2048, 96]⟩
abbrev S2048x16 : Shape := ⟨2, ![2048, 16]⟩
abbrev S2048x8 : Shape := ⟨2, ![2048, 8]⟩
abbrev S2048x32 : Shape := ⟨2, ![2048, 32]⟩
abbrev S32x384 : Shape := ⟨2, ![32, 384]⟩
abbrev S2048x384 : Shape := ⟨2, ![2048, 384]⟩
abbrev S2048x64 : Shape := ⟨2, ![2048, 64]⟩
abbrev S1x64 : Shape := ⟨2, ![1, 64]⟩
abbrev S1x1 : Shape := ⟨2, ![1, 1]⟩
abbrev S2048 : Shape := ⟨1, ![2048]⟩

abbrev nBuf : Space → Nat
  | .hbm => 80
  | .vmem => 14
  | .smem => 0
  | _ => 0

abbrev bufTy : (tb : Table) → Fin (tcTables nBuf tb) → BufTy
  | .hbm, ⟨0, _⟩ => ⟨S131072x97, .f32⟩
  | .hbm, ⟨1, _⟩ => ⟨S131072x97, .f32⟩
  | .hbm, ⟨2, _⟩ => ⟨S48x97, .f32⟩
  | .hbm, ⟨3, _⟩ => ⟨S48, .f32⟩
  | .hbm, ⟨4, _⟩ => ⟨S48x97, .f32⟩
  | .hbm, ⟨5, _⟩ => ⟨S48, .f32⟩
  | .hbm, ⟨6, _⟩ => ⟨S384x32, .f32⟩
  | .hbm, ⟨7, _⟩ => ⟨S384, .f32⟩
  | .hbm, ⟨8, _⟩ => ⟨S6x64, .f32⟩
  | .hbm, ⟨9, _⟩ => ⟨S6, .f32⟩
  | .hbm, ⟨10, _⟩ => ⟨S131072, .i32⟩
  | .hbm, ⟨11, _⟩ => ⟨S_, .f32⟩
  | .hbm, ⟨12, _⟩ => ⟨S48x97, .f32⟩
  | .hbm, ⟨13, _⟩ => ⟨S48x97, .f32⟩
  | .hbm, ⟨14, _⟩ => ⟨S48x97, .f32⟩
  | .hbm, ⟨15, _⟩ => ⟨S_, .f32⟩
  | .hbm, ⟨16, _⟩ => ⟨S48x97, .f32⟩
  | .hbm, ⟨17, _⟩ => ⟨S48x97, .f32⟩
  | .hbm, ⟨18, _⟩ => ⟨S_, .f32⟩
  | .hbm, ⟨19, _⟩ => ⟨S48, .f32⟩
  | .hbm, ⟨20, _⟩ => ⟨S48, .f32⟩
  | .hbm, ⟨21, _⟩ => ⟨S48, .f32⟩
  | .hbm, ⟨22, _⟩ => ⟨S_, .f32⟩
  | .hbm, ⟨23, _⟩ => ⟨S48, .f32⟩
  | .hbm, ⟨24, _⟩ => ⟨S48, .f32⟩
  | .hbm, ⟨25, _⟩ => ⟨S_, .f32⟩
  | .hbm, ⟨26, _⟩ => ⟨S48x97, .f32⟩
  | .hbm, ⟨27, _⟩ => ⟨S48x97, .f32⟩
  | .hbm, ⟨28, _⟩ => ⟨S48x97, .f32⟩
  | .hbm, ⟨29, _⟩ => ⟨S_, .f32⟩
  | .hbm, ⟨30, _⟩ => ⟨S48x97, .f32⟩
  | .hbm, ⟨31, _⟩ => ⟨S48x97, .f32⟩
  | .hbm, ⟨32, _⟩ => ⟨S_, .f32⟩
  | .hbm, ⟨33, _⟩ => ⟨S48, .f32⟩
  | .hbm, ⟨34, _⟩ => ⟨S48, .f32⟩
  | .hbm, ⟨35, _⟩ => ⟨S48, .f32⟩
  | .hbm, ⟨36, _⟩ => ⟨S_, .f32⟩
  | .hbm, ⟨37, _⟩ => ⟨S48, .f32⟩
  | .hbm, ⟨38, _⟩ => ⟨S48, .f32⟩
  | .hbm, ⟨39, _⟩ => ⟨S_, .f32⟩
  | .hbm, ⟨40, _⟩ => ⟨S384x32, .f32⟩
  | .hbm, ⟨41, _⟩ => ⟨S384x32, .f32⟩
  | .hbm, ⟨42, _⟩ => ⟨S384x32, .f32⟩
  | .hbm, ⟨43, _⟩ => ⟨S_, .f32⟩
  | .hbm, ⟨44, _⟩ => ⟨S384x32, .f32⟩
  | .hbm, ⟨45, _⟩ => ⟨S384x32, .f32⟩
  | .hbm, ⟨46, _⟩ => ⟨S_, .f32⟩
  | .hbm, ⟨47, _⟩ => ⟨S384, .f32⟩
  | .hbm, ⟨48, _⟩ => ⟨S384, .f32⟩
  | .hbm, ⟨49, _⟩ => ⟨S384, .f32⟩
  | .hbm, ⟨50, _⟩ => ⟨S_, .f32⟩
  | .hbm, ⟨51, _⟩ => ⟨S384, .f32⟩
  | .hbm, ⟨52, _⟩ => ⟨S384, .f32⟩
  | .hbm, ⟨53, _⟩ => ⟨S1x384, .f32⟩
  | .hbm, ⟨54, _⟩ => ⟨S_, .f32⟩
  | .hbm, ⟨55, _⟩ => ⟨S6x64, .f32⟩
  | .hbm, ⟨56, _⟩ => ⟨S6x64, .f32⟩
  | .hbm, ⟨57, _⟩ => ⟨S6x64, .f32⟩
  | .hbm, ⟨58, _⟩ => ⟨S_, .f32⟩
  | .hbm, ⟨59, _⟩ => ⟨S6x64, .f32⟩
  | .hbm, ⟨60, _⟩ => ⟨S6x64, .f32⟩
  | .hbm, ⟨61, _⟩ => ⟨S_, .f32⟩
  | .hbm, ⟨62, _⟩ => ⟨S6, .f32⟩
  | .hbm, ⟨63, _⟩ => ⟨S6, .f32⟩
  | .hbm, ⟨64, _⟩ => ⟨S6, .f32⟩
  | .hbm, ⟨65, _⟩ => ⟨S_, .f32⟩
  | .hbm, ⟨66, _⟩ => ⟨S6, .f32⟩
  | .hbm, ⟨67, _⟩ => ⟨S6, .f32⟩
  | .hbm, ⟨68, _⟩ => ⟨S1x6, .f32⟩
  | .hbm, ⟨69, _⟩ => ⟨S_, .f32⟩
  | .hbm, ⟨70, _⟩ => ⟨S48x97, .f32⟩
  | .hbm, ⟨71, _⟩ => ⟨S_, .f32⟩
  | .hbm, ⟨72, _⟩ => ⟨S48x97, .f32⟩
  | .hbm, ⟨73, _⟩ => ⟨S48x194, .f32⟩
  | .hbm, ⟨74, _⟩ => ⟨S48x194, .f32⟩
  | .hbm, ⟨75, _⟩ => ⟨S96x194, .f32⟩
  | .hbm, ⟨76, _⟩ => ⟨S96, .f32⟩
  | .hbm, ⟨77, _⟩ => ⟨S1x96, .f32⟩
  | .hbm, ⟨78, _⟩ => ⟨S131072x1, .i32⟩
  | .hbm, ⟨79, _⟩ => ⟨S131072x1, .f32⟩
  | .local _ .vmem, ⟨0, _⟩ => ⟨S2048x97, .f32⟩
  | .local _ .vmem, ⟨1, _⟩ => ⟨S2048x97, .f32⟩
  | .local _ .vmem, ⟨2, _⟩ => ⟨S2048x97, .f32⟩
  | .local _ .vmem, ⟨3, _⟩ => ⟨S2048x97, .f32⟩
  | .local _ .vmem, ⟨4, _⟩ => ⟨S2048x1, .i32⟩
  | .local _ .vmem, ⟨5, _⟩ => ⟨S2048x1, .i32⟩
  | .local _ .vmem, ⟨6, _⟩ => ⟨S96x194, .f32⟩
  | .local _ .vmem, ⟨7, _⟩ => ⟨S1x96, .f32⟩
  | .local _ .vmem, ⟨8, _⟩ => ⟨S384x32, .f32⟩
  | .local _ .vmem, ⟨9, _⟩ => ⟨S1x384, .f32⟩
  | .local _ .vmem, ⟨10, _⟩ => ⟨S6x64, .f32⟩
  | .local _ .vmem, ⟨11, _⟩ => ⟨S1x6, .f32⟩
  | .local _ .vmem, ⟨12, _⟩ => ⟨S2048x1, .f32⟩
  | .local _ .vmem, ⟨13, _⟩ => ⟨S2048x1, .f32⟩
  | _, _ => ⟨S131072x97, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_11 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_12 : Ref sig .tc := ⟨.hbm, 58, rfl⟩
abbrev main_v34 : Ref sig .tc := ⟨.hbm, 59, rfl⟩
abbrev main_v35 : Ref sig .tc := ⟨.hbm, 60, rfl⟩
abbrev main_cst_13 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_14 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_15 : Ref sig .tc := ⟨.hbm, 69, rfl⟩
abbrev main_v42 : Ref sig .tc := ⟨.hbm, 70, rfl⟩
abbrev main_cst_16 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x97 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x97 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x194 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S48x97 : S_.BroadcastsInDim S48x97 (![] : Fin 0 → Fin S48x97.rank)
  bcast_S_S48 : S_.BroadcastsInDim S48 (![] : Fin 0 → Fin S48.rank)
  bcast_S_S384x32 : S_.BroadcastsInDim S384x32 (![] : Fin 0 → Fin S384x32.rank)
  bcast_S_S384 : S_.BroadcastsInDim S384 (![] : Fin 0 → Fin S384.rank)
  shapeCasts_S384_S1x384 : S384.ShapeCasts S1x384
  bcast_S_S6x64 : S_.BroadcastsInDim S6x64 (![] : Fin 0 → Fin S6x64.rank)
  bcast_S_S6 : S_.BroadcastsInDim S6 (![] : Fin 0 → Fin S6.rank)
  shapeCasts_S6_S1x6 : S6.ShapeCasts S1x6
  concatenates_S48x97_S48x97_S48x194_d1 : Shape.Concatenates [S48x97, S48x97] S48x194 1
  concatenates_S48x194_S48x194_S96x194_d0 : Shape.Concatenates [S48x194, S48x194] S96x194 0
  concatenates_S48_S48_S96_d0 : Shape.Concatenates [S48, S48] S96 0
  shapeCasts_S96_S1x96 : S96.ShapeCasts S1x96
  shapeCasts_S131072_S131072x1 : S131072.ShapeCasts S131072x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  inb_S2048x97_S2048x97_0_0 : ∀ a, (![0, 0] : Fin 2 → Nat) a + S2048x97.size a ≤ S2048x97.size a
  h_S2048x97 : 0 < S2048x97.numel
  concatenates_S2048x97_S2048x97_S2048x194_d1 : Shape.Concatenates [S2048x97, S2048x97] S2048x194 1
  inb_S96x194_S96x194_0_0 : ∀ a, (![0, 0] : Fin 2 → Nat) a + S96x194.size a ≤ S96x194.size a
  h_S96x194 : 0 < S96x194.numel
  shapeCasts_S96x194_S96x194 : S96x194.ShapeCasts S96x194
  inb_S1x96_S1x96_0_0 : ∀ a, (![0, 0] : Fin 2 → Nat) a + S1x96.size a ≤ S1x96.size a
  h_S1x96 : 0 < S1x96.numel
  shapeCasts_S1x96_S1x96 : S1x96.ShapeCasts S1x96
  transposes_S96x194_p1_0_S194x96 : S96x194.Transposes [1, 0] S194x96
  broadcasts_S1x96_S2048x96 : S1x96.Broadcasts S2048x96
  slices_S2048x96_o0_0_S2048x8 : S2048x96.Slices ![0, 0] S2048x8
  slices_S2048x96_o0_48_S2048x8 : S2048x96.Slices ![0, 48] S2048x8
  concatenates_S2048x8_S2048x8_S2048x16_d1 : Shape.Concatenates [S2048x8, S2048x8] S2048x16 1
  broadcasts_S2048x1_S2048x16 : S2048x1.Broadcasts S2048x16
  slices_S2048x96_o0_8_S2048x8 : S2048x96.Slices ![0, 8] S2048x8
  slices_S2048x96_o0_56_S2048x8 : S2048x96.Slices ![0, 56] S2048x8
  slices_S2048x96_o0_16_S2048x8 : S2048x96.Slices ![0, 16] S2048x8
  slices_S2048x96_o0_64_S2048x8 : S2048x96.Slices ![0, 64] S2048x8
  slices_S2048x96_o0_24_S2048x8 : S2048x96.Slices ![0, 24] S2048x8
  slices_S2048x96_o0_72_S2048x8 : S2048x96.Slices ![0, 72] S2048x8
  slices_S2048x96_o0_32_S2048x8 : S2048x96.Slices ![0, 32] S2048x8
  slices_S2048x96_o0_80_S2048x8 : S2048x96.Slices ![0, 80] S2048x8
  slices_S2048x96_o0_40_S2048x8 : S2048x96.Slices ![0, 40] S2048x8
  slices_S2048x96_o0_88_S2048x8 : S2048x96.Slices ![0, 88] S2048x8
  concatenates_S2048x16_S2048x16_S2048x32_d1 : Shape.Concatenates [S2048x16, S2048x16] S2048x32 1
  inb_S384x32_S384x32_0_0 : ∀ a, (![0, 0] : Fin 2 → Nat) a + S384x32.size a ≤ S384x32.size a
  h_S384x32 : 0 < S384x32.numel
  shapeCasts_S384x32_S384x32 : S384x32.ShapeCasts S384x32
  inb_S1x384_S1x384_0_0 : ∀ a, (![0, 0] : Fin 2 → Nat) a + S1x384.size a ≤ S1x384.size a
  h_S1x384 : 0 < S1x384.numel
  shapeCasts_S1x384_S1x384 : S1x384.ShapeCasts S1x384
  transposes_S384x32_p1_0_S32x384 : S384x32.Transposes [1, 0] S32x384
  broadcasts_S1x384_S2048x384 : S1x384.Broadcasts S2048x384
  slices_S2048x384_o0_0_S2048x64 : S2048x384.Slices ![0, 0] S2048x64
  broadcasts_S2048x1_S2048x64 : S2048x1.Broadcasts S2048x64
  slices_S2048x384_o0_64_S2048x64 : S2048x384.Slices ![0, 64] S2048x64
  slices_S2048x384_o0_128_S2048x64 : S2048x384.Slices ![0, 128] S2048x64
  slices_S2048x384_o0_192_S2048x64 : S2048x384.Slices ![0, 192] S2048x64
  slices_S2048x384_o0_256_S2048x64 : S2048x384.Slices ![0, 256] S2048x64
  slices_S2048x384_o0_320_S2048x64 : S2048x384.Slices ![0, 320] S2048x64
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S1x6_S1x6_0_0 : ∀ a, (![0, 0] : Fin 2 → Nat) a + S1x6.size a ≤ S1x6.size a
  h_S1x6 : 0 < S1x6.numel
  shapeCasts_S1x6_S1x6 : S1x6.ShapeCasts S1x6
  slices_S6x64_o0_0_S1x64 : S6x64.Slices ![0, 0] S1x64
  broadcasts_S1x64_S2048x64 : S1x64.Broadcasts S2048x64
  slices_S1x6_o0_0_S1x1 : S1x6.Slices ![0, 0] S1x1
  broadcasts_S1x1_S2048x1 : S1x1.Broadcasts S2048x1
  slices_S6x64_o1_0_S1x64 : S6x64.Slices ![1, 0] S1x64
  slices_S1x6_o0_1_S1x1 : S1x6.Slices ![0, 1] S1x1
  slices_S6x64_o2_0_S1x64 : S6x64.Slices ![2, 0] S1x64
  slices_S1x6_o0_2_S1x1 : S1x6.Slices ![0, 2] S1x1
  slices_S6x64_o3_0_S1x64 : S6x64.Slices ![3, 0] S1x64
  slices_S1x6_o0_3_S1x1 : S1x6.Slices ![0, 3] S1x1
  slices_S6x64_o4_0_S1x64 : S6x64.Slices ![4, 0] S1x64
  slices_S1x6_o0_4_S1x1 : S1x6.Slices ![0, 4] S1x1
  slices_S6x64_o5_0_S1x64 : S6x64.Slices ![5, 0] S1x64
  slices_S1x6_o0_5_S1x1 : S1x6.Slices ![0, 5] S1x1
  reduces_S2048x64_S2048 : S2048x64.Reduces [1] S2048
  shapeCasts_S2048_S2048x1 : S2048.ShapeCasts S2048x1
  dot_S2048x194_S194x96_S2048x96_1_0_0_1_n_n_wf : DotDims.WF S2048x194 S194x96 S2048x96 [1] [0] [0] [1] [] []
  dot_S2048x32_S32x384_S2048x384_1_0_0_1_n_n_wf : DotDims.WF S2048x32 S32x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x97.size a ≤ S131072x97.size a
  hwx0_0 : ∀ i : grid0.Coords, EltTy.bits .f32 = 32 ∨ (Rect.block (s := S131072x97) S2048x97.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x97.size a ≤ S131072x97.size a
  hwx0_1 : ∀ i : grid0.Coords, EltTy.bits .f32 = 32 ∨ (Rect.block (s := S131072x97) S2048x97.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x194.size a ≤ S96x194.size a
  hwx0_3 : ∀ i : grid0.Coords, EltTy.bits .f32 = 32 ∨ (Rect.block (s := S96x194) S96x194.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x32.size a ≤ S384x32.size a
  hwx0_5 : ∀ i : grid0.Coords, EltTy.bits .f32 = 32 ∨ (Rect.block (s := S384x32) S384x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x64.size a ≤ S6x64.size a
  hwx0_7 : ∀ i : grid0.Coords, EltTy.bits .f32 = 32 ∨ (Rect.block (s := S6x64) S6x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S131072x1.size a
  hwx0_9 : ∀ i : grid0.Coords, EltTy.bits .f32 = 32 ∨ (Rect.block (s := S131072x1) S2048x1.size (cc0_transform_9 i) (hinb0_9 i)).WholeWords (EltTy.packing .f32)

variable [Facts₀]

def dot_S2048x194_S194x96_S2048x96_1_0_0_1_n_n : DotDims S2048x194 S194x96 S2048x96 where
  lhsContracting := [1]
  rhsContracting := [0]
  lhsNonContracting := [0]
  rhsNonContracting := [1]
  lhsBatch := []
  rhsBatch := []
  wf := dot_S2048x194_S194x96_S2048x96_1_0_0_1_n_n_wf
def dot_S2048x32_S32x384_S2048x384_1_0_0_1_n_n : DotDims S2048x32 S32x384 S2048x384 where
  lhsContracting := [1]
  rhsContracting := [0]
  lhsNonContracting := [0]
  rhsNonContracting := [1]
  lhsBatch := []
  rhsBatch := []
  wf := dot_S2048x32_S32x384_S2048x384_1_0_0_1_n_n_wf

abbrev win0_0 : Pipeline.Window sig grid0 :=
  Pipeline.Window.ofSpec (Memref.whole main_arg0) S2048x97.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x97.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S96x194.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S384x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S6x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x97 : Shape := ⟨2, ![131072, 97]⟩
abbrev S48x97 : Shape := ⟨2, ![48, 97]⟩
abbrev S48 : Shape := ⟨1, ![48]⟩
abbrev S384x32 : Shape := ⟨2, ![384, 32]⟩
abbrev S384 : Shape := ⟨1, ![384]⟩
abbrev S6x64 : Shape := ⟨2, ![6, 64]⟩
abbrev S6 : Shape := ⟨1, ![6]⟩
abbrev S131072 : Shape := ⟨1, ![131072]⟩
abbrev S_ : Shape := ⟨0, ![]⟩
abbrev S97x48 : Shape := ⟨2, ![97, 48]⟩
abbrev S131072x48 : Shape := ⟨2, ![131072, 48]⟩
abbrev S1x48 : Shape := ⟨2, ![1, 48]⟩
abbrev S131072x6x8 : Shape := ⟨3, ![131072, 6, 8]⟩
abbrev S131072x1x1 : Shape := ⟨3, ![131072, 1, 1]⟩
abbrev S1 : Shape := ⟨1, ![1]⟩
abbrev S1x1x1 : Shape := ⟨3, ![1, 1, 1]⟩
abbrev S131072x1 : Shape := ⟨2, ![131072, 1]⟩
abbrev S131072x1x8 : Shape := ⟨3, ![131072, 1, 8]⟩
abbrev S131072x8 : Shape := ⟨2, ![131072, 8]⟩
abbrev S131072x16 : Shape := ⟨2, ![131072, 16]⟩
abbrev S131072x32 : Shape := ⟨2, ![131072, 32]⟩
abbrev S32x384 : Shape := ⟨2, ![32, 384]⟩
abbrev S131072x384 : Shape := ⟨2, ![131072, 384]⟩
abbrev S1x384 : Shape := ⟨2, ![1, 384]⟩
abbrev S131072x6x64 : Shape := ⟨3, ![131072, 6, 64]⟩
abbrev S131072x1x64 : Shape := ⟨3, ![131072, 1, 64]⟩
abbrev S131072x64 : Shape := ⟨2, ![131072, 64]⟩
abbrev S64x6 : Shape := ⟨2, ![64, 6]⟩
abbrev S131072x6 : Shape := ⟨2, ![131072, 6]⟩
abbrev S1x6 : Shape := ⟨2, ![1, 6]⟩
abbrev S131072x6x1 : Shape := ⟨3, ![131072, 6, 1]⟩

abbrev nBuf : Space → Nat
  | .hbm => 270
  | .vmem => 0
  | .smem => 0
  | _ => 0

abbrev hbmTy0_0 (i : Nat) : BufTy := match i % 128 with
  | 0 => ⟨S131072x97, .f32⟩
  | 1 => ⟨S131072x97, .f32⟩
  | 2 => ⟨S48x97, .f32⟩
  | 3 => ⟨S48, .f32⟩
  | 4 => ⟨S48x97, .f32⟩
  | 5 => ⟨S48, .f32⟩
  | 6 => ⟨S384x32, .f32⟩
  | 7 => ⟨S384, .f32⟩
  | 8 => ⟨S6x64, .f32⟩
  | 9 => ⟨S6, .f32⟩
  | 10 => ⟨S131072, .i32⟩
  | 11 => ⟨S_, .i32⟩
  | 12 => ⟨S_, .i32⟩
  | 13 => ⟨S131072, .i32⟩
  | 14 => ⟨S131072, .i32⟩
  | 15 => ⟨S131072, .i32⟩
  | 16 => ⟨S_, .i32⟩
  | 17 => ⟨S131072, .i32⟩
  | 18 => ⟨S131072, .i1⟩
  | 19 => ⟨S131072, .i32⟩
  | 20 => ⟨S131072, .i32⟩
  | 21 => ⟨S_, .i32⟩
  | 22 => ⟨S131072, .i32⟩
  | 23 => ⟨S131072, .i1⟩
  | 24 => ⟨S131072, .i1⟩
  | 25 => ⟨S_, .i32⟩
  | 26 => ⟨S131072, .i32⟩
  | 27 => ⟨S131072, .i32⟩
  | 28 => ⟨S131072, .i32⟩
  | 29 => ⟨S_, .f32⟩
  | 30 => ⟨S48x97, .f32⟩
  | 31 => ⟨S48x97, .f32⟩
  | 32 => ⟨S48x97, .f32⟩
  | 33 => ⟨S_, .f32⟩
  | 34 => ⟨S48x97, .f32⟩
  | 35 => ⟨S48x97, .f32⟩
  | 36 => ⟨S48x97, .f32⟩
  | 37 => ⟨S48x97, .f32⟩
  | 38 => ⟨S97x48, .f32⟩
  | 39 => ⟨S131072x48, .f32⟩
  | 40 => ⟨S_, .f32⟩
  | 41 => ⟨S48, .f32⟩
  | 42 => ⟨S48, .f32⟩
  | 43 => ⟨S48, .f32⟩
  | 44 => ⟨S_, .f32⟩
  | 45 => ⟨S48, .f32⟩
  | 46 => ⟨S48, .f32⟩
  | 47 => ⟨S48, .f32⟩
  | 48 => ⟨S48, .f32⟩
  | 49 => ⟨S1x48, .f32⟩
  | 50 => ⟨S131072x48, .f32⟩
  | 51 => ⟨S131072x48, .f32⟩
  | 52 => ⟨S131072x6x8, .f32⟩
  | 53 => ⟨S131072x1x1, .i32⟩
  | 54 => ⟨S_, .i32⟩
  | 55 => ⟨S131072x1x1, .i32⟩
  | 56 => ⟨S131072x1x1, .i1⟩
  | 57 => ⟨S_, .i32⟩
  | 58 => ⟨S131072x1x1, .i32⟩
  | 59 => ⟨S131072x1x1, .i32⟩
  | 60 => ⟨S131072x1x1, .i32⟩
  | 61 => ⟨S1, .i32⟩
  | 62 => ⟨S_, .i32⟩
  | 63 => ⟨S131072x1x1, .i32⟩
  | 64 => ⟨S131072x1x1, .i1⟩
  | 65 => ⟨S1x1x1, .i32⟩
  | 66 => ⟨S131072x1x1, .i32⟩
  | 67 => ⟨S131072x1x1, .i1⟩
  | 68 => ⟨S131072x1x1, .i1⟩
  | 69 => ⟨S_, .i1⟩
  | 70 => ⟨S131072x1, .i1⟩
  | 71 => ⟨S131072x1x8, .f32⟩
  | 72 => ⟨S131072x1x8, .i1⟩
  | 73 => ⟨S_, .f32⟩
  | 74 => ⟨S131072x1x8, .f32⟩
  | 75 => ⟨S131072x1x8, .f32⟩
  | 76 => ⟨S131072x8, .f32⟩
  | 77 => ⟨S_, .f32⟩
  | 78 => ⟨S48x97, .f32⟩
  | 79 => ⟨S48x97, .f32⟩
  | 80 => ⟨S48x97, .f32⟩
  | 81 => ⟨S_, .f32⟩
  | 82 => ⟨S48x97, .f32⟩
  | 83 => ⟨S48x97, .f32⟩
  | 84 => ⟨S48x97, .f32⟩
  | 85 => ⟨S48x97, .f32⟩
  | 86 => ⟨S97x48, .f32⟩
  | 87 => ⟨S131072x48, .f32⟩
  | 88 => ⟨S_, .f32⟩
  | 89 => ⟨S48, .f32⟩
  | 90 => ⟨S48, .f32⟩
  | 91 => ⟨S48, .f32⟩
  | 92 => ⟨S_, .f32⟩
  | 93 => ⟨S48, .f32⟩
  | 94 => ⟨S48, .f32⟩
  | 95 => ⟨S48, .f32⟩
  | 96 => ⟨S48, .f32⟩
  | 97 => ⟨S1x48, .f32⟩
  | 98 => ⟨S131072x48, .f32⟩
  | 99 => ⟨S131072x48, .f32⟩
  | 100 => ⟨S131072x6x8, .f32⟩
  | 101 => ⟨S131072x1x1, .i32⟩
  | 102 => ⟨S_, .i32⟩
  | 103 => ⟨S131072x1x1, .i32⟩
  | 104 => ⟨S131072x1x1, .i1⟩
  | 105 => ⟨S_, .i32⟩
  | 106 => ⟨S131072x1x1, .i32⟩
  | 107 => ⟨S131072x1x1, .i32⟩
  | 108 => ⟨S131072x1x1, .i32⟩
  | 109 => ⟨S1, .i32⟩
  | 110 => ⟨S_, .i32⟩
  | 111 => ⟨S131072x1x1, .i32⟩
  | 112 => ⟨S131072x1x1, .i1⟩
  | 113 => ⟨S1x1x1, .i32⟩
  | 114 => ⟨S131072x1x1, .i32⟩
  | 115 => ⟨S131072x1x1, .i1⟩
  | 116 => ⟨S131072x1x1, .i1⟩
  | 117 => ⟨S_, .i1⟩
  | 118 => ⟨S131072x1, .i1⟩
  | 119 => ⟨S131072x1x8, .f32⟩
  | 120 => ⟨S131072x1x8, .i1⟩
  | 121 => ⟨S_, .f32⟩
  | 122 => ⟨S131072x1x8, .f32⟩
  | 123 => ⟨S131072x1x8, .f32⟩
  | 124 => ⟨S131072x8, .f32⟩
  | 125 => ⟨S131072x16, .f32⟩
  | 126 => ⟨S131072x16, .f32⟩
  | 127 => ⟨S_, .f32⟩
  | _ => ⟨S131072x97, .f32⟩

abbrev hbmTy0_1 (i : Nat) : BufTy := match i % 128 with
  | 0 => ⟨S131072x16, .f32⟩
  | 1 => ⟨S131072x16, .f32⟩
  | 2 => ⟨S131072x32, .f32⟩
  | 3 => ⟨S_, .f32⟩
  | 4 => ⟨S_, .f32⟩
  | 5 => ⟨S_, .f32⟩
  | 6 => ⟨S131072x32, .f32⟩
  | 7 => ⟨S131072x32, .f32⟩
  | 8 => ⟨S_, .f32⟩
  | 9 => ⟨S131072x32, .f32⟩
  | 10 => ⟨S131072x32, .f32⟩
  | 11 => ⟨S_, .f32⟩
  | 12 => ⟨S131072x32, .f32⟩
  | 13 => ⟨S131072x32, .f32⟩
  | 14 => ⟨S131072x32, .f32⟩
  | 15 => ⟨S_, .f32⟩
  | 16 => ⟨S131072x32, .f32⟩
  | 17 => ⟨S131072x32, .f32⟩
  | 18 => ⟨S131072x32, .f32⟩
  | 19 => ⟨S131072x32, .f32⟩
  | 20 => ⟨S_, .f32⟩
  | 21 => ⟨S384x32, .f32⟩
  | 22 => ⟨S384x32, .f32⟩
  | 23 => ⟨S384x32, .f32⟩
  | 24 => ⟨S_, .f32⟩
  | 25 => ⟨S384x32, .f32⟩
  | 26 => ⟨S384x32, .f32⟩
  | 27 => ⟨S384x32, .f32⟩
  | 28 => ⟨S384x32, .f32⟩
  | 29 => ⟨S32x384, .f32⟩
  | 30 => ⟨S131072x384, .f32⟩
  | 31 => ⟨S_, .f32⟩
  | 32 => ⟨S384, .f32⟩
  | 33 => ⟨S384, .f32⟩
  | 34 => ⟨S384, .f32⟩
  | 35 => ⟨S_, .f32⟩
  | 36 => ⟨S384, .f32⟩
  | 37 => ⟨S384, .f32⟩
  | 38 => ⟨S384, .f32⟩
  | 39 => ⟨S384, .f32⟩
  | 40 => ⟨S1x384, .f32⟩
  | 41 => ⟨S131072x384, .f32⟩
  | 42 => ⟨S131072x384, .f32⟩
  | 43 => ⟨S131072x6x64, .f32⟩
  | 44 => ⟨S131072x1x1, .i32⟩
  | 45 => ⟨S_, .i32⟩
  | 46 => ⟨S131072x1x1, .i32⟩
  | 47 => ⟨S131072x1x1, .i1⟩
  | 48 => ⟨S_, .i32⟩
  | 49 => ⟨S131072x1x1, .i32⟩
  | 50 => ⟨S131072x1x1, .i32⟩
  | 51 => ⟨S131072x1x1, .i32⟩
  | 52 => ⟨S1, .i32⟩
  | 53 => ⟨S_, .i32⟩
  | 54 => ⟨S131072x1x1, .i32⟩
  | 55 => ⟨S131072x1x1, .i1⟩
  | 56 => ⟨S1x1x1, .i32⟩
  | 57 => ⟨S131072x1x1, .i32⟩
  | 58 => ⟨S131072x1x1, .i1⟩
  | 59 => ⟨S131072x1x1, .i1⟩
  | 60 => ⟨S_, .i1⟩
  | 61 => ⟨S131072x1, .i1⟩
  | 62 => ⟨S131072x1x64, .f32⟩
  | 63 => ⟨S131072x1x64, .i1⟩
  | 64 => ⟨S_, .f32⟩
  | 65 => ⟨S131072x1x64, .f32⟩
  | 66 => ⟨S131072x1x64, .f32⟩
  | 67 => ⟨S131072x64, .f32⟩
  | 68 => ⟨S_, .f32⟩
  | 69 => ⟨S_, .f32⟩
  | 70 => ⟨S_, .f32⟩
  | 71 => ⟨S131072x64, .f32⟩
  | 72 => ⟨S131072x64, .f32⟩
  | 73 => ⟨S_, .f32⟩
  | 74 => ⟨S131072x64, .f32⟩
  | 75 => ⟨S131072x64, .f32⟩
  | 76 => ⟨S_, .f32⟩
  | 77 => ⟨S131072x64, .f32⟩
  | 78 => ⟨S131072x64, .f32⟩
  | 79 => ⟨S131072x64, .f32⟩
  | 80 => ⟨S_, .f32⟩
  | 81 => ⟨S131072x64, .f32⟩
  | 82 => ⟨S131072x64, .f32⟩
  | 83 => ⟨S131072x64, .f32⟩
  | 84 => ⟨S131072x64, .f32⟩
  | 85 => ⟨S_, .f32⟩
  | 86 => ⟨S6x64, .f32⟩
  | 87 => ⟨S6x64, .f32⟩
  | 88 => ⟨S6x64, .f32⟩
  | 89 => ⟨S_, .f32⟩
  | 90 => ⟨S6x64, .f32⟩
  | 91 => ⟨S6x64, .f32⟩
  | 92 => ⟨S6x64, .f32⟩
  | 93 => ⟨S6x64, .f32⟩
  | 94 => ⟨S64x6, .f32⟩
  | 95 => ⟨S131072x6, .f32⟩
  | 96 => ⟨S_, .f32⟩
  | 97 => ⟨S6, .f32⟩
  | 98 => ⟨S6, .f32⟩
  | 99 => ⟨S6, .f32⟩
  | 100 => ⟨S_, .f32⟩
  | 101 => ⟨S6, .f32⟩
  | 102 => ⟨S6, .f32⟩
  | 103 => ⟨S6, .f32⟩
  | 104 => ⟨S6, .f32⟩
  | 105 => ⟨S1x6, .f32⟩
  | 106 => ⟨S131072x6, .f32⟩
  | 107 => ⟨S131072x6, .f32⟩
  | 108 => ⟨S131072x6x1, .f32⟩
  | 109 => ⟨S131072x1x1, .i32⟩
  | 110 => ⟨S_, .i32⟩
  | 111 => ⟨S131072x1x1, .i32⟩
  | 112 => ⟨S131072x1x1, .i1⟩
  | 113 => ⟨S_, .i32⟩
  | 114 => ⟨S131072x1x1, .i32⟩
  | 115 => ⟨S131072x1x1, .i32⟩
  | 116 => ⟨S131072x1x1, .i32⟩
  | 117 => ⟨S1, .i32⟩
  | 118 => ⟨S_, .i32⟩
  | 119 => ⟨S131072x1x1, .i32⟩
  | 120 => ⟨S131072x1x1, .i1⟩
  | 121 => ⟨S1x1x1, .i32⟩
  | 122 => ⟨S131072x1x1, .i32⟩
  | 123 => ⟨S131072x1x1, .i1⟩
  | 124 => ⟨S131072x1x1, .i1⟩
  | 125 => ⟨S_, .i1⟩
  | 126 => ⟨S131072x1, .i1⟩
  | 127 => ⟨S131072x1x1, .f32⟩
  | _ => ⟨S131072x97, .f32⟩

abbrev hbmTy0_2 (i : Nat) : BufTy := match i % 128 with
  | 0 => ⟨S131072x1x1, .i1⟩
  | 1 => ⟨S_, .f32⟩
  | 2 => ⟨S131072x1x1, .f32⟩
  | 3 => ⟨S131072x1x1, .f32⟩
  | 4 => ⟨S131072x1, .f32⟩
  | 5 => ⟨S_, .f32⟩
  | 6 => ⟨S131072x1, .f32⟩
  | 7 => ⟨S131072x1, .f32⟩
  | 8 => ⟨S131072x1, .f32⟩
  | 9 => ⟨S_, .f32⟩
  | 10 => ⟨S131072x1, .f32⟩
  | 11 => ⟨S131072x1, .f32⟩
  | 12 => ⟨S131072x1, .f32⟩
  | 13 => ⟨S131072x1, .f32⟩
  | _ => ⟨S131072x97, .f32⟩

abbrev hbmTy (i : Nat) : BufTy := match i / 128 with
  | 0 => hbmTy0_0 i
  | 1 => hbmTy0_1 i
  | 2 => hbmTy0_2 i
  | _ => ⟨S131072x97, .f32⟩

abbrev bufTy : (tb : Table) → Fin (tcTables nBuf tb) → BufTy
  | .hbm, ⟨i, _⟩ => hbmTy i
  | _, _ => ⟨S131072x97, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_c_1 : Ref sig .tc := ⟨.hbm, 61, rfl⟩
abbrev main_call3_c_2 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_c_3 : Ref sig .tc := ⟨.hbm, 69, rfl⟩
abbrev main_call3_v11 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v22 : Ref sig .tc := ⟨.hbm, 75, rfl⟩
abbrev main_v23 : Ref sig .tc := ⟨.hbm, 76, rfl⟩
abbrev main_cst_3 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_4 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_5 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_cst_6 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_call6_c : Ref sig .tc := ⟨.hbm, 102, rfl⟩
abbrev main_call6_v0 : Ref sig .tc := ⟨.hbm, 103, rfl⟩
abbrev main_call6_v1 : Ref sig .tc := ⟨.hbm, 104, rfl⟩
abbrev main_call6_c_0 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_c_1 : Ref sig .tc := ⟨.hbm, 109, rfl⟩
abbrev main_call6_c_2 : Ref sig .tc := ⟨.hbm, 110, rfl⟩
abbrev main_call6_v5 : Ref sig .tc := ⟨.hbm, 111, rfl⟩
abbrev main_call6_v6 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_call6_c_3 : Ref sig .tc := ⟨.hbm, 117, rfl⟩
abbrev main_call6_v11 : Ref sig .tc := ⟨.hbm, 118, rfl⟩
abbrev main_call6_v12 : Ref sig .tc := ⟨.hbm, 119, rfl⟩
abbrev main_call6_v13 : Ref sig .tc := ⟨.hbm, 120, rfl⟩
abbrev main_call6_cst : Ref sig .tc := ⟨.hbm, 121, rfl⟩
abbrev main_call6_v14 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_cst_7 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_cst_8 : Ref sig .tc := ⟨.hbm, 131, rfl⟩
abbrev main_cst_9 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v52 : Ref sig .tc := ⟨.hbm, 138, rfl⟩
abbrev main_cst_10 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_cst_11 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_cst_12 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_cst_13 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_cst_14 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_cst_15 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_call10_c : Ref sig .tc := ⟨.hbm, 173, rfl⟩
abbrev main_call10_v0 : Ref sig .tc := ⟨.hbm, 174, rfl⟩
abbrev main_call10_v1 : Ref sig .tc := ⟨.hbm, 175, rfl⟩
abbrev main_call10_c_0 : Ref sig .tc := ⟨.hbm, 176, rfl⟩
abbrev main_call10_v2 : Ref sig .tc := ⟨.hbm, 177, rfl⟩
abbrev main_call10_v3 : Ref sig .tc := ⟨.hbm, 178, rfl⟩
abbrev main_call10_v4 : Ref sig .tc := ⟨.hbm, 179, rfl⟩
abbrev main_call10_c_1 : Ref sig .tc := ⟨.hbm, 180, rfl⟩
abbrev main_call10_c_2 : Ref sig .tc := ⟨.hbm, 181, rfl⟩
abbrev main_call10_v5 : Ref sig .tc := ⟨.hbm, 182, rfl⟩
abbrev main_call10_v6 : Ref sig .tc := ⟨.hbm, 183, rfl⟩
abbrev main_call10_v7 : Ref sig .tc := ⟨.hbm, 184, rfl⟩
abbrev main_call10_v8 : Ref sig .tc := ⟨.hbm, 185, rfl⟩
abbrev main_call10_v9 : Ref sig .tc := ⟨.hbm, 186, rfl⟩
abbrev main_call10_v10 : Ref sig .tc := ⟨.hbm, 187, rfl⟩
abbrev main_call10_c_3 : Ref sig .tc := ⟨.hbm, 188, rfl⟩
abbrev main_call10_v11 : Ref sig .tc := ⟨.hbm, 189, rfl⟩
abbrev main_call10_v12 : Ref sig .tc := ⟨.hbm, 190, rfl⟩
abbrev main_call10_v13 : Ref sig .tc := ⟨.hbm, 191, rfl⟩
abbrev main_call10_cst : Ref sig .tc := ⟨.hbm, 192, rfl⟩
abbrev main_call10_v14 : Ref sig .tc := ⟨.hbm, 193, rfl⟩
abbrev main_v81 : Ref sig .tc := ⟨.hbm, 194, rfl⟩
abbrev main_v82 : Ref sig .tc := ⟨.hbm, 195, rfl⟩
abbrev main_cst_16 : Ref sig .tc := ⟨.hbm, 196, rfl⟩
abbrev main_cst_17 : Ref sig .tc := ⟨.hbm, 197, rfl⟩
abbrev main_call11_v0 : Ref sig .tc := ⟨.hbm, 198, rfl⟩
abbrev main_call11_v1 : Ref sig .tc := ⟨.hbm, 199, rfl⟩
abbrev main_call11_v2 : Ref sig .tc := ⟨.hbm, 200, rfl⟩
abbrev main_call11_v3 : Ref sig .tc := ⟨.hbm, 201, rfl⟩
abbrev main_call11_v4 : Ref sig .tc := ⟨.hbm, 202, rfl⟩
abbrev main_v83 : Ref sig .tc := ⟨.hbm, 203, rfl⟩
abbrev main_cst_18 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_cst_19 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_cst_20 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_cst_21 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_cst_22 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_cst_23 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩
abbrev main_call14_c : Ref sig .tc := ⟨.hbm, 238, rfl⟩
abbrev main_call14_v0 : Ref sig .tc := ⟨.hbm, 239, rfl⟩
abbrev main_call14_v1 : Ref sig .tc := ⟨.hbm, 240, rfl⟩
abbrev main_call14_c_0 : Ref sig .tc := ⟨.hbm, 241, rfl⟩
abbrev main_call14_v2 : Ref sig .tc := ⟨.hbm, 242, rfl⟩
abbrev main_call14_v3 : Ref sig .tc := ⟨.hbm, 243, rfl⟩
abbrev main_call14_v4 : Ref sig .tc := ⟨.hbm, 244, rfl⟩
abbrev main_call14_c_1 : Ref sig .tc := ⟨.hbm, 245, rfl⟩
abbrev main_call14_c_2 : Ref sig .tc := ⟨.hbm, 246, rfl⟩
abbrev main_call14_v5 : Ref sig .tc := ⟨.hbm, 247, rfl⟩
abbrev main_call14_v6 : Ref sig .tc := ⟨.hbm, 248, rfl⟩
abbrev main_call14_v7 : Ref sig .tc := ⟨.hbm, 249, rfl⟩
abbrev main_call14_v8 : Ref sig .tc := ⟨.hbm, 250, rfl⟩
abbrev main_call14_v9 : Ref sig .tc := ⟨.hbm, 251, rfl⟩
abbrev main_call14_v10 : Ref sig .tc := ⟨.hbm, 252, rfl⟩
abbrev main_call14_c_3 : Ref sig .tc := ⟨.hbm, 253, rfl⟩
abbrev main_call14_v11 : Ref sig .tc := ⟨.hbm, 254, rfl⟩
abbrev main_call14_v12 : Ref sig .tc := ⟨.hbm, 255, rfl⟩
abbrev main_call14_v13 : Ref sig .tc := ⟨.hbm, 256, rfl⟩
abbrev main_call14_cst : Ref sig .tc := ⟨.hbm, 257, rfl⟩
abbrev main_call14_v14 : Ref sig .tc := ⟨.hbm, 258, rfl⟩
abbrev main_v112 : Ref sig .tc := ⟨.hbm, 259, rfl⟩
abbrev main_v113 : Ref sig .tc := ⟨.hbm, 260, rfl⟩
abbrev main_cst_24 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_cst_25 : Ref sig .tc := ⟨.hbm, 265, rfl⟩
abbrev main_v117 : Ref sig .tc := ⟨.hbm, 266, rfl⟩
abbrev main_v118 : Ref sig .tc := ⟨.hbm, 267, rfl⟩
abbrev main_v119 : Ref sig .tc := ⟨.hbm, 268, rfl⟩
abbrev main_v120 : Ref sig .tc := ⟨.hbm, 269, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S48x97 : S_.BroadcastsInDim S48x97 (![] : Fin 0 → Fin S48x97.rank)
  transposes_S48x97_S97x48_1_0 : S48x97.Transposes [1, 0] S97x48
  bcast_S_S48 : S_.BroadcastsInDim S48 (![] : Fin 0 → Fin S48.rank)
  bcast_S48_S1x48_1 : S48.BroadcastsInDim S1x48 (![1] : Fin 1 → Fin S1x48.rank)
  bcast_S1x48_S131072x48_0_1 : S1x48.BroadcastsInDim S131072x48 (![0, 1] : Fin 2 → Fin S131072x48.rank)
  shapeCasts_S131072x48_S131072x6x8 : S131072x48.ShapeCasts S131072x6x8
  bcast_S131072_S131072x1x1_0 : S131072.BroadcastsInDim S131072x1x1 (![0] : Fin 1 → Fin S131072x1x1.rank)
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  bcast_S131072x1_S131072x1x8_0_1 : S131072x1.BroadcastsInDim S131072x1x8 (![0, 1] : Fin 2 → Fin S131072x1x8.rank)
  bcast_S_S131072x1x8 : S_.BroadcastsInDim S131072x1x8 (![] : Fin 0 → Fin S131072x1x8.rank)
  shapeCasts_S131072x1x8_S131072x8 : S131072x1x8.ShapeCasts S131072x8
  concatenates_S131072x8_S131072x8_S131072x16_d1 : Shape.Concatenates [S131072x8, S131072x8] S131072x16 1
  bcast_S_S131072x16 : S_.BroadcastsInDim S131072x16 (![] : Fin 0 → Fin S131072x16.rank)
  concatenates_S131072x16_S131072x16_S131072x32_d1 : Shape.Concatenates [S131072x16, S131072x16] S131072x32 1
  bcast_S_S131072x32 : S_.BroadcastsInDim S131072x32 (![] : Fin 0 → Fin S131072x32.rank)
  bcast_S_S384x32 : S_.BroadcastsInDim S384x32 (![] : Fin 0 → Fin S384x32.rank)
  transposes_S384x32_S32x384_1_0 : S384x32.Transposes [1, 0] S32x384
  bcast_S_S384 : S_.BroadcastsInDim S384 (![] : Fin 0 → Fin S384.rank)
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  shapeCasts_S131072x384_S131072x6x64 : S131072x384.ShapeCasts S131072x6x64
  bcast_S131072x1_S131072x1x64_0_1 : S131072x1.BroadcastsInDim S131072x1x64 (![0, 1] : Fin 2 → Fin S131072x1x64.rank)
  bcast_S_S131072x1x64 : S_.BroadcastsInDim S131072x1x64 (![] : Fin 0 → Fin S131072x1x64.rank)
  shapeCasts_S131072x1x64_S131072x64 : S131072x1x64.ShapeCasts S131072x64
  bcast_S_S131072x64 : S_.BroadcastsInDim S131072x64 (![] : Fin 0 → Fin S131072x64.rank)
  bcast_S_S6x64 : S_.BroadcastsInDim S6x64 (![] : Fin 0 → Fin S6x64.rank)
  transposes_S6x64_S64x6_1_0 : S6x64.Transposes [1, 0] S64x6
  bcast_S_S6 : S_.BroadcastsInDim S6 (![] : Fin 0 → Fin S6.rank)
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  shapeCasts_S131072x6_S131072x6x1 : S131072x6.ShapeCasts S131072x6x1
  bcast_S131072x1_S131072x1x1_0_1 : S131072x1.BroadcastsInDim S131072x1x1 (![0, 1] : Fin 2 → Fin S131072x1x1.rank)
  shapeCasts_S131072x1x1_S131072x1 : S131072x1x1.ShapeCasts S131072x1
  bcast_S_S131072x1 : S_.BroadcastsInDim S131072x1 (![] : Fin 0 → Fin S131072x1.rank)
  dot_S131072x97_S97x48_S131072x48_1_0_0_1_n_n_wf : DotDims.WF S131072x97 S97x48 S131072x48 [1] [0] [0] [1] [] []
  gather_S131072x6x8_S131072x1x1_S131072x1x8_2_1_0_0_1_2_118_wf : GatherDims.WF S131072x6x8 S131072x1x1 S131072x1x8 [2] [1] [0] [1] [0] 2 ![1, 1, 8]
  dot_S131072x32_S32x384_S131072x384_1_0_0_1_n_n_wf : DotDims.WF S131072x32 S32x384 S131072x384 [1] [0] [0] [1] [] []
  gather_S131072x6x64_S131072x1x1_S131072x1x64_2_1_0_0_1_2_1164_wf : GatherDims.WF S131072x6x64 S131072x1x1 S131072x1x64 [2] [1] [0] [1] [0] 2 ![1, 1, 64]
  dot_S131072x64_S64x6_S131072x6_1_0_0_1_n_n_wf : DotDims.WF S131072x64 S64x6 S131072x6 [1] [0] [0] [1] [] []
  gather_S131072x6x1_S131072x1x1_S131072x1x1_2_1_0_0_1_2_111_wf : GatherDims.WF S131072x6x1 S131072x1x1 S131072x1x1 [2] [1] [0] [1] [0] 2 ![1, 1, 1]

variable [Facts₀]

def dot_S131072x97_S97x48_S131072x48_1_0_0_1_n_n : DotDims S131072x97 S97x48 S131072x48 where
  lhsContracting := [1]
  rhsContracting := [0]
  lhsNonContracting := [0]
  rhsNonContracting := [1]
  lhsBatch := []
  rhsBatch := []
  wf := dot_S131072x97_S97x48_S131072x48_1_0_0_1_n_n_wf
def gather_S131072x6x8_S131072x1x1_S131072x1x8_2_1_0_0_1_2_118 : GatherDims S131072x6x8 S131072x1x1 S131072x1x8 where
  offsetDims := [2]
  collapsedSliceDims := [1]
  operandBatchingDims := [0]
  startIndicesBatchingDims := [0]
  startIndexMap := [1]
  indexVectorDim := 2
  sliceSizes := ![1, 1, 8]
  wf := gather_S131072x6x8_S131072x1x1_S131072x1x8_2_1_0_0_1_2_118_wf
def dot_S131072x32_S32x384_S131072x384_1_0_0_1_n_n : DotDims S131072x32 S32x384 S131072x384 where
  lhsContracting := [1]
  rhsContracting := [0]
  lhsNonContracting := [0]
  rhsNonContracting := [1]
  lhsBatch := []
  rhsBatch := []
  wf := dot_S131072x32_S32x384_S131072x384_1_0_0_1_n_n_wf
def gather_S131072x6x64_S131072x1x1_S131072x1x64_2_1_0_0_1_2_1164 : GatherDims S131072x6x64 S131072x1x1 S131072x1x64 where
  offsetDims := [2]
  collapsedSliceDims := [1]
  operandBatchingDims := [0]
  startIndicesBatchingDims := [0]
  startIndexMap := [1]
  indexVectorDim := 2
  sliceSizes := ![1, 1, 64]
  wf := gather_S131072x6x64_S131072x1x1_S131072x1x64_2_1_0_0_1_2_1164_wf
def dot_S131072x64_S64x6_S131072x6_1_0_0_1_n_n : DotDims S131072x64 S64x6 S131072x6 where
  lhsContracting := [1]
  rhsContracting := [0]
  lhsNonContracting := [0]
  rhsNonContracting := [1]
  lhsBatch := []
  rhsBatch := []
  wf := dot_S131072x64_S64x6_S131072x6_1_0_0_1_n_n_wf
def gather_S131072x6x1_S131072x1x1_S131072x1x1_2_1_0_0_1_2_111 : GatherDims S131072x6x1 S131072x1x1 S131072x1x1 where
  offsetDims := [2]
  collapsedSliceDims := [1]
  operandBatchingDims := [0]
  startIndicesBatchingDims := [0]
  startIndexMap := [1]
  indexVectorDim := 2
  sliceSizes := ![1, 1, 1]
  wf := gather_S131072x6x1_S131072x1x1_S131072x1x1_2_1_0_0_1_2_111_wf

class Facts : Prop extends Facts₀ where

variable [Facts]
-- ==== Proof.Spec.lean ====
/-
  The function both programs compute, row by row, on the extended reals.

  A sample (one row b of the batch) carries a ply word p, two feature rows of 97 entries, and shares the
  weights. With c = ⌊p / 10⌋ the sample's bucket (one of six):
    * every weight and bias is used rounded to a grid: qr s w = roundHalfEven (w · s) / s;
    * layer 1 is two affine maps to 48 = 6 · 8 outputs each; the sample keeps the eight outputs of bucket c
      of each, sixteen values l; from them the thirty-two values (l², scaled by 127/128, then l), each
      clipped to [0, 1] and floored to the grid of 1/127;
    * layer 2 is one affine map to 384 = 6 · 64 outputs; the sample keeps the sixty-four of bucket c,
      clipped and floored the same way;
    * the result is the inner product with row c of the last weight plus entry c of the last bias, floored
      to the grid of 1/600.
  The kernel computes layer 1 as ONE product against a block-diagonal 96 × 194 weight on the two feature
  rows laid side by side, and selects buckets by sums over six 0/1 masks: `rowK` states that form over
  weights already rounded, and `rowK_eq_row` (in the bridge module) says it is `row`.
-/
import Idealize.ShloMosaic.PureOps.Ideal
import Idealize.ShloMosaic.Lib.ValueIdx

noncomputable section

namespace Cert.Spec

open Idealize.ShloMosaic Idealize.ShloMosaic.ValueIdx
open scoped BigOperators

/-- An extended real that is a real number. -/
def IsReal (x : EReal) : Prop := ∃ r : ℝ, x = (r : EReal)

/-- The value an f32 word denotes. -/
abbrev lit (b : BitVec 32) : EReal := Ideal.ofBits .f32 b

/-- x rounded to the grid of step 1/s, ties to even. -/
def qr (s x : EReal) : EReal := Ideal.div (Ideal.liftRound Ideal.roundHalfEven (x * s)) s
/-- x rounded down to the grid of step 1/s. -/
def qf (s x : EReal) : EReal := Ideal.div (Ideal.liftRound Int.floor (x * s)) s
/-- x clipped to [0, 1]. -/
def clip01 (x : EReal) : EReal := min (lit 0x3F800000#32) (max (lit 0x00000000#32) x)
/-- An activation: clipped, then floored to the grid of 1/127. -/
def act (x : EReal) : EReal := qf (lit 0x42FE0000#32) (clip01 x)

/-- The bucket of a ply word (read unsigned; a ply in [0, 60) gives ⌊ply / 10⌋). -/
def bucket (w : BitVec 32) : Fin 6 := ⟨w.toNat / 10 % 6, Nat.mod_lt _ (by norm_num)⟩

/-- Two rows of 97 laid side by side. -/
def cat97 (a b : Fin 97 → EReal) (k : Fin 194) : EReal :=
  if h : k.val < 97 then a ⟨k.val, h⟩ else b ⟨k.val - 97, by omega⟩

/-- Of 6 · 8 values, the eight of bucket c. -/
def sel8 (c : Fin 6) (z : Fin 48 → EReal) (i : Fin 8) : EReal := z ⟨8 * c.val + i.val, by omega⟩
/-- Of 6 · 64 values, the sixty-four of bucket c. -/
def sel64 (c : Fin 6) (z : Fin 384 → EReal) (k : Fin 64) : EReal := z ⟨64 * c.val + k.val, by omega⟩

/-- The sixteen layer-1 values of a sample: bucket c of the first map, then bucket c of the second. -/
def l1x (c : Fin 6) (zb zpa : Fin 48 → EReal) (i : Fin 16) : EReal :=
  if h : i.val < 8 then sel8 c zb ⟨i.val, h⟩ else sel8 c zpa ⟨i.val - 8, by omega⟩
/-- The same read off ONE vector of 96 = 48 + 48 outputs. -/
def l1xK (c : Fin 6) (z : Fin 96 → EReal) (i : Fin 16) : EReal :=
  if h : i.val < 8 then z ⟨8 * c.val + i.val, by omega⟩ else z ⟨48 + 8 * c.val + (i.val - 8), by omega⟩

/-- The thirty-two inputs of layer 2 before clipping: the squares scaled by 127/128, then the values. -/
def l1cat (l : Fin 16 → EReal) (i : Fin 32) : EReal :=
  if h : i.val < 16 then l ⟨i.val, h⟩ * l ⟨i.val, h⟩ * lit 0x3F7E0000#32 else l ⟨i.val - 16, by omega⟩

/-- An affine map with its weight and bias rounded to their grids (weights to 1/64, biases to 1/8128). -/
def z1 (x : Fin 97 → EReal) (w : Fin 48 → Fin 97 → EReal) (b : Fin 48 → EReal) (j : Fin 48) : EReal :=
  (∑ k : Fin 97, x k * qr (lit 0x42800000#32) (w j k)) + qr (lit 0x45FE0000#32) (b j)
def z2 (a : Fin 32 → EReal) (w : Fin 384 → Fin 32 → EReal) (b : Fin 384 → EReal) (j : Fin 384) : EReal :=
  (∑ i : Fin 32, a i * qr (lit 0x42800000#32) (w j i)) + qr (lit 0x45FE0000#32) (b j)
def outv (c : Fin 6) (a : Fin 64 → EReal) (wo : Fin 6 → Fin 64 → EReal) (bo : Fin 6 → EReal) : EReal :=
  (∑ k : Fin 64, a k * qr (lit 0x42972E5D#32) (wo c k)) + qr (lit 0x46160000#32) (bo c)

/-- One sample's result. -/
def row (p : BitVec 32) (xb xpa : Fin 97 → EReal) (w1b w1pa : Fin 48 → Fin 97 → EReal) (b1b b1pa : Fin 48 → EReal)
    (w2 : Fin 384 → Fin 32 → EReal) (b2 : Fin 384 → EReal) (wo : Fin 6 → Fin 64 → EReal) (bo : Fin 6 → EReal) : EReal :=
  qf (lit 0x44160000#32)
    (outv (bucket p)
      (fun k => act (sel64 (bucket p)
        (z2 (fun i => act (l1cat (l1x (bucket p) (z1 xb w1b b1b) (z1 xpa w1pa b1pa)) i)) w2 b2) k))
      wo bo)

/-! The kernel's arrangement, over weights and biases ALREADY on their grids. -/

def zK1 (x : Fin 194 → EReal) (W : Fin 96 → Fin 194 → EReal) (B : Fin 96 → EReal) (j : Fin 96) : EReal :=
  (∑ k : Fin 194, x k * W j k) + B j
def zK2 (a : Fin 32 → EReal) (W : Fin 384 → Fin 32 → EReal) (B : Fin 384 → EReal) (j : Fin 384) : EReal :=
  (∑ i : Fin 32, a i * W j i) + B j
def outK (c : Fin 6) (a : Fin 64 → EReal) (WO : Fin 6 → Fin 64 → EReal) (BO : Fin 6 → EReal) : EReal :=
  (∑ k : Fin 64, a k * WO c k) + BO c

/-- One sample's result in the kernel's arrangement. -/
def rowK (p : BitVec 32) (x : Fin 194 → EReal) (W1 : Fin 96 → Fin 194 → EReal) (B1 : Fin 96 → EReal)
    (W2 : Fin 384 → Fin 32 → EReal) (B2 : Fin 384 → EReal) (WO : Fin 6 → Fin 64 → EReal) (BO : Fin 6 → EReal) : EReal :=
  qf (lit 0x44160000#32)
    (outK (bucket p)
      (fun k => act (sel64 (bucket p) (zK2 (fun i => act (l1cat (l1xK (bucket p) (zK1 x W1 B1)) i)) W2 B2) k))
      WO BO)

/-- The block-diagonal weight of the fused layer 1, from the two rounded weights. -/
def fusedW (w1b w1pa : Fin 48 → Fin 97 → EReal) (j : Fin 96) (k : Fin 194) : EReal :=
  if hj : j.val < 48 then
    (if hk : k.val < 97 then qr (lit 0x42800000#32) (w1b ⟨j.val, hj⟩ ⟨k.val, hk⟩) else lit 0x00000000#32)
  else
    (if hk : k.val < 97 then lit 0x00000000#32 else qr (lit 0x42800000#32) (w1pa ⟨j.val - 48, by omega⟩ ⟨k.val - 97, by omega⟩))
/-- The two rounded biases laid end to end. -/
def fusedB (b1b b1pa : Fin 48 → EReal) (j : Fin 96) : EReal :=
  if hj : j.val < 48 then qr (lit 0x45FE0000#32) (b1b ⟨j.val, hj⟩) else qr (lit 0x45FE0000#32) (b1pa ⟨j.val - 48, by omega⟩)

/-- The whole result array as one function of the argument arrays. -/
def G (a0 a1 : (⟨2, ![131072, 97]⟩ : Shape).Idx → EReal) (a2 : (⟨2, ![48, 97]⟩ : Shape).Idx → EReal)
    (a3 : (⟨1, ![48]⟩ : Shape).Idx → EReal) (a4 : (⟨2, ![48, 97]⟩ : Shape).Idx → EReal) (a5 : (⟨1, ![48]⟩ : Shape).Idx → EReal)
    (a6 : (⟨2, ![384, 32]⟩ : Shape).Idx → EReal) (a7 : (⟨1, ![384]⟩ : Shape).Idx → EReal)
    (a8 : (⟨2, ![6, 64]⟩ : Shape).Idx → EReal) (a9 : (⟨1, ![6]⟩ : Shape).Idx → EReal)
    (a10 : (⟨1, ![131072]⟩ : Shape).Idx → BitVec 32) : (⟨2, ![131072, 1]⟩ : Shape).Idx → EReal :=
  fun i =>
    let b : Fin 131072 := i 0
    row (a10 (ix1 b)) (fun k => a0 (ix2 b k)) (fun k => a1 (ix2 b k)) (fun j k => a2 (ix2 j k)) (fun j k => a4 (ix2 j k))
      (fun j => a3 (ix1 j)) (fun j => a5 (ix1 j)) (fun j i' => a6 (ix2 j i')) (fun j => a7 (ix1 j))
      (fun c k => a8 (ix2 c k)) (fun c => a9 (ix1 c))

end Cert.Spec

end
-- ==== Proof.KPayA.lean ====
/-
  The first stretch of the kernel body read at an index of a block of 2048 samples: the bucket word of a sample
  (⌊ply / 10⌋ clipped to [0, 5]; for a ply below 60 it is ⌊ply / 10⌋), the fused layer-1 product against the
  block-diagonal weight as a sum over the 194 side-by-side features, its bias, and the sum over the first five bucket
  masks of the sixteen selected outputs.
-/
import proofs.«419896_j55293408969355_3_alg».proof.Proof.Gen.KernelIdeal.Skeleton
import proofs.«419896_j55293408969355_3_alg».proof.Proof.Spec
import Idealize.ShloMosaic.PureOps.Ideal.Laws
import Idealize.ShloMosaic.Lib.Pipeline.Value
import Idealize.ShloMosaic.Lib.ValueLayout

noncomputable section

namespace Cert.KernelIdeal.KPay

open Cert.KernelIdeal Cert.KernelIdeal.Gen Cert.Spec Idealize.ShloMosaic Idealize.ShloMosaic.ValueIdx Idealize.ShloMosaic.TcCoe Idealize.SL.Sem
open scoped BigOperators

/-! ## The bucket word -/

/-- The integer chain on ONE ply word x: the quotient x / 10 rounded toward zero, lowered by one where the signs of x
    and 10 differ and the remainder is not zero (together: the floor quotient), then clipped below at 0 and above at 5. -/
private def bucketWord (x : BitVec 32) : BitVec 32 :=
  IntOp.minsi 5#32 (IntOp.maxsi 0#32
    (Scalar.select
      (IntOp.andi
        (IntOp.cmpi .ne (IntOp.subi ((IntOp.cmpi .sgt x 0#32).setWidth 32) ((IntOp.cmpi .slt x 0#32).setWidth 32))
          (Scalar.subi (Scalar.extui (Scalar.cmpi .sgt 10#32 0#32)) (Scalar.extui (Scalar.cmpi .slt 10#32 0#32))))
        (IntOp.cmpi .ne (IntOp.remsi .vector x 10#32) 0#32))
      (IntOp.subi (IntOp.divsi .vector x 10#32) 1#32)
      (IntOp.divsi .vector x 10#32)))

/-- On the sixty words 0 … 59 the chain is ⌊n / 10⌋: each of the sixty values is computed. -/
private theorem bucketWord_ofNat : ∀ n, n < 60 → bucketWord (BitVec.ofNat 32 n) = BitVec.ofNat 32 (n / 10) := by
  decide

/-- Every operation of the chain acts element by element, and the shape cast is to the same shape: at each index the
    block's bucket word is the chain on the ply word there. -/
private theorem pay2_read (v0 : Vec Ideal S2048x1 .i32) (i : S2048x1.Idx) :
    k0_pay2 (F := Ideal) v0 i = bucketWord (v0 i) := by
  unfold k0_pay2
  simp only [shapeCast_self]
  rfl

/-- The bucket word of sample p: for a ply word below 60 the clipped floor quotient is ⌊ply / 10⌋. -/
theorem pay2_apply (v0 : Vec Ideal S2048x1 .i32) (p : Fin 2048) (h : (v0 (ix2 p 0)).toNat < 60) :
    k0_pay2 (F := Ideal) v0 (ix2 p 0) = BitVec.ofNat 32 ((v0 (ix2 p 0)).toNat / 10) := by
  rw [pay2_read]
  have e := bucketWord_ofNat _ h
  rwa [BitVec.ofNat_toNat, BitVec.setWidth_eq] at e

/-! ## The bias row -/

theorem pay3_eq (v35 : Vec Ideal S1x96 .f32) : k0_pay3 (F := Ideal) v35 = v35 := by
  unfold k0_pay3
  exact shapeCast_self _ _

/-! ## The fused product

The product contracts axis 1 of the 2048 × 194 features with axis 0 of the 194 × 96 transposed weight. At output
index (p, j) and contraction position k the left operand is read at (p, k) and the right at (k, j): one equation per
operand axis. -/

private theorem lhs_ax0 (i : S2048x96.Idx) (q : dot_S2048x194_S194x96_S2048x96_1_0_0_1_n_n.contr.Idx) :
    (dot_S2048x194_S194x96_S2048x96_1_0_0_1_n_n.lhsIdx i q 0).val = (i 0).val := by
  unfold DotDims.lhsIdx
  rw [dif_neg (show ¬(0 : Fin S2048x194.rank) ∈ dot_S2048x194_S194x96_S2048x96_1_0_0_1_n_n.lhsBatch by decide),
    dif_pos (show (0 : Fin S2048x194.rank) ∈ dot_S2048x194_S194x96_S2048x96_1_0_0_1_n_n.lhsNonContracting by decide)]
  rfl
private theorem lhs_ax1 (i : S2048x96.Idx) (q : dot_S2048x194_S194x96_S2048x96_1_0_0_1_n_n.contr.Idx) :
    (dot_S2048x194_S194x96_S2048x96_1_0_0_1_n_n.lhsIdx i q 1).val = (q ⟨0, by decide⟩).val :=
  dot_S2048x194_S194x96_S2048x96_1_0_0_1_n_n.lhsIdx_val_of_single rfl i q
private theorem rhs_ax0 (i : S2048x96.Idx) (q : dot_S2048x194_S194x96_S2048x96_1_0_0_1_n_n.contr.Idx) :
    (dot_S2048x194_S194x96_S2048x96_1_0_0_1_n_n.rhsIdx i q 0).val = (q ⟨0, by decide⟩).val :=
  dot_S2048x194_S194x96_S2048x96_1_0_0_1_n_n.rhsIdx_val_of_single rfl i q
private theorem rhs_ax1 (i : S2048x96.Idx) (q : dot_S2048x194_S194x96_S2048x96_1_0_0_1_n_n.contr.Idx) :
    (dot_S2048x194_S194x96_S2048x96_1_0_0_1_n_n.rhsIdx i q 1).val = (i 1).val := by
  unfold DotDims.rhsIdx
  rw [dif_neg (show ¬(1 : Fin S194x96.rank) ∈ dot_S2048x194_S194x96_S2048x96_1_0_0_1_n_n.rhsBatch by decide),
    dif_pos (show (1 : Fin S194x96.rank) ∈ dot_S2048x194_S194x96_S2048x96_1_0_0_1_n_n.rhsNonContracting by decide)]
  rfl

/-- Two blocks of 97 columns laid side by side, read at column k: the first block's column k below 97, else the second
    block's column k − 97. -/
private theorem cat_apply (v30 v31 : FVec Ideal S2048x97 .f32) (p : Fin 2048) (k : Fin 194) :
    concatenate S2048x194 1 [⟨S2048x97, v30⟩, ⟨S2048x97, v31⟩] concatenates_S2048x97_S2048x97_S2048x194_d1 (ix2 p k)
      = cat97 (fun k => v30 (ix2 p k)) (fun k => v31 (ix2 p k)) k := by
  unfold cat97
  split
  · next h =>
    exact concatenate_pair_apply_left 1 v30 v31 _ (ix2 p k) rfl (ix2 p ⟨k.val, h⟩)
      (fun b => by match b with | ⟨0, _⟩ => rfl | ⟨1, _⟩ => rfl)
  · next h =>
    exact concatenate_pair_apply_right 1 v30 v31 _ (ix2 p k) rfl rfl (ix2 p ⟨k.val - 97, by omega⟩)
      (fun b hb => by match b, hb with | ⟨0, _⟩, _ => rfl | ⟨1, _⟩, hb => exact absurd rfl hb)
      (by show (k.val - 97) + 97 = k.val; omega)

/-- The fused product: sample p's 194 features against row j of the 96 × 194 weight. -/
theorem pay4_apply (v30 v31 : Vec Ideal S2048x97 .f32) (v33 : Vec Ideal S96x194 .f32) (p : Fin 2048) (j : Fin 96) :
    k0_pay4 (F := Ideal) v30 v31 v33 (ix2 p j)
      = ∑ k : Fin 194, cat97 (fun k => v30 (ix2 p k)) (fun k => v31 (ix2 p k)) k * v33 (ix2 j k) := by
  unfold k0_pay4
  simp only [shapeCast_self, matmul]
  -- into the zero accumulator the product is the sum over the contraction index, re-indexed by its one coordinate
  rw [Ideal.matmul_constant_zero_apply,
    ← Equiv.sum_comp (contrEquiv1 dot_S2048x194_S194x96_S2048x96_1_0_0_1_n_n 194 rfl rfl).symm]
  refine Finset.sum_congr rfl fun k _ => ?_
  have hk := contrEquiv1_symm_val dot_S2048x194_S194x96_S2048x96_1_0_0_1_n_n 194 rfl rfl k
  have el : dot_S2048x194_S194x96_S2048x96_1_0_0_1_n_n.lhsIdx (ix2 p j)
      ((contrEquiv1 dot_S2048x194_S194x96_S2048x96_1_0_0_1_n_n 194 rfl rfl).symm k) = ix2 p k :=
    funext fun a => Fin.ext (by
      match a with
      | ⟨0, _⟩ => exact lhs_ax0 _ _
      | ⟨1, _⟩ => exact (lhs_ax1 _ _).trans hk)
  have er : dot_S2048x194_S194x96_S2048x96_1_0_0_1_n_n.rhsIdx (ix2 p j)
      ((contrEquiv1 dot_S2048x194_S194x96_S2048x96_1_0_0_1_n_n 194 rfl rfl).symm k) = ix2 k j :=
    funext fun a => Fin.ext (by
      match a with
      | ⟨0, _⟩ => exact (rhs_ax0 _ _).trans hk
      | ⟨1, _⟩ => exact rhs_ax1 _ _)
  -- the left factor is the side-by-side features at column k, the right one the transposed weight at (k, j)
  rw [el, er, cat_apply, transpose_ix2_apply]

/-! ## The bias added -/

theorem pay5_apply (v36 : FVec Ideal S1x96 .f32) (v38 : FVec Ideal S2048x96 .f32) (p : Fin 2048) (j : Fin 96) :
    k0_pay5 (F := Ideal) v36 v38 (ix2 p j) = v38 (ix2 p j) + v36 (ix2 0 j) := by
  unfold k0_pay5
  show v38 (ix2 p j) + broadcastTo S2048x96 v36 broadcasts_S1x96_S2048x96 (ix2 p j) = _
  rw [broadcastTo_1b_ab_apply]

/-! ## The masked selection of the sample's sixteen outputs -/

/-- The zero word denotes 0. -/
private theorem zero_word : (Scalar.ofBits .f32 0x00000000#32 : Ideal .f32) = 0 := Ideal.ofBits_zero_f32

/-- One column spread over sixteen: at (p, i) it reads the column's entry of row p. -/
private theorem col_apply {α : Type} (x : S2048x1.Idx → α) (p : Fin 2048) (i : Fin 16) :
    broadcastTo S2048x16 x broadcasts_S2048x1_S2048x16 (ix2 p i) = x (ix2 p 0) :=
  broadcastTo_apply x _ (ix2 p i) (ix2 p 0) fun a => by
    match a with
    | ⟨0, _⟩ => rfl
    | ⟨1, _⟩ => rfl

/-- The mask of bucket word k as a number: 1 where the sample's bucket word is k, else 0 (the one-bit comparison,
    widened to a word and read as a signed integer). -/
private theorem mask_apply (v29 : IVec S2048x1 32) (k : BitVec 32) (p : Fin 2048) (i : Fin 16) :
    broadcastTo S2048x16 (sitofp (F := Ideal) .f32 (extui 32 (cmpi .eq v29 (broadcast S2048x1 k)) natLt_1_32))
        broadcasts_S2048x1_S2048x16 (ix2 p i)
      = if v29 (ix2 p 0) = k then 1 else 0 := by
  rw [col_apply]
  show (((((IntOp.cmpi .eq (v29 (ix2 p 0)) k).setWidth 32).toInt : ℤ) : ℝ) : EReal) = _
  split
  · next h => rw [h]; simp [IntOp.cmpi]
  · next h =>
    have hb : (v29 (ix2 p 0) == k) = false := beq_false_of_ne h
    simp [IntOp.cmpi, hb]

/-- Two slices of eight columns, from columns o1 and o2, laid side by side and read at column i: column o1 + i of the
    source for i below 8, else column o2 + (i − 8). -/
private theorem pick_apply (z : FVec Ideal S2048x96 .f32) (o1 o2 : Nat) (h1 : S2048x96.Slices ![0, o1] S2048x8)
    (h2 : S2048x96.Slices ![0, o2] S2048x8) (p : Fin 2048) (i : Fin 16) :
    concatenate S2048x16 1 [⟨S2048x8, extractStridedSlice S2048x8 ![0, o1] z h1⟩,
        ⟨S2048x8, extractStridedSlice S2048x8 ![0, o2] z h2⟩] concatenates_S2048x8_S2048x8_S2048x16_d1 (ix2 p i)
      = if h : i.val < 8 then z (ix2 p ⟨o1 + i.val, Nat.lt_of_lt_of_le (Nat.add_lt_add_left h o1) (h1.2 1)⟩)
        else z (ix2 p ⟨o2 + (i.val - 8), Nat.lt_of_lt_of_le (Nat.add_lt_add_left (show i.val - 8 < 8 by omega) o2) (h2.2 1)⟩) := by
  split
  · next h =>
    refine (concatenate_pair_apply_left (t := S2048x16) (s₁ := S2048x8) (s₂ := S2048x8) 1 _ _ _ (ix2 p i) rfl (ix2 p ⟨i.val, h⟩)
      (fun b => by match b with | ⟨0, _⟩ => rfl | ⟨1, _⟩ => rfl)).trans ?_
    exact slice2_axis1_apply o1 z h1 p ⟨i.val, h⟩ _ rfl
  · next h =>
    refine (concatenate_pair_apply_right (t := S2048x16) (s₁ := S2048x8) (s₂ := S2048x8) 1 _ _ _ (ix2 p i) rfl rfl (ix2 p ⟨i.val - 8, by omega⟩)
      (fun b hb => by match b, hb with | ⟨0, _⟩, _ => rfl | ⟨1, _⟩, hb => exact absurd rfl hb)
      (by show (i.val - 8) + 8 = i.val; omega)).trans ?_
    exact slice2_axis1_apply o2 z h2 p ⟨i.val - 8, by omega⟩ _ rfl

/-- After the masks of buckets 0 … 4: the sixteen outputs of the sample's bucket if it is one of those, else 0. -/
theorem pay6_apply (v29 : IVec S2048x1 32) (v36 : FVec Ideal S1x96 .f32) (v38 : FVec Ideal S2048x96 .f32) (p : Fin 2048) (c : Fin 6)
    (hc : v29 (ix2 p 0) = BitVec.ofNat 32 c.val) (i : Fin 16) :
    k0_pay6 (F := Ideal) v29 v36 v38 (ix2 p i)
      = if c.val < 5 then l1xK c (fun j => v38 (ix2 p j) + v36 (ix2 0 j)) i else 0 := by
  unfold k0_pay6
  -- at (p, i): 0 plus, for k = 0 … 4, the mask of bucket k times the biased product at the i-th selected column of bucket k
  simp only [addf_apply, mulf_apply, broadcast_apply, mask_apply, pick_apply, pay5_apply, hc, zero_word]
  -- the sample's bucket is one of six: at most one mask is 1, and 0 · x = 0 for every extended real x
  obtain ⟨c, hc6⟩ := c
  interval_cases c <;> simp [l1xK]

end Cert.KernelIdeal.KPay

end
-- ==== Proof.KPayB.lean ====
/-
  The middle stretch of the kernel body at an index: the sixth bucket mask completes the sixteen selected layer-1
  outputs; squared-and-scaled then plain, clipped and floored they are the thirty-two inputs of the layer-2 product;
  its 384 outputs plus bias, summed over the six bucket masks, clipped and floored, are the sample's sixty-four activations.

  A bucket mask is 1 on the samples whose bucket word is its bucket and 0 elsewhere, and 0 · x = 0 for every extended
  real x, so a sum of masked blocks over the six buckets is the block of the sample's own bucket. The stretch is cut
  into named stages (the selection of sixteen, the thirty-two side by side, the clip-and-floor, the affine map, a masked
  block of sixty-four columns), each read at a sample p and a column, and the three payloads are compositions of them.
-/
import proofs.«419896_j55293408969355_3_alg».proof.Proof.Gen.KernelIdeal.Skeleton
import proofs.«419896_j55293408969355_3_alg».proof.Proof.Spec
import Idealize.ShloMosaic.PureOps.Ideal.Laws
import Idealize.ShloMosaic.Lib.Pipeline.Value
import Idealize.ShloMosaic.Lib.ValueLayout

noncomputable section

namespace Cert.KernelIdeal.KPay

open Cert.KernelIdeal Cert.KernelIdeal.Gen Cert.Spec Idealize.ShloMosaic Idealize.ShloMosaic.ValueIdx Idealize.ShloMosaic.TcCoe Idealize.SL.Sem
open scoped BigOperators

namespace MidStretch

/-! ## Layout operations on a block of rows, read at (p, i) -/

/-- A column [a, 1] broadcast along the rows' entries reads, at (p, c), the column at p. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two blocks laid side by side read, left of the seam, the first … -/
theorem catCols_left {α : Type} {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (i : Fin c) (hi : i.val < a) :
    concatenate ⟨2, ![n, c]⟩ 1 [⟨⟨2, ![n, a]⟩, x₁⟩, ⟨⟨2, ![n, b]⟩, x₂⟩] h (ix2 p i) = x₁ (ix2 p ⟨i.val, hi⟩) :=
  concatenate_pair_apply_left 1 x₁ x₂ h (ix2 p i) rfl (ix2 p ⟨i.val, hi⟩)
    (fun d => by match d with | ⟨0, _⟩ => rfl | ⟨1, _⟩ => rfl)

/-- … and from the seam on the second, the first's width less. -/
theorem catCols_right {α : Type} {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (i : Fin c) (hi : a ≤ i.val)
    (hb : i.val - a < b) :
    concatenate ⟨2, ![n, c]⟩ 1 [⟨⟨2, ![n, a]⟩, x₁⟩, ⟨⟨2, ![n, b]⟩, x₂⟩] h (ix2 p i) = x₂ (ix2 p ⟨i.val - a, hb⟩) :=
  concatenate_pair_apply_right 1 x₁ x₂ h (ix2 p i) rfl rfl (ix2 p ⟨i.val - a, hb⟩)
    (fun d hd => by match d with | ⟨0, _⟩ => rfl | ⟨1, _⟩ => exact absurd rfl hd)
    (by show (i.val - a) + a = i.val; omega)

/-! ## A bucket mask -/

theorem cmpi_eq_word (x y : BitVec 32) : IntOp.cmpi .eq x y = if x = y then 1#1 else 0#1 := by
  unfold IntOp.cmpi
  by_cases h : x = y
  · rw [if_pos h]; subst h; simp
  · rw [if_neg h]
    have hb : (x == y) = false := beq_eq_false_iff_ne.mpr h
    show BitVec.ofBool (x == y) = 0#1
    rw [hb]; rfl

/-- The mask of bucket k at sample p: 1 where the sample's bucket word is k, else 0. -/
theorem mask_apply (v29 : IVec S2048x1 32) (k : BitVec 32) (p : Fin 2048) :
    (sitofp (F := Ideal) .f32 (extui 32 (cmpi .eq v29 (broadcast S2048x1 k)) natLt_1_32)) (ix2 p 0)
      = if v29 (ix2 p 0) = k then (1 : EReal) else 0 := by
  show ((((IntOp.cmpi .eq (v29 (ix2 p 0)) k).setWidth 32).toInt : ℝ) : EReal) = _
  rw [cmpi_eq_word]
  by_cases h : v29 (ix2 p 0) = k
  · rw [if_pos h, if_pos h]; norm_num
  · rw [if_neg h, if_neg h]; norm_num

theorem word_eq_iff (c k : Fin 6) : BitVec.ofNat 32 c.val = BitVec.ofNat 32 k.val ↔ c = k := by
  revert c k; decide

/-! ## The layer-2 product read at (p, j) -/

theorem lhs_axis0 (j : S2048x384.Idx) (k : dot_S2048x32_S32x384_S2048x384_1_0_0_1_n_n.contr.Idx) :
    (dot_S2048x32_S32x384_S2048x384_1_0_0_1_n_n.lhsIdx j k 0).val = (j 0).val := by
  simp [DotDims.lhsIdx, dot_S2048x32_S32x384_S2048x384_1_0_0_1_n_n]; rfl

theorem lhs_axis1 (j : S2048x384.Idx) (k : dot_S2048x32_S32x384_S2048x384_1_0_0_1_n_n.contr.Idx) :
    (dot_S2048x32_S32x384_S2048x384_1_0_0_1_n_n.lhsIdx j k 1).val = (k ⟨0, by decide⟩).val :=
  dot_S2048x32_S32x384_S2048x384_1_0_0_1_n_n.lhsIdx_val_of_single rfl j k

theorem rhs_axis0 (j : S2048x384.Idx) (k : dot_S2048x32_S32x384_S2048x384_1_0_0_1_n_n.contr.Idx) :
    (dot_S2048x32_S32x384_S2048x384_1_0_0_1_n_n.rhsIdx j k 0).val = (k ⟨0, by decide⟩).val :=
  dot_S2048x32_S32x384_S2048x384_1_0_0_1_n_n.rhsIdx_val_of_single rfl j k

theorem rhs_axis1 (j : S2048x384.Idx) (k : dot_S2048x32_S32x384_S2048x384_1_0_0_1_n_n.contr.Idx) :
    (dot_S2048x32_S32x384_S2048x384_1_0_0_1_n_n.rhsIdx j k 1).val = (j 1).val := by
  simp [DotDims.rhsIdx, dot_S2048x32_S32x384_S2048x384_1_0_0_1_n_n]; rfl

/-- The product into zeros: row p of the left factor against column j of the right, summed over the thirty-two
    contracted entries. -/
theorem matmul32_apply (A : FVec Ideal S2048x32 .f32) (B : FVec Ideal S32x384 .f32) (p : Fin 2048) (j : Fin 384) :
    matmul dot_S2048x32_S32x384_S2048x384_1_0_0_1_n_n (some .fp32) A B (constant (F := Ideal) S2048x384 .f32 0x00000000#32) (ix2 p j)
      = ∑ i : Fin 32, A (ix2 p i) * B (ix2 i j) := by
  show FloatOps.matmul _ _ A B (constant (F := Ideal) S2048x384 .f32 0x00000000#32) (ix2 p j) = _
  rw [Ideal.matmul_constant_zero_apply,
    ← Equiv.sum_comp (contrEquiv1 dot_S2048x32_S32x384_S2048x384_1_0_0_1_n_n 32 rfl rfl).symm]
  refine Finset.sum_congr rfl fun i _ => ?_
  have ci := contrEquiv1_symm_val dot_S2048x32_S32x384_S2048x384_1_0_0_1_n_n 32 rfl rfl i
  have l2 : dot_S2048x32_S32x384_S2048x384_1_0_0_1_n_n.lhsIdx (ix2 p j)
      ((contrEquiv1 dot_S2048x32_S32x384_S2048x384_1_0_0_1_n_n 32 rfl rfl).symm i) = ix2 p i := by
    funext ax; apply Fin.ext
    match ax with
    | ⟨0, _⟩ => exact lhs_axis0 _ _
    | ⟨1, _⟩ => exact (lhs_axis1 _ _).trans ci
  have r2 : dot_S2048x32_S32x384_S2048x384_1_0_0_1_n_n.rhsIdx (ix2 p j)
      ((contrEquiv1 dot_S2048x32_S32x384_S2048x384_1_0_0_1_n_n 32 rfl rfl).symm i) = ix2 i j := by
    funext ax; apply Fin.ext
    match ax with
    | ⟨0, _⟩ => exact (rhs_axis0 _ _).trans ci
    | ⟨1, _⟩ => exact rhs_axis1 _ _
  rw [l2, r2]

/-! ## The stages of the middle stretch, named -/

/-- The mask of bucket k, as a column. -/
def maskCol (v29 : IVec S2048x1 32) (k : BitVec 32) : FVec Ideal S2048x1 .f32 :=
  sitofp .f32 (extui 32 (cmpi .eq v29 (broadcast S2048x1 k)) natLt_1_32)

theorem maskCol_apply (v29 : IVec S2048x1 32) (p : Fin 2048) (c k : Fin 6) (hc : v29 (ix2 p 0) = BitVec.ofNat 32 c.val) :
    maskCol v29 (BitVec.ofNat 32 k.val) (ix2 p 0) = if c = k then (1 : EReal) else 0 := by
  unfold maskCol
  rw [mask_apply, hc]
  by_cases h : c = k
  · rw [if_pos h, if_pos ((word_eq_iff c k).mpr h)]
  · rw [if_neg h, if_neg (fun e => h ((word_eq_iff c k).mp e))]

/-- The sixteen selected layer-1 outputs once the sixth mask is added. -/
def sel16 (v29 : IVec S2048x1 32) (v40 : FVec Ideal S2048x96 .f32) (v91 : FVec Ideal S2048x16 .f32) : FVec Ideal S2048x16 .f32 :=
  addf v91 (mulf (broadcastTo S2048x16 (maskCol v29 5#32) broadcasts_S2048x1_S2048x16)
    (concatenate S2048x16 1 [⟨S2048x8, extractStridedSlice S2048x8 ![0, 40] v40 slices_S2048x96_o0_40_S2048x8⟩,
      ⟨S2048x8, extractStridedSlice S2048x8 ![0, 88] v40 slices_S2048x96_o0_88_S2048x8⟩] concatenates_S2048x8_S2048x8_S2048x16_d1))

theorem sel16_apply (v29 : IVec S2048x1 32) (v40 : FVec Ideal S2048x96 .f32) (v91 : FVec Ideal S2048x16 .f32) (p : Fin 2048) (c : Fin 6)
    (hc : v29 (ix2 p 0) = BitVec.ofNat 32 c.val)
    (h91 : ∀ i : Fin 16, v91 (ix2 p i) = if c.val < 5 then l1xK c (fun j => v40 (ix2 p j)) i else 0) (i : Fin 16) :
    sel16 v29 v40 v91 (ix2 p i) = l1xK c (fun j => v40 (ix2 p j)) i := by
  unfold sel16
  rw [addf_apply, mulf_apply, bcastCol_apply, h91]
  rw [show (5#32 : BitVec 32) = BitVec.ofNat 32 (5 : Fin 6).val from rfl, maskCol_apply v29 p c 5 hc]
  by_cases h5 : c.val < 5
  · have hne : ¬ c = 5 := fun e => by subst e; exact absurd h5 (by decide)
    rw [if_pos h5, if_neg hne, zero_mul, add_zero]
  · have hc5 : c = 5 := Fin.ext (by have := c.isLt; show c.val = 5; omega)
    subst hc5
    rw [if_neg h5, if_pos rfl, one_mul, zero_add]
    unfold l1xK
    split
    · next hi =>
      rw [catCols_left _ _ _ p i hi, slice2_axis1_eq]
      exact congrArg v40 (congrArg (ix2 p) (Fin.ext (by show 40 + i.val = 8 * 5 + i.val; omega)))
    · next hi =>
      rw [catCols_right _ _ _ p i (by omega) (by have := i.isLt; omega), slice2_axis1_eq]
      exact congrArg v40 (congrArg (ix2 p) (Fin.ext (by show 88 + (i.val - 8) = 48 + 8 * 5 + (i.val - 8); omega)))

/-- Clipped to [0, 1] and floored to the grid of 1/127, entry by entry. -/
def actV {s : Shape} (x : FVec Ideal s .f32) : FVec Ideal s .f32 :=
  divf (floor (mulf (minimumf (broadcast s (Scalar.ofBits .f32 0x3F800000#32))
    (maximumf (broadcast s (Scalar.ofBits .f32 0x00000000#32)) x)) (broadcast s (Scalar.ofBits .f32 0x42FE0000#32))))
    (broadcast s (Scalar.ofBits .f32 0x42FE0000#32))

theorem actV_apply {s : Shape} (x : FVec Ideal s .f32) (j : s.Idx) : actV x j = act (x j) := rfl

/-- The thirty-two inputs of layer 2 before clipping: the scaled squares beside the values. -/
def cat32 (v101 : FVec Ideal S2048x16 .f32) : FVec Ideal S2048x32 .f32 :=
  concatenate S2048x32 1 [⟨S2048x16, mulf (mulf v101 v101) (broadcast S2048x16 (Scalar.ofBits .f32 0x3F7E0000#32))⟩,
    ⟨S2048x16, v101⟩] concatenates_S2048x16_S2048x16_S2048x32_d1

theorem cat32_apply (v101 : FVec Ideal S2048x16 .f32) (p : Fin 2048) (i : Fin 32) :
    cat32 v101 (ix2 p i) = l1cat (fun i => v101 (ix2 p i)) i := by
  unfold cat32 l1cat
  split
  · next hi => rw [catCols_left _ _ _ p i hi]; rfl
  · next hi => rw [catCols_right _ _ _ p i (by omega) (by have := i.isLt; omega)]

/-- The layer-2 affine map: the product with the transposed weight into zeros, plus the bias row. -/
def lin384 (v114 : FVec Ideal S2048x32 .f32) (v115 : Vec Ideal S384x32 .f32) (v117 : Vec Ideal S1x384 .f32) : FVec Ideal S2048x384 .f32 :=
  addf (matmul dot_S2048x32_S32x384_S2048x384_1_0_0_1_n_n (some .fp32) v114
      (transpose S32x384 [1, 0] (shapeCast S384x32 v115 shapeCasts_S384x32_S384x32 : FVec Ideal S384x32 .f32) transposes_S384x32_p1_0_S32x384)
      (constant S2048x384 .f32 0x00000000#32))
    (broadcastTo S2048x384 (shapeCast S1x384 v117 shapeCasts_S1x384_S1x384 : FVec Ideal S1x384 .f32) broadcasts_S1x384_S2048x384)

theorem lin384_apply (v114 : FVec Ideal S2048x32 .f32) (v115 : Vec Ideal S384x32 .f32) (v117 : Vec Ideal S1x384 .f32) (p : Fin 2048) (j : Fin 384) :
    lin384 v114 v115 v117 (ix2 p j) = zK2 (fun i => v114 (ix2 p i)) (fun j i => v115 (ix2 j i)) (fun j => v117 (ix2 0 j)) j := by
  unfold lin384 zK2
  rw [addf_apply, matmul32_apply, broadcastTo_1b_ab_apply, shapeCast_self, shapeCast_self]
  refine congrArg (· + v117 (ix2 0 j)) (Finset.sum_congr rfl fun i _ => ?_)
  rw [transpose_ix2_apply]

/-- The middle stretch's first payload is the three stages composed. -/
theorem pay7_eq (v29 : IVec S2048x1 32) (v40 : FVec Ideal S2048x96 .f32) (v91 : FVec Ideal S2048x16 .f32)
    (v115 : Vec Ideal S384x32 .f32) (v117 : Vec Ideal S1x384 .f32) :
    k0_pay7 (F := Ideal) v29 v40 v91 5#32 v115 v117 = lin384 (actV (cat32 (sel16 v29 v40 v91))) v115 v117 := rfl

/-- Sample p's 384 layer-2 outputs. -/
theorem pay7_apply (v29 : IVec S2048x1 32) (v40 : FVec Ideal S2048x96 .f32) (v91 : FVec Ideal S2048x16 .f32)
    (v115 : Vec Ideal S384x32 .f32) (v117 : Vec Ideal S1x384 .f32) (p : Fin 2048) (c : Fin 6)
    (hc : v29 (ix2 p 0) = BitVec.ofNat 32 c.val)
    (h91 : ∀ i : Fin 16, v91 (ix2 p i) = if c.val < 5 then l1xK c (fun j => v40 (ix2 p j)) i else 0) (j : Fin 384) :
    k0_pay7 (F := Ideal) v29 v40 v91 5#32 v115 v117 (ix2 p j)
      = zK2 (fun i => act (l1cat (l1xK c (fun j => v40 (ix2 p j))) i)) (fun j i => v115 (ix2 j i)) (fun j => v117 (ix2 0 j)) j := by
  rw [pay7_eq, lin384_apply]
  refine congrArg (fun a => zK2 a (fun j i => v115 (ix2 j i)) (fun j => v117 (ix2 0 j)) j) (funext fun i => ?_)
  rw [actV_apply, cat32_apply]
  exact congrArg (fun l => act (l1cat l i)) (funext fun i' => sel16_apply v29 v40 v91 p c hc h91 i')

/-! ## The sum over the six bucket masks of the sixty-four-wide column blocks -/

/-- The mask of bucket k times the sixty-four outputs from column o on. -/
def maskedBlock (v29 : IVec S2048x1 32) (k : BitVec 32) (o : ℕ) (v122 : FVec Ideal S2048x384 .f32)
    (h : S2048x384.Slices ![0, o] S2048x64) : FVec Ideal S2048x64 .f32 :=
  mulf (broadcastTo S2048x64 (maskCol v29 k) broadcasts_S2048x1_S2048x64) (extractStridedSlice S2048x64 ![0, o] v122 h)

theorem maskedBlock_apply (v29 : IVec S2048x1 32) (v122 : FVec Ideal S2048x384 .f32) (p : Fin 2048) (c k : Fin 6)
    (hc : v29 (ix2 p 0) = BitVec.ofNat 32 c.val) (o : ℕ) (h : S2048x384.Slices ![0, o] S2048x64) (q : Fin 64) :
    maskedBlock v29 (BitVec.ofNat 32 k.val) o v122 h (ix2 p q)
      = (if c = k then (1 : EReal) else 0)
          * v122 (ix2 p ⟨o + q.val, Nat.lt_of_lt_of_le (Nat.add_lt_add_left q.isLt o) (h.2 1)⟩) := by
  unfold maskedBlock
  rw [mulf_apply, bcastCol_apply, maskCol_apply v29 p c k hc, slice2_axis1_eq]

theorem pay8_eq (v29 : IVec S2048x1 32) (v40 : FVec Ideal S2048x96 .f32) (v91 : FVec Ideal S2048x16 .f32)
    (v115 : Vec Ideal S384x32 .f32) (v117 : Vec Ideal S1x384 .f32) :
    k0_pay8 (F := Ideal) v29 v40 v91 5#32 v115 v117
      = addf (broadcast S2048x64 (Scalar.ofBits .f32 0x00000000#32))
          (maskedBlock v29 (BitVec.ofNat 32 (0 : Fin 6).val) 0 (k0_pay7 v29 v40 v91 5#32 v115 v117) slices_S2048x384_o0_0_S2048x64) := rfl

theorem pay9_eq (v29 : IVec S2048x1 32) (v40 : FVec Ideal S2048x96 .f32) (v91 : FVec Ideal S2048x16 .f32)
    (v115 : Vec Ideal S384x32 .f32) (v117 : Vec Ideal S1x384 .f32) :
    k0_pay9 (F := Ideal) v29 v40 v91 5#32 v115 v117
      = maskedBlock v29 (BitVec.ofNat 32 (1 : Fin 6).val) 64 (k0_pay7 v29 v40 v91 5#32 v115 v117) slices_S2048x384_o0_64_S2048x64 := rfl

theorem pay10_eq (v29 : IVec S2048x1 32) (v122 : FVec Ideal S2048x384 .f32) (v131 v138 : FVec Ideal S2048x64 .f32) :
    k0_pay10 (F := Ideal) v29 v122 v131 v138
      = actV (addf (addf (addf (addf (addf v131 v138)
          (maskedBlock v29 (BitVec.ofNat 32 (2 : Fin 6).val) 128 v122 slices_S2048x384_o0_128_S2048x64))
          (maskedBlock v29 (BitVec.ofNat 32 (3 : Fin 6).val) 192 v122 slices_S2048x384_o0_192_S2048x64))
          (maskedBlock v29 (BitVec.ofNat 32 (4 : Fin 6).val) 256 v122 slices_S2048x384_o0_256_S2048x64))
          (maskedBlock v29 (BitVec.ofNat 32 (5 : Fin 6).val) 320 v122 slices_S2048x384_o0_320_S2048x64)) := rfl

/-- Exactly one mask is 1: the six masked blocks sum to block c. -/
theorem mix6_apply (v29 : IVec S2048x1 32) (v122 : FVec Ideal S2048x384 .f32) (p : Fin 2048) (c : Fin 6)
    (hc : v29 (ix2 p 0) = BitVec.ofNat 32 c.val) (q : Fin 64) :
    (addf (addf (addf (addf (addf
        (addf (broadcast S2048x64 (Scalar.ofBits .f32 0x00000000#32))
          (maskedBlock v29 (BitVec.ofNat 32 (0 : Fin 6).val) 0 v122 slices_S2048x384_o0_0_S2048x64))
        (maskedBlock v29 (BitVec.ofNat 32 (1 : Fin 6).val) 64 v122 slices_S2048x384_o0_64_S2048x64))
        (maskedBlock v29 (BitVec.ofNat 32 (2 : Fin 6).val) 128 v122 slices_S2048x384_o0_128_S2048x64))
        (maskedBlock v29 (BitVec.ofNat 32 (3 : Fin 6).val) 192 v122 slices_S2048x384_o0_192_S2048x64))
        (maskedBlock v29 (BitVec.ofNat 32 (4 : Fin 6).val) 256 v122 slices_S2048x384_o0_256_S2048x64))
        (maskedBlock v29 (BitVec.ofNat 32 (5 : Fin 6).val) 320 v122 slices_S2048x384_o0_320_S2048x64)) (ix2 p q)
      = v122 (ix2 p ⟨64 * c.val + q.val, by have := c.isLt; have := q.isLt; omega⟩) := by
  have z : (Scalar.ofBits (F := Ideal) .f32 0x00000000#32) = (0 : EReal) := Ideal.ofBits_zero_f32
  simp only [addf_apply, broadcast_apply, maskedBlock_apply v29 v122 p c _ hc, z]
  clear hc
  fin_cases c <;> simp

end MidStretch

open MidStretch in
theorem pay10_apply (v29 : IVec S2048x1 32) (v40 : FVec Ideal S2048x96 .f32) (v91 : FVec Ideal S2048x16 .f32)
    (v115 : Vec Ideal S384x32 .f32) (v117 : Vec Ideal S1x384 .f32) (p : Fin 2048) (c : Fin 6)
    (hc : v29 (ix2 p 0) = BitVec.ofNat 32 c.val)
    (h91 : ∀ i : Fin 16, v91 (ix2 p i) = if c.val < 5 then l1xK c (fun j => v40 (ix2 p j)) i else 0) (k : Fin 64) :
    k0_pay10 (F := Ideal) v29 (k0_pay7 v29 v40 v91 5#32 v115 v117) (k0_pay8 v29 v40 v91 5#32 v115 v117)
        (k0_pay9 v29 v40 v91 5#32 v115 v117) (ix2 p k)
      = act (sel64 c (zK2 (fun i => act (l1cat (l1xK c (fun j => v40 (ix2 p j))) i))
          (fun j i => v115 (ix2 j i)) (fun j => v117 (ix2 0 j))) k) := by
  rw [pay8_eq, pay9_eq, pay10_eq, actV_apply, mix6_apply v29 _ p c hc k, pay7_apply v29 v40 v91 v115 v117 p c hc h91]
  rfl

end Cert.KernelIdeal.KPay

end
-- ==== Proof.KPayC.lean ====
/-
  The last stretch of the kernel body at an index: the sums over the six bucket masks of the last weight's rows and of
  the last bias's entries are row c and entry c; the lane sum of the products plus that entry, floored to the grid of 1/600.
-/
import proofs.«419896_j55293408969355_3_alg».proof.Proof.Gen.KernelIdeal.Skeleton
import proofs.«419896_j55293408969355_3_alg».proof.Proof.Spec
import Idealize.ShloMosaic.PureOps.Ideal.Laws
import Idealize.ShloMosaic.Lib.Pipeline.Value
import Idealize.ShloMosaic.Lib.ValueLayout

noncomputable section

namespace Cert.KernelIdeal.KPay

open Cert.KernelIdeal Cert.KernelIdeal.Gen Cert.Spec Idealize.ShloMosaic Idealize.ShloMosaic.ValueIdx Idealize.ShloMosaic.TcCoe Idealize.SL.Sem
open scoped BigOperators

/-- A cast to the same shape changes nothing. -/
theorem pay11_eq (v181 : Vec Ideal S6x64 .f32) : k0_pay11 (F := Ideal) v181 = v181 := by
  unfold k0_pay11
  exact shapeCast_self _ _
/-- The same for the last bias. -/
theorem pay12_eq (v183 : Vec Ideal S1x6 .f32) : k0_pay12 (F := Ideal) v183 = v183 := by
  unfold k0_pay12
  exact shapeCast_self _ _

/-- The indicator of "the sample's bucket word is w". -/
private def ind (v29 : IVec S2048x1 32) (p : Fin 2048) (w : BitVec 32) : EReal := if v29 (ix2 p 0) = w then 1 else 0

/-- A bucket mask at a sample: the comparison's bit, widened and read as a number, is the indicator. -/
private theorem mask_apply (v29 : IVec S2048x1 32) (w : BitVec 32) (p : Fin 2048) :
    (sitofp .f32 (extui 32 (cmpi .eq v29 (broadcast S2048x1 w)) natLt_1_32) : FVec Ideal S2048x1 .f32) (ix2 p 0)
      = ind v29 p w := by
  show ((((IntOp.cmpi .eq (v29 (ix2 p 0)) w).setWidth 32).toInt : ℝ) : EReal) = _
  unfold ind
  by_cases h : v29 (ix2 p 0) = w
  · rw [if_pos h, h]
    simp [IntOp.cmpi]
  · rw [if_neg h]
    have hb : (v29 (ix2 p 0) == w) = false := by simpa using h
    simp [IntOp.cmpi, hb]

/-! Layout operations of this stretch, read at a sample and a lane. -/

/-- A column broadcast along the lanes reads the column's entry. -/
private theorem bcol (x : FVec Ideal S2048x1 .f32) (p : Fin 2048) (k : Fin 64) :
    broadcastTo S2048x64 x broadcasts_S2048x1_S2048x64 (ix2 p k) = x (ix2 p 0) := by
  refine broadcastTo_apply x _ (ix2 p k) (ix2 p 0) fun ax => ?_
  match ax with
  | ⟨0, _⟩ => rfl
  | ⟨1, _⟩ => rfl

/-- A row broadcast over the samples reads the row's entry. -/
private theorem brow (x : FVec Ideal S1x64 .f32) (p : Fin 2048) (k : Fin 64) :
    broadcastTo S2048x64 x broadcasts_S1x64_S2048x64 (ix2 p k) = x (ix2 0 k) :=
  broadcastTo_1b_ab_apply x _ p k

/-- One entry broadcast over the samples. -/
private theorem bone (x : FVec Ideal S1x1 .f32) (p : Fin 2048) :
    broadcastTo S2048x1 x broadcasts_S1x1_S2048x1 (ix2 p 0) = x (ix2 0 0) := by
  refine broadcastTo_apply x _ (ix2 p 0) (ix2 0 0) fun ax => ?_
  match ax with
  | ⟨0, _⟩ => rfl
  | ⟨1, _⟩ => rfl

/-- Row r of the last weight, cut out as a one-row matrix. -/
private theorem srow (v182 : FVec Ideal S6x64 .f32) (r : Nat) (hr : r < 6) (h : S6x64.Slices ![r, 0] S1x64) (k : Fin 64) :
    extractStridedSlice S1x64 ![r, 0] v182 h (ix2 0 k) = v182 (ix2 ⟨r, hr⟩ k) :=
  slice2_axis0_apply r v182 h 0 k ⟨r, hr⟩ rfl

/-- Entry r of the last bias, cut out as a one-entry matrix. -/
private theorem scol (v184 : FVec Ideal S1x6 .f32) (r : Nat) (hr : r < 6) (h : S1x6.Slices ![0, r] S1x1) :
    extractStridedSlice S1x1 ![0, r] v184 h (ix2 0 0) = v184 (ix2 0 ⟨r, hr⟩) :=
  slice2_axis1_apply r v184 h 0 0 ⟨r, hr⟩ rfl

/-! The masks of buckets 0 to 3, read at a sample, are the indicators of the words 0 to 3. -/

private theorem pay14_apply (v29 : IVec S2048x1 32) (p : Fin 2048) : k0_pay14 (F := Ideal) v29 (ix2 p 0) = ind v29 p 0#32 := by
  unfold k0_pay14; exact mask_apply v29 _ p
private theorem pay15_apply (v29 : IVec S2048x1 32) (p : Fin 2048) : k0_pay15 (F := Ideal) v29 (ix2 p 0) = ind v29 p 1#32 := by
  unfold k0_pay15; exact mask_apply v29 _ p
private theorem pay16_apply (v29 : IVec S2048x1 32) (p : Fin 2048) : k0_pay16 (F := Ideal) v29 (ix2 p 0) = ind v29 p 2#32 := by
  unfold k0_pay16; exact mask_apply v29 _ p
private theorem pay17_apply (v29 : IVec S2048x1 32) (p : Fin 2048) : k0_pay17 (F := Ideal) v29 (ix2 p 0) = ind v29 p 3#32 := by
  unfold k0_pay17; exact mask_apply v29 _ p

/-- The sum over buckets 0 to 3 of mask times row, added to the zero block, at a sample and a lane. -/
private theorem pay18_apply (v29 : IVec S2048x1 32) (v182 : FVec Ideal S6x64 .f32) (p : Fin 2048) (k : Fin 64) :
    k0_pay18 (F := Ideal) v29 v182 k0_pay13 (ix2 p k)
      = 0 + ind v29 p 0#32 * v182 (ix2 ⟨0, by decide⟩ k) + ind v29 p 1#32 * v182 (ix2 ⟨1, by decide⟩ k)
          + ind v29 p 2#32 * v182 (ix2 ⟨2, by decide⟩ k) + ind v29 p 3#32 * v182 (ix2 ⟨3, by decide⟩ k) := by
  unfold k0_pay18 k0_pay13
  simp only [addf_apply, mulf_apply, bcol, brow, broadcast_apply, pay14_apply, pay15_apply, pay16_apply, pay17_apply,
    srow _ 0 (by decide), srow _ 1 (by decide), srow _ 2 (by decide), srow _ 3 (by decide)]
  rw [Ideal.ofBits_def, Ideal.ofBits_zero_f32]

/-- The sum over buckets 0 to 3 of mask times bias entry, added to zero, at a sample. -/
private theorem pay19_apply (v29 : IVec S2048x1 32) (v184 : FVec Ideal S1x6 .f32) (p : Fin 2048) :
    k0_pay19 (F := Ideal) v29 v184 (ix2 p 0)
      = 0 + ind v29 p 0#32 * v184 (ix2 0 ⟨0, by decide⟩) + ind v29 p 1#32 * v184 (ix2 0 ⟨1, by decide⟩)
          + ind v29 p 2#32 * v184 (ix2 0 ⟨2, by decide⟩) + ind v29 p 3#32 * v184 (ix2 0 ⟨3, by decide⟩) := by
  unfold k0_pay19
  simp only [addf_apply, mulf_apply, bone, broadcast_apply, pay14_apply, pay15_apply, pay16_apply, pay17_apply,
    scol _ 0 (by decide), scol _ 1 (by decide), scol _ 2 (by decide), scol _ 3 (by decide)]
  rw [Ideal.ofBits_def, Ideal.ofBits_zero_f32]

/-- A lane sum into zeros, read at a sample, is the sum over the sample's lanes. -/
private theorem lanesum (v : FVec Ideal S2048x64 .f32) (hφ : FKind.Formats .f32) (hacc : (0x00000000#32 : BitVec 32) = 0x00000000#32)
    (p : Fin 2048) :
    multiReduction (F := Ideal) .add [1] S2048 v 0x00000000#32 reduces_S2048x64_S2048 hφ hacc (ix1 p) = ∑ k : Fin 64, v (ix2 p k) := by
  refine (Ideal.multiReduction_add_single v 0x00000000#32 reduces_S2048x64_S2048 hφ hacc (ix1 p)).trans ?_
  refine Finset.sum_congr rfl fun k _ => congrArg v ?_
  funext a
  match a with
  | ⟨0, _⟩ => rfl
  | ⟨1, _⟩ => rfl

/-- A vector viewed as a column reads its entry. -/
private theorem ccol (v : FVec Ideal S2048 .f32) (p : Fin 2048) :
    shapeCast S2048x1 v shapeCasts_S2048_S2048x1 (ix2 p 0) = v (ix1 p) :=
  shapeCast_apply v _ _ _ (by
    rw [Shape.rowMajor_val_one, Shape.rowMajor_val_two]
    show p.val = p.val * 1 + 0
    omega)

/-- A floor read at an index. -/
private theorem floor_apply {s : Shape} (x : FVec Ideal s .f32) (i : s.Idx) : floor x i = Ideal.liftRound Int.floor (x i) := rfl

/-- Of the six indicators of a sample whose bucket is c, exactly the c-th is one. -/
private theorem pick6 (v29 : IVec S2048x1 32) (p : Fin 2048) (c : Fin 6) (hc : v29 (ix2 p 0) = BitVec.ofNat 32 c.val)
    (x0 x1 x2 x3 x4 x5 : EReal) :
    0 + ind v29 p 0#32 * x0 + ind v29 p 1#32 * x1 + ind v29 p 2#32 * x2 + ind v29 p 3#32 * x3
        + ind v29 p 4#32 * x4 + ind v29 p 5#32 * x5
      = (![x0, x1, x2, x3, x4, x5] : Fin 6 → EReal) c := by
  unfold ind
  rw [hc]
  fin_cases c <;> simp

/-- The masked sum of the last weight's rows, at a lane, is row c's entry. -/
private theorem pick_row (v29 : IVec S2048x1 32) (p : Fin 2048) (c : Fin 6) (hc : v29 (ix2 p 0) = BitVec.ofNat 32 c.val)
    (v182 : FVec Ideal S6x64 .f32) (k : Fin 64) :
    0 + ind v29 p 0#32 * v182 (ix2 ⟨0, by decide⟩ k) + ind v29 p 1#32 * v182 (ix2 ⟨1, by decide⟩ k)
        + ind v29 p 2#32 * v182 (ix2 ⟨2, by decide⟩ k) + ind v29 p 3#32 * v182 (ix2 ⟨3, by decide⟩ k)
        + ind v29 p 4#32 * v182 (ix2 ⟨4, by decide⟩ k) + ind v29 p 5#32 * v182 (ix2 ⟨5, by decide⟩ k)
      = v182 (ix2 c k) := by
  rw [pick6 v29 p c hc]
  fin_cases c <;> rfl

/-- The masked sum of the last bias's entries is entry c. -/
private theorem pick_bias (v29 : IVec S2048x1 32) (p : Fin 2048) (c : Fin 6) (hc : v29 (ix2 p 0) = BitVec.ofNat 32 c.val)
    (v184 : FVec Ideal S1x6 .f32) :
    0 + ind v29 p 0#32 * v184 (ix2 0 ⟨0, by decide⟩) + ind v29 p 1#32 * v184 (ix2 0 ⟨1, by decide⟩)
        + ind v29 p 2#32 * v184 (ix2 0 ⟨2, by decide⟩) + ind v29 p 3#32 * v184 (ix2 0 ⟨3, by decide⟩)
        + ind v29 p 4#32 * v184 (ix2 0 ⟨4, by decide⟩) + ind v29 p 5#32 * v184 (ix2 0 ⟨5, by decide⟩)
      = v184 (ix2 0 c) := by
  rw [pick6 v29 p c hc]
  fin_cases c <;> rfl

/-- The body's last value at a sample of bucket c: buckets 4 and 5 complete the two masked sums, which are then row c and
    entry c of the last weight and bias; the lane sum of activation times row entry, plus the bias entry, floored to the
    grid of 1/600. -/
theorem pay1_apply (v29 : IVec S2048x1 32) (v180 : FVec Ideal S2048x64 .f32) (v182 : FVec Ideal S6x64 .f32) (v184 : FVec Ideal S1x6 .f32)
    (p : Fin 2048) (c : Fin 6) (hc : v29 (ix2 p 0) = BitVec.ofNat 32 c.val) :
    k0_pay1 (F := Ideal) v29 v180 v182 v184 (k0_pay18 v29 v182 k0_pay13) (k0_pay19 v29 v184) k0_pay20 (ix2 p 0)
      = qf (lit 0x44160000#32) (outK c (fun k => v180 (ix2 p k)) (fun c' k => v182 (ix2 c' k)) (fun c' => v184 (ix2 0 c'))) := by
  unfold k0_pay1 k0_pay20
  simp only [divf_apply, floor_apply, mulf_apply, addf_apply, broadcast_apply, ccol, bcol, brow, bone, mask_apply,
    srow _ 4 (by decide), srow _ 5 (by decide), scol _ 4 (by decide), scol _ 5 (by decide), pay18_apply, pay19_apply]
  rw [lanesum]
  simp only [mulf_apply, addf_apply, bcol, brow, mask_apply, srow _ 4 (by decide), srow _ 5 (by decide), pay18_apply,
    pick_row v29 p c hc, pick_bias v29 p c hc]
  rfl

end Cert.KernelIdeal.KPay

end
-- ==== Proof.SpecLaws.lean ====
/-
  Laws of the specification: the literals' values, when a rounded value is a real number, the straight-through
  identity x + (q − x) = q for a real x, and that the kernel's arrangement of a sample's result is the specification's.
-/
import proofs.«419896_j55293408969355_3_alg».proof.Proof.Spec
import Mathlib.Algebra.BigOperators.Fin

noncomputable section

namespace Cert.Spec

open Idealize.ShloMosaic Idealize.ShloMosaic.ValueIdx
open scoped BigOperators

theorem lit_zero : lit 0x00000000#32 = 0 := by
  simp [lit, Ideal.ofBits, Ideal.ieee]
theorem lit_one : lit 0x3F800000#32 = 1 := by
  simp [lit, Ideal.ofBits, Ideal.ieee, -EReal.coe_mul]; norm_num
theorem lit_127 : lit 0x42FE0000#32 = ((127 : ℝ) : EReal) := by
  simp [lit, Ideal.ofBits, Ideal.ieee, -EReal.coe_mul]; norm_num
theorem lit_600 : lit 0x44160000#32 = ((600 : ℝ) : EReal) := by
  simp [lit, Ideal.ofBits, Ideal.ieee, -EReal.coe_mul]; norm_num
theorem lit_64 : lit 0x42800000#32 = ((64 : ℝ) : EReal) := by
  simp [lit, Ideal.ofBits, Ideal.ieee, -EReal.coe_mul]; norm_num
theorem lit_8128 : lit 0x45FE0000#32 = ((8128 : ℝ) : EReal) := by
  simp [lit, Ideal.ofBits, Ideal.ieee, -EReal.coe_mul]; norm_num
theorem lit_9600 : lit 0x46160000#32 = ((9600 : ℝ) : EReal) := by
  simp [lit, Ideal.ofBits, Ideal.ieee, -EReal.coe_mul]; norm_num
/-- The scale of the last weight is some nonzero real (its exact value is never used). -/
theorem lit_wo : ∃ r : ℝ, r ≠ 0 ∧ lit 0x42972E5D#32 = (r : EReal) := by
  simp [lit, Ideal.ofBits, Ideal.ieee, -EReal.coe_mul]
theorem lit_sq : IsReal (lit 0x3F7E0000#32) := by
  simp [lit, Ideal.ofBits, Ideal.ieee, -EReal.coe_mul, IsReal]

/-- For a real x, adding back the difference to any q gives q (also when q is infinite). -/
theorem ste {x : EReal} (hx : IsReal x) (q : EReal) : x + (q - x) = q := by
  obtain ⟨r, rfl⟩ := hx
  induction q using EReal.rec with
  | bot => simp
  | coe y => rw [← EReal.coe_sub, ← EReal.coe_add]; congr 1; ring
  | top => simp

theorem isReal_add {x y : EReal} (hx : IsReal x) (hy : IsReal y) : IsReal (x + y) := by
  obtain ⟨a, rfl⟩ := hx; obtain ⟨b, rfl⟩ := hy
  exact ⟨a + b, (EReal.coe_add a b).symm⟩
theorem isReal_mul {x y : EReal} (hx : IsReal x) (hy : IsReal y) : IsReal (x * y) := by
  obtain ⟨a, rfl⟩ := hx; obtain ⟨b, rfl⟩ := hy
  exact ⟨a * b, (EReal.coe_mul a b).symm⟩
theorem isReal_sum {n : Nat} (f : Fin n → EReal) (h : ∀ k, IsReal (f k)) : IsReal (∑ k : Fin n, f k) := by
  induction n with
  | zero => exact ⟨0, by simp⟩
  | succ m ih =>
    rw [Fin.sum_univ_castSucc]
    exact isReal_add (ih _ (fun k => h _)) (h _)
theorem isReal_clip01 (x : EReal) : IsReal (clip01 x) := by
  unfold clip01
  rw [lit_one, lit_zero]
  induction x using EReal.rec with
  | bot => exact ⟨0, by simp⟩
  | coe r =>
    by_cases h0 : r ≤ 0
    · exact ⟨0, by rw [max_eq_left (by exact_mod_cast h0)]; simp⟩
    · by_cases h1 : r ≤ 1
      · exact ⟨r, by rw [max_eq_right (by exact_mod_cast le_of_not_ge h0), min_eq_right (by exact_mod_cast h1)]⟩
      · exact ⟨1, by rw [max_eq_right (by exact_mod_cast le_of_not_ge h0), min_eq_left (by exact_mod_cast le_of_not_ge h1)]; simp⟩
  | top => exact ⟨1, by simp⟩
theorem isReal_qr {s x : EReal} (hs : ∃ r : ℝ, r ≠ 0 ∧ s = (r : EReal)) (hx : IsReal x) : IsReal (qr s x) := by
  obtain ⟨r, hr, rfl⟩ := hs; obtain ⟨a, rfl⟩ := hx
  unfold qr
  rw [← EReal.coe_mul, Ideal.liftRound_coe, Ideal.div_coe hr, ← EReal.coe_mul]
  exact ⟨_, rfl⟩
theorem isReal_qf {s x : EReal} (hs : ∃ r : ℝ, r ≠ 0 ∧ s = (r : EReal)) (hx : IsReal x) : IsReal (qf s x) := by
  obtain ⟨r, hr, rfl⟩ := hs; obtain ⟨a, rfl⟩ := hx
  unfold qf
  rw [← EReal.coe_mul, Ideal.liftRound_coe, Ideal.div_coe hr, ← EReal.coe_mul]
  exact ⟨_, rfl⟩
theorem isReal_act (x : EReal) : IsReal (act x) := by
  unfold act
  exact isReal_qf ⟨127, by norm_num, lit_127⟩ (isReal_clip01 x)
theorem isReal_outv (c : Fin 6) (a : Fin 64 → EReal) (wo : Fin 6 → Fin 64 → EReal) (bo : Fin 6 → EReal)
    (ha : ∀ k, IsReal (a k)) (hwo : ∀ c k, IsReal (wo c k)) (hbo : ∀ c, IsReal (bo c)) : IsReal (outv c a wo bo) := by
  unfold outv
  refine isReal_add (isReal_sum _ (fun k => isReal_mul (ha k) (isReal_qr lit_wo (hwo c k)))) ?_
  exact isReal_qr ⟨9600, by norm_num, lit_9600⟩ (hbo c)

theorem bucket_val (w : BitVec 32) (h : w.toNat < 60) : (bucket w).val = w.toNat / 10 := by
  simp only [bucket]
  omega

/-- A sum over 194 = 97 + 97 indices is the sum over the first 97 plus the sum over the last 97. -/
private theorem sum194 (f : Fin 194 → EReal) :
    ∑ k : Fin 194, f k = (∑ k : Fin 97, f ⟨k.val, by omega⟩) + ∑ k : Fin 97, f ⟨97 + k.val, by omega⟩ :=
  Fin.sum_univ_add (a := 97) (b := 97) f

/-- The first 48 fused outputs are the first affine map: the second block of the weight row is zero. -/
private theorem zK1_lo (xb xpa : Fin 97 → EReal) (w1b w1pa : Fin 48 → Fin 97 → EReal) (b1b b1pa : Fin 48 → EReal)
    (j : Nat) (hj : j < 48) :
    zK1 (cat97 xb xpa) (fusedW w1b w1pa) (fusedB b1b b1pa) ⟨j, by omega⟩ = z1 xb w1b b1b ⟨j, hj⟩ := by
  unfold zK1 z1
  rw [sum194]
  have h2 : ∀ k : Fin 97, cat97 xb xpa ⟨97 + k.val, by omega⟩ * fusedW w1b w1pa ⟨j, by omega⟩ ⟨97 + k.val, by omega⟩ = 0 := by
    intro k
    simp [fusedW, hj, lit_zero]
  have h1 : ∀ k : Fin 97, cat97 xb xpa ⟨k.val, by omega⟩ * fusedW w1b w1pa ⟨j, by omega⟩ ⟨k.val, by omega⟩
      = xb k * qr (lit 0x42800000#32) (w1b ⟨j, hj⟩ k) := by
    intro k
    simp [fusedW, cat97, hj, k.isLt]
  simp only [h1, h2, Finset.sum_const_zero, add_zero]
  simp [fusedB, hj]

/-- The last 48 fused outputs are the second affine map: the first block of the weight row is zero. -/
private theorem zK1_hi (xb xpa : Fin 97 → EReal) (w1b w1pa : Fin 48 → Fin 97 → EReal) (b1b b1pa : Fin 48 → EReal)
    (j : Nat) (hj : j < 48) :
    zK1 (cat97 xb xpa) (fusedW w1b w1pa) (fusedB b1b b1pa) ⟨48 + j, by omega⟩ = z1 xpa w1pa b1pa ⟨j, hj⟩ := by
  unfold zK1 z1
  rw [sum194]
  have h1 : ∀ k : Fin 97, cat97 xb xpa ⟨k.val, by omega⟩ * fusedW w1b w1pa ⟨48 + j, by omega⟩ ⟨k.val, by omega⟩ = 0 := by
    intro k
    simp [fusedW, k.isLt, lit_zero]
  have h2 : ∀ k : Fin 97, cat97 xb xpa ⟨97 + k.val, by omega⟩ * fusedW w1b w1pa ⟨48 + j, by omega⟩ ⟨97 + k.val, by omega⟩
      = xpa k * qr (lit 0x42800000#32) (w1pa ⟨j, hj⟩ k) := by
    intro k
    simp [fusedW, cat97]
  simp only [h1, h2, Finset.sum_const_zero, zero_add]
  simp [fusedB]

/-- The kernel's arrangement is the specification: the block-diagonal product splits into the two products (the
    off-diagonal blocks contribute 0 · x = 0), and reading bucket c off the 96 fused outputs is reading it off each half. -/
theorem rowK_eq_row (p : BitVec 32) (xb xpa : Fin 97 → EReal) (w1b w1pa : Fin 48 → Fin 97 → EReal) (b1b b1pa : Fin 48 → EReal)
    (w2 : Fin 384 → Fin 32 → EReal) (b2 : Fin 384 → EReal) (wo : Fin 6 → Fin 64 → EReal) (bo : Fin 6 → EReal) :
    rowK p (cat97 xb xpa) (fusedW w1b w1pa) (fusedB b1b b1pa)
        (fun j i => qr (lit 0x42800000#32) (w2 j i)) (fun j => qr (lit 0x45FE0000#32) (b2 j))
        (fun c k => qr (lit 0x42972E5D#32) (wo c k)) (fun c => qr (lit 0x46160000#32) (bo c))
      = row p xb xpa w1b w1pa b1b b1pa w2 b2 wo bo := by
  have hl : l1xK (bucket p) (zK1 (cat97 xb xpa) (fusedW w1b w1pa) (fusedB b1b b1pa))
      = l1x (bucket p) (z1 xb w1b b1b) (z1 xpa w1pa b1pa) := by
    funext i
    unfold l1xK l1x sel8
    split
    · exact zK1_lo xb xpa w1b w1pa b1b b1pa _ (by omega)
    · have := zK1_hi xb xpa w1b w1pa b1b b1pa (8 * (bucket p).val + (i.val - 8)) (by omega)
      rw [← this]
      congr 2
      omega
  unfold rowK row
  rw [hl]
  rfl

end Cert.Spec

end
-- ==== Proof.KPay.lean ====
/-
  What the kernel body leaves in the output block, at sample p of the block: the kernel's arrangement of the
  specification's row, as a function of the nine input blocks.
-/
import proofs.«419896_j55293408969355_3_alg».proof.Proof.Gen.KernelIdeal.Frame
import proofs.«419896_j55293408969355_3_alg».proof.Proof.KPayA
import proofs.«419896_j55293408969355_3_alg».proof.Proof.KPayB
import proofs.«419896_j55293408969355_3_alg».proof.Proof.KPayC
import proofs.«419896_j55293408969355_3_alg».proof.Proof.SpecLaws

noncomputable section

namespace Cert.KernelIdeal.KPay

open Cert.KernelIdeal Cert.KernelIdeal.Gen Cert.Spec Idealize.ShloMosaic Idealize.ShloMosaic.ValueIdx Idealize.ShloMosaic.TcCoe Idealize.SL.Sem
open scoped BigOperators

/-- The zero offsets of a whole-block access, however spelt. -/
private theorem hz : (![0, 0] : Fin 2 → Nat) = fun _ => 0 := funext fun a => by fin_cases a <;> rfl

/-- The one store of the body is a whole-block store and every load a whole-block load, so the output block is the last
    payload of the input blocks; at sample p, whose bucket is c = ⌊ply / 10⌋, the stretches of the body compose to the
    kernel's arrangement of the specification's row. -/
theorem out0_9_apply (x0 x1 : Vec Ideal S2048x97 .f32) (x2 : Vec Ideal S2048x1 .i32) (x3 : Vec Ideal S96x194 .f32) (x4 : Vec Ideal S1x96 .f32)
    (x5 : Vec Ideal S384x32 .f32) (x6 : Vec Ideal S1x384 .f32) (x7 : Vec Ideal S6x64 .f32) (x8 : Vec Ideal S1x6 .f32)
    (p : Fin 2048) (hp : (x2 (ix2 p 0)).toNat < 60) :
    out0_9 (F := Ideal) x0 x1 x2 x3 x4 x5 x6 x7 x8 (ix2 p 0)
      = rowK (x2 (ix2 p 0)) (cat97 (fun k => x0 (ix2 p k)) (fun k => x1 (ix2 p k))) (fun j k => x3 (ix2 j k)) (fun j => x4 (ix2 0 j))
          (fun j i => x5 (ix2 j i)) (fun j => x6 (ix2 0 j)) (fun c k => x7 (ix2 c k)) (fun c => x8 (ix2 0 c)) := by
  unfold out0_9
  rw [View.canon_unit_zero hz]
  simp only [View.ld_unit_zero (S := S2048x1) hz, View.ld_unit_zero (S := S2048x97) hz, View.ld_unit_zero (S := S96x194) hz,
    View.ld_unit_zero (S := S1x96) hz, View.ld_unit_zero (S := S384x32) hz, View.ld_unit_zero (S := S1x384) hz,
    View.ld_unit_zero (S := S6x64) hz, View.ld_unit_zero (S := S1x6) hz]
  -- the sample's bucket c = ⌊ply / 10⌋, as the body's bucket word and as the specification's
  obtain ⟨c, hcv⟩ : ∃ c : Fin 6, c.val = (x2 (ix2 p 0)).toNat / 10 := ⟨⟨_, by omega⟩, rfl⟩
  have hc : k0_pay2 (F := Ideal) x2 (ix2 p 0) = BitVec.ofNat 32 c.val := by rw [hcv]; exact pay2_apply x2 p hp
  have hb : bucket (x2 (ix2 p 0)) = c := Fin.ext ((bucket_val _ hp).trans hcv.symm)
  -- the sixteen selected outputs after five masks, over the biased fused product
  have h91 : ∀ i : Fin 16, k0_pay6 (F := Ideal) (k0_pay2 x2) (k0_pay3 x4) (k0_pay4 x0 x1 x3) (ix2 p i)
      = if c.val < 5 then l1xK c (fun j => k0_pay5 (F := Ideal) (k0_pay3 x4) (k0_pay4 x0 x1 x3) (ix2 p j)) i else 0 := by
    intro i
    rw [pay6_apply (k0_pay2 x2) (k0_pay3 x4) (k0_pay4 x0 x1 x3) p c hc i]
    simp only [pay5_apply]
  -- the biased fused product is the kernel's first affine map
  have h1 : (fun j => k0_pay5 (F := Ideal) (k0_pay3 x4) (k0_pay4 x0 x1 x3) (ix2 p j))
      = zK1 (cat97 (fun k => x0 (ix2 p k)) (fun k => x1 (ix2 p k))) (fun j k => x3 (ix2 j k)) (fun j => x4 (ix2 0 j)) := by
    funext j
    rw [pay5_apply, pay4_apply, pay3_eq]
    rfl
  rw [pay11_eq, pay12_eq, pay1_apply (k0_pay2 x2) _ x7 x8 p c hc]
  unfold rowK
  rw [hb]
  refine congrArg (qf (lit 0x44160000#32)) (congrArg (fun a => outK c a (fun c k => x7 (ix2 c k)) (fun c => x8 (ix2 0 c))) ?_)
  funext k
  rw [pay10_apply (k0_pay2 x2) _ _ x5 x6 p c hc h91 k, h1]

end Cert.KernelIdeal.KPay

end
-- ==== Proof.KHost.lean ====
/-
  The arrays the kernel's region finds, where @main's host operations computed them: the ply column, the block-diagonal
  fused weight and the fused bias of layer 1, and the other weights and biases rounded to their grids — each read at an index.
-/
import proofs.«419896_j55293408969355_3_alg».proof.Proof.Gen.KernelIdeal.Frame
import proofs.«419896_j55293408969355_3_alg».proof.Proof.Spec
import Idealize.ShloMosaic.Lib.StableHlo.Run
import Idealize.ShloMosaic.Lib.Pipeline.Value
import Idealize.ShloMosaic.Lib.ValueLayout

noncomputable section

namespace Cert.KernelIdeal.KHost

open Cert.KernelIdeal Cert.KernelIdeal.Gen Cert.Spec Idealize.ShloMosaic Idealize.ShloMosaic.ValueIdx Idealize.ShloMosaic.TcCoe Idealize.SL.Sem
open scoped BigOperators

variable (m : (ℓ : Loc nD τ sig) → Buf (Elt Ideal) ℓ)

/-- Core c's argument arrays at their literal types. -/
abbrev arg0 (c : Dev nD) : FVec Ideal S131072x97 .f32 := m ((c.tc : Thread nD τ).loc main_arg0)
abbrev arg1 (c : Dev nD) : FVec Ideal S131072x97 .f32 := m ((c.tc : Thread nD τ).loc main_arg1)
abbrev arg2 (c : Dev nD) : FVec Ideal S48x97 .f32 := m ((c.tc : Thread nD τ).loc main_arg2)
abbrev arg3 (c : Dev nD) : FVec Ideal S48 .f32 := m ((c.tc : Thread nD τ).loc main_arg3)
abbrev arg4 (c : Dev nD) : FVec Ideal S48x97 .f32 := m ((c.tc : Thread nD τ).loc main_arg4)
abbrev arg5 (c : Dev nD) : FVec Ideal S48 .f32 := m ((c.tc : Thread nD τ).loc main_arg5)
abbrev arg6 (c : Dev nD) : FVec Ideal S384x32 .f32 := m ((c.tc : Thread nD τ).loc main_arg6)
abbrev arg7 (c : Dev nD) : FVec Ideal S384 .f32 := m ((c.tc : Thread nD τ).loc main_arg7)
abbrev arg8 (c : Dev nD) : FVec Ideal S6x64 .f32 := m ((c.tc : Thread nD τ).loc main_arg8)
abbrev arg9 (c : Dev nD) : FVec Ideal S6 .f32 := m ((c.tc : Thread nD τ).loc main_arg9)
abbrev arg10 (c : Dev nD) : IVec S131072 32 := m ((c.tc : Thread nD τ).loc main_arg10)

/-! ## Small readings: a broadcast scalar constant, rounding to a grid, two arrays laid end to end -/

/-- The f32 scalar of pattern `w` broadcast to shape `s`. -/
private abbrev splat (s : Shape) (h : S_.BroadcastsInDim s (![] : Fin 0 → Fin s.rank)) (w : BitVec 32) : FVec Ideal s .f32 :=
  broadcastInDim s ![] h (constant (F := Ideal) S_ .f32 w)

/-- It reads `lit w` everywhere. -/
private theorem splat_apply (s : Shape) (h : S_.BroadcastsInDim s (![] : Fin 0 → Fin s.rank)) (w : BitVec 32) (i : s.Idx) :
    splat s h w i = lit w := rfl

/-- The host's rounding of an array to the grid of scale `w`: times the scale, to the nearest integer (ties to
    even), divided by the scale again. -/
private abbrev hostQr (s : Shape) (h : S_.BroadcastsInDim s (![] : Fin 0 → Fin s.rank)) (w : BitVec 32) (x : FVec Ideal s .f32) :
    FVec Ideal s .f32 :=
  Host.divf (Host.roundeven (mulf x (splat s h w))) (splat s h w)

/-- At an index it is `qr` of the entry: each of the three operations is the extended reals' own, entry by entry. -/
private theorem hostQr_apply (s : Shape) (h : S_.BroadcastsInDim s (![] : Fin 0 → Fin s.rank)) (w : BitVec 32) (x : FVec Ideal s .f32)
    (i : s.Idx) : hostQr s h w x i = qr (lit w) (x i) := rfl

section Cat
variable {α : Type}

/-- Two matrices side by side (along the columns), read left of the seam. -/
private theorem cat_cols_left {r a b n : ℕ} (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, n]⟩ 1) (j : Fin r) (k : Fin n) (hk : k.val < a) :
    concatenate ⟨2, ![r, n]⟩ 1 [⟨⟨2, ![r, a]⟩, x₁⟩, ⟨⟨2, ![r, b]⟩, x₂⟩] h (ix2 j k) = x₁ (ix2 j ⟨k.val, hk⟩) :=
  concatenate_pair_apply_left 1 x₁ x₂ h (ix2 j k) rfl (ix2 j ⟨k.val, hk⟩)
    (fun d => match d with | ⟨0, _⟩ => rfl | ⟨1, _⟩ => rfl)

/-- … and right of it. -/
private theorem cat_cols_right {r a b n : ℕ} (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, n]⟩ 1) (j : Fin r) (k : Fin n) (hk : a ≤ k.val)
    (hb : k.val - a < b) :
    concatenate ⟨2, ![r, n]⟩ 1 [⟨⟨2, ![r, a]⟩, x₁⟩, ⟨⟨2, ![r, b]⟩, x₂⟩] h (ix2 j k) = x₂ (ix2 j ⟨k.val - a, hb⟩) :=
  concatenate_pair_apply_right 1 x₁ x₂ h (ix2 j k) rfl rfl (ix2 j ⟨k.val - a, hb⟩)
    (fun d => match d with | ⟨0, _⟩ => fun _ => rfl | ⟨1, _⟩ => fun hd => absurd rfl hd)
    (by show k.val - a + a = k.val; omega)

/-- Two matrices one above the other (along the rows), read above the seam. -/
private theorem cat_rows_left {a b n q : ℕ} (x₁ : (⟨2, ![a, q]⟩ : Shape).Idx → α) (x₂ : (⟨2, ![b, q]⟩ : Shape).Idx → α)
    (h : Shape.Concatenates [(⟨2, ![a, q]⟩ : Shape), ⟨2, ![b, q]⟩] ⟨2, ![n, q]⟩ 0) (j : Fin n) (k : Fin q) (hj : j.val < a) :
    concatenate ⟨2, ![n, q]⟩ 0 [⟨⟨2, ![a, q]⟩, x₁⟩, ⟨⟨2, ![b, q]⟩, x₂⟩] h (ix2 j k) = x₁ (ix2 ⟨j.val, hj⟩ k) :=
  concatenate_pair_apply_left 0 x₁ x₂ h (ix2 j k) rfl (ix2 ⟨j.val, hj⟩ k)
    (fun d => match d with | ⟨0, _⟩ => rfl | ⟨1, _⟩ => rfl)

/-- … and below it. -/
private theorem cat_rows_right {a b n q : ℕ} (x₁ : (⟨2, ![a, q]⟩ : Shape).Idx → α) (x₂ : (⟨2, ![b, q]⟩ : Shape).Idx → α)
    (h : Shape.Concatenates [(⟨2, ![a, q]⟩ : Shape), ⟨2, ![b, q]⟩] ⟨2, ![n, q]⟩ 0) (j : Fin n) (k : Fin q) (hj : a ≤ j.val)
    (hb : j.val - a < b) :
    concatenate ⟨2, ![n, q]⟩ 0 [⟨⟨2, ![a, q]⟩, x₁⟩, ⟨⟨2, ![b, q]⟩, x₂⟩] h (ix2 j k) = x₂ (ix2 ⟨j.val - a, hb⟩ k) :=
  concatenate_pair_apply_right 0 x₁ x₂ h (ix2 j k) rfl rfl (ix2 ⟨j.val - a, hb⟩ k)
    (fun d => match d with | ⟨0, _⟩ => fun hd => absurd rfl hd | ⟨1, _⟩ => fun _ => rfl)
    (by show j.val - a + a = j.val; omega)

/-- Two vectors end to end, read before the seam. -/
private theorem cat_vec_left {a b n : ℕ} (x₁ : (⟨1, ![a]⟩ : Shape).Idx → α) (x₂ : (⟨1, ![b]⟩ : Shape).Idx → α)
    (h : Shape.Concatenates [(⟨1, ![a]⟩ : Shape), ⟨1, ![b]⟩] ⟨1, ![n]⟩ 0) (j : Fin n) (hj : j.val < a) :
    concatenate ⟨1, ![n]⟩ 0 [⟨⟨1, ![a]⟩, x₁⟩, ⟨⟨1, ![b]⟩, x₂⟩] h (ix1 j) = x₁ (ix1 ⟨j.val, hj⟩) :=
  concatenate_pair_apply_left 0 x₁ x₂ h (ix1 j) rfl (ix1 ⟨j.val, hj⟩)
    (fun d => match d with | ⟨0, _⟩ => rfl)

/-- … and after it. -/
private theorem cat_vec_right {a b n : ℕ} (x₁ : (⟨1, ![a]⟩ : Shape).Idx → α) (x₂ : (⟨1, ![b]⟩ : Shape).Idx → α)
    (h : Shape.Concatenates [(⟨1, ![a]⟩ : Shape), ⟨1, ![b]⟩] ⟨1, ![n]⟩ 0) (j : Fin n) (hj : a ≤ j.val) (hb : j.val - a < b) :
    concatenate ⟨1, ![n]⟩ 0 [⟨⟨1, ![a]⟩, x₁⟩, ⟨⟨1, ![b]⟩, x₂⟩] h (ix1 j) = x₂ (ix1 ⟨j.val - a, hb⟩) :=
  concatenate_pair_apply_right 0 x₁ x₂ h (ix1 j) rfl rfl (ix1 ⟨j.val - a, hb⟩)
    (fun d => match d with | ⟨0, _⟩ => fun hd => absurd rfl hd)
    (by show j.val - a + a = j.val; omega)

end Cat

/-! ## The seven arrays -/

/-- The ply column: the ply vector reshaped to one column. -/
theorem V_v49 (c : Dev nD) (b : Fin 131072) :
    (V m c main_v49 : IVec S131072x1 32) (ix2 b 0) = arg10 m c (ix1 b) := by
  have e : (V m c main_v49 : IVec S131072x1 32) = shapeCast S131072x1 (arg10 m c) shapeCasts_S131072_S131072x1 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  -- entry (b, 0) of an n × 1 array sits at row-major position b · 1 + 0 = b
  exact shapeCast_apply _ _ _ _ (by
    rw [Shape.rowMajor_val_two, Shape.rowMajor_val_one]
    show b.val = b.val * 1 + 0
    omega)

set_option maxHeartbeats 4000000 in
/-- The fused weight of layer 1: the first rounded weight beside a block of zeros, above a block of zeros beside the
    second rounded weight. -/
theorem V_v46 (c : Dev nD) (j : Fin 96) (k : Fin 194) :
    (V m c main_v46 : FVec Ideal S96x194 .f32) (ix2 j k)
      = fusedW (fun j k => arg2 m c (ix2 j k)) (fun j k => arg4 m c (ix2 j k)) j k := by
  have e : (V m c main_v46 : FVec Ideal S96x194 .f32)
      = concatenate S96x194 0
          [⟨S48x194, concatenate S48x194 1
              [⟨S48x97, hostQr S48x97 bcast_S_S48x97 0x42800000#32 (arg2 m c)⟩, ⟨S48x97, splat S48x97 bcast_S_S48x97 0x00000000#32⟩]
              concatenates_S48x97_S48x97_S48x194_d1⟩,
           ⟨S48x194, concatenate S48x194 1
              [⟨S48x97, splat S48x97 bcast_S_S48x97 0x00000000#32⟩, ⟨S48x97, hostQr S48x97 bcast_S_S48x97 0x42800000#32 (arg4 m c)⟩]
              concatenates_S48x97_S48x97_S48x194_d1⟩]
          concatenates_S48x194_S48x194_S96x194_d0 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  unfold fusedW
  by_cases hj : j.val < 48
  · rw [dif_pos hj]
    refine (cat_rows_left _ _ _ j k hj).trans ?_
    by_cases hk : k.val < 97
    · rw [dif_pos hk]
      exact (cat_cols_left _ _ _ _ k hk).trans (hostQr_apply _ _ _ _ _)
    · rw [dif_neg hk]
      exact (cat_cols_right _ _ _ _ k (by omega) (by have := k.isLt; omega)).trans (splat_apply _ _ _ _)
  · rw [dif_neg hj]
    refine (cat_rows_right _ _ _ j k (by omega) (by have := j.isLt; omega)).trans ?_
    by_cases hk : k.val < 97
    · rw [dif_pos hk]
      exact (cat_cols_left _ _ _ _ k hk).trans (splat_apply _ _ _ _)
    · rw [dif_neg hk]
      exact (cat_cols_right _ _ _ _ k (by omega) (by have := k.isLt; omega)).trans (hostQr_apply _ _ _ _ _)

set_option maxHeartbeats 4000000 in
/-- The fused bias of layer 1: the two rounded biases end to end, as one row. -/
theorem V_v48 (c : Dev nD) (j : Fin 96) :
    (V m c main_v48 : FVec Ideal S1x96 .f32) (ix2 0 j)
      = fusedB (fun j => arg3 m c (ix1 j)) (fun j => arg5 m c (ix1 j)) j := by
  have e : (V m c main_v48 : FVec Ideal S1x96 .f32)
      = shapeCast S1x96
          (concatenate S96 0
            [⟨S48, hostQr S48 bcast_S_S48 0x45FE0000#32 (arg3 m c)⟩, ⟨S48, hostQr S48 bcast_S_S48 0x45FE0000#32 (arg5 m c)⟩]
            concatenates_S48_S48_S96_d0)
          shapeCasts_S96_S1x96 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  refine (shapeCast_a_1a_apply _ _ 0 j).trans ?_
  unfold fusedB
  by_cases hj : j.val < 48
  · rw [dif_pos hj]
    exact (cat_vec_left _ _ _ j hj).trans (hostQr_apply _ _ _ _ _)
  · rw [dif_neg hj]
    exact (cat_vec_right _ _ _ j (by omega) (by have := j.isLt; omega)).trans (hostQr_apply _ _ _ _ _)

/-- The weight of layer 2, rounded to its grid. -/
theorem V_v24 (c : Dev nD) (j : Fin 384) (i : Fin 32) :
    (V m c main_v24 : FVec Ideal S384x32 .f32) (ix2 j i) = qr (lit 0x42800000#32) (arg6 m c (ix2 j i)) := by
  have e : (V m c main_v24 : FVec Ideal S384x32 .f32) = hostQr S384x32 bcast_S_S384x32 0x42800000#32 (arg6 m c) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  exact hostQr_apply _ _ _ _ _

set_option maxHeartbeats 4000000 in
/-- The bias of layer 2, rounded to its grid, as one row. -/
theorem V_v30 (c : Dev nD) (j : Fin 384) :
    (V m c main_v30 : FVec Ideal S1x384 .f32) (ix2 0 j) = qr (lit 0x45FE0000#32) (arg7 m c (ix1 j)) := by
  have e : (V m c main_v30 : FVec Ideal S1x384 .f32)
      = shapeCast S1x384 (hostQr S384 bcast_S_S384 0x45FE0000#32 (arg7 m c)) shapeCasts_S384_S1x384 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  exact (shapeCast_a_1a_apply _ _ 0 j).trans (hostQr_apply _ _ _ _ _)

/-- The last weight, rounded to its grid. -/
theorem V_v35 (c : Dev nD) (c' : Fin 6) (k : Fin 64) :
    (V m c main_v35 : FVec Ideal S6x64 .f32) (ix2 c' k) = qr (lit 0x42972E5D#32) (arg8 m c (ix2 c' k)) := by
  have e : (V m c main_v35 : FVec Ideal S6x64 .f32) = hostQr S6x64 bcast_S_S6x64 0x42972E5D#32 (arg8 m c) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  exact hostQr_apply _ _ _ _ _

set_option maxHeartbeats 4000000 in
/-- The last bias, rounded to its grid, as one row. -/
theorem V_v41 (c : Dev nD) (c' : Fin 6) :
    (V m c main_v41 : FVec Ideal S1x6 .f32) (ix2 0 c') = qr (lit 0x46160000#32) (arg9 m c (ix1 c')) := by
  have e : (V m c main_v41 : FVec Ideal S1x6 .f32)
      = shapeCast S1x6 (hostQr S6 bcast_S_S6 0x46160000#32 (arg9 m c)) shapeCasts_S6_S1x6 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
    after_results
    rfl
  rw [e]
  exact (shapeCast_a_1a_apply _ _ 0 c').trans (hostQr_apply _ _ _ _ _)

end Cert.KernelIdeal.KHost

end
-- ==== Proof.KFinal.lean ====
/-
  The kernel's result array as ONE function of the argument arrays: point t of the grid writes back block t (samples
  2048·t … 2048·t + 2047) of the specification's array; the 64 blocks cover the array.
-/
import proofs.«419896_j55293408969355_3_alg».proof.Proof.Gen.KernelIdeal.Value
import proofs.«419896_j55293408969355_3_alg».proof.Proof.KPay
import proofs.«419896_j55293408969355_3_alg».proof.Proof.KHost
import proofs.«419896_j55293408969355_3_alg».proof.Proof.SpecLaws

noncomputable section

namespace Cert.KernelIdeal.KValue

open Cert.KernelIdeal Cert.KernelIdeal.Gen Cert.Spec Idealize.ShloMosaic Idealize.ShloMosaic.ValueIdx Idealize.ShloMosaic.TcCoe Idealize.SL.Sem
open scoped BigOperators
open Cert.KernelIdeal.KHost Cert.KernelIdeal.Value

variable (m : (ℓ : Loc nD τ sig) → Buf (Elt Ideal) ℓ) (ρ : Dev nD → PrngReg)

/-- Where each window's block sits at grid point t: the sample windows and the result move with t along the rows, the
    weight windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! Each window's block at point t, read at an index, is its array read where the block sits. -/

theorem iblk0_apply (c : Dev nD) (t : Fin cfg0.N) (p : Fin 2048) (b : Fin 131072) (hb : b.val = 2048 * t.val + p.val) (k : Fin 97) :
    (iblk m c 0 t : Vec Ideal S2048x97 .f32) (ix2 p k) = arg0 m c (ix2 b k) := by
  obtain ⟨e0, e1, -⟩ := idx_facts t
  unfold iblk
  rw [View.read_apply]
  show V m c main_arg0 _ = arg0 m c _
  rw [Gen.V_main_arg0]
  show m ((c.tc : Thread nD τ).loc main_arg0) _ = m ((c.tc : Thread nD τ).loc main_arg0) _
  congr 1
  funext a
  apply Fin.ext
  match a with
  | ⟨0, _⟩ => show win0_0.index t (0 : Fin 2) * 2048 + 1 * p.val = b.val; rw [e0, hb]; omega
  | ⟨1, _⟩ => show win0_0.index t (1 : Fin 2) * 97 + 1 * k.val = k.val; rw [e1]; omega

theorem iblk1_apply (c : Dev nD) (t : Fin cfg0.N) (p : Fin 2048) (b : Fin 131072) (hb : b.val = 2048 * t.val + p.val) (k : Fin 97) :
    (iblk m c 1 t : Vec Ideal S2048x97 .f32) (ix2 p k) = arg1 m c (ix2 b k) := by
  obtain ⟨-, -, e0, e1, -⟩ := idx_facts t
  unfold iblk
  rw [View.read_apply]
  show V m c main_arg1 _ = arg1 m c _
  rw [Gen.V_main_arg1]
  show m ((c.tc : Thread nD τ).loc main_arg1) _ = m ((c.tc : Thread nD τ).loc main_arg1) _
  congr 1
  funext a
  apply Fin.ext
  match a with
  | ⟨0, _⟩ => show win0_1.index t (0 : Fin 2) * 2048 + 1 * p.val = b.val; rw [e0, hb]; omega
  | ⟨1, _⟩ => show win0_1.index t (1 : Fin 2) * 97 + 1 * k.val = k.val; rw [e1]; omega

theorem iblk2_apply (c : Dev nD) (t : Fin cfg0.N) (p : Fin 2048) (b : Fin 131072) (hb : b.val = 2048 * t.val + p.val) :
    (iblk m c 2 t : Vec Ideal S2048x1 .i32) (ix2 p 0) = (V m c main_v49 : IVec S131072x1 32) (ix2 b 0) := by
  obtain ⟨-, -, -, -, e0, e1, -⟩ := idx_facts t
  unfold iblk
  rw [View.read_apply]
  show V m c main_v49 _ = V m c main_v49 _
  congr 1
  funext a
  apply Fin.ext
  match a with
  | ⟨0, _⟩ => show win0_2.index t (0 : Fin 2) * 2048 + 1 * p.val = b.val; rw [e0, hb]; omega
  | ⟨1, _⟩ => show win0_2.index t (1 : Fin 2) * 1 + 1 * 0 = 0; rw [e1]

theorem iblk3_apply (c : Dev nD) (t : Fin cfg0.N) (j : Fin 96) (k : Fin 194) :
    (iblk m c 3 t : Vec Ideal S96x194 .f32) (ix2 j k) = (V m c main_v46 : FVec Ideal S96x194 .f32) (ix2 j k) := by
  obtain ⟨-, -, -, -, -, -, e0, e1, -⟩ := idx_facts t
  unfold iblk
  rw [View.read_apply]
  show V m c main_v46 _ = V m c main_v46 _
  congr 1
  funext a
  apply Fin.ext
  match a with
  | ⟨0, _⟩ => show win0_3.index t (0 : Fin 2) * 96 + 1 * j.val = j.val; rw [e0]; omega
  | ⟨1, _⟩ => show win0_3.index t (1 : Fin 2) * 194 + 1 * k.val = k.val; rw [e1]; omega

theorem iblk4_apply (c : Dev nD) (t : Fin cfg0.N) (j : Fin 96) :
    (iblk m c 4 t : Vec Ideal S1x96 .f32) (ix2 0 j) = (V m c main_v48 : FVec Ideal S1x96 .f32) (ix2 0 j) := by
  obtain ⟨-, -, -, -, -, -, -, -, e0, e1, -⟩ := idx_facts t
  unfold iblk
  rw [View.read_apply]
  show V m c main_v48 _ = V m c main_v48 _
  congr 1
  funext a
  apply Fin.ext
  match a with
  | ⟨0, _⟩ => show win0_4.index t (0 : Fin 2) * 1 + 1 * 0 = 0; rw [e0]
  | ⟨1, _⟩ => show win0_4.index t (1 : Fin 2) * 96 + 1 * j.val = j.val; rw [e1]; omega

theorem iblk5_apply (c : Dev nD) (t : Fin cfg0.N) (j : Fin 384) (i : Fin 32) :
    (iblk m c 5 t : Vec Ideal S384x32 .f32) (ix2 j i) = (V m c main_v24 : FVec Ideal S384x32 .f32) (ix2 j i) := by
  obtain ⟨-, -, -, -, -, -, -, -, -, -, e0, e1, -⟩ := idx_facts t
  unfold iblk
  rw [View.read_apply]
  show V m c main_v24 _ = V m c main_v24 _
  congr 1
  funext a
  apply Fin.ext
  match a with
  | ⟨0, _⟩ => show win0_5.index t (0 : Fin 2) * 384 + 1 * j.val = j.val; rw [e0]; omega
  | ⟨1, _⟩ => show win0_5.index t (1 : Fin 2) * 32 + 1 * i.val = i.val; rw [e1]; omega

theorem iblk6_apply (c : Dev nD) (t : Fin cfg0.N) (j : Fin 384) :
    (iblk m c 6 t : Vec Ideal S1x384 .f32) (ix2 0 j) = (V m c main_v30 : FVec Ideal S1x384 .f32) (ix2 0 j) := by
  obtain ⟨-, -, -, -, -, -, -, -, -, -, -, -, e0, e1, -⟩ := idx_facts t
  unfold iblk
  rw [View.read_apply]
  show V m c main_v30 _ = V m c main_v30 _
  congr 1
  funext a
  apply Fin.ext
  match a with
  | ⟨0, _⟩ => show win0_6.index t (0 : Fin 2) * 1 + 1 * 0 = 0; rw [e0]
  | ⟨1, _⟩ => show win0_6.index t (1 : Fin 2) * 384 + 1 * j.val = j.val; rw [e1]; omega

theorem iblk7_apply (c : Dev nD) (t : Fin cfg0.N) (c' : Fin 6) (k : Fin 64) :
    (iblk m c 7 t : Vec Ideal S6x64 .f32) (ix2 c' k) = (V m c main_v35 : FVec Ideal S6x64 .f32) (ix2 c' k) := by
  obtain ⟨-, -, -, -, -, -, -, -, -, -, -, -, -, -, e0, e1, -⟩ := idx_facts t
  unfold iblk
  rw [View.read_apply]
  show V m c main_v35 _ = V m c main_v35 _
  congr 1
  funext a
  apply Fin.ext
  match a with
  | ⟨0, _⟩ => show win0_7.index t (0 : Fin 2) * 6 + 1 * c'.val = c'.val; rw [e0]; omega
  | ⟨1, _⟩ => show win0_7.index t (1 : Fin 2) * 64 + 1 * k.val = k.val; rw [e1]; omega

theorem iblk8_apply (c : Dev nD) (t : Fin cfg0.N) (c' : Fin 6) :
    (iblk m c 8 t : Vec Ideal S1x6 .f32) (ix2 0 c') = (V m c main_v41 : FVec Ideal S1x6 .f32) (ix2 0 c') := by
  obtain ⟨-, -, -, -, -, -, -, -, -, -, -, -, -, -, -, -, e0, e1, -⟩ := idx_facts t
  unfold iblk
  rw [View.read_apply]
  show V m c main_v41 _ = V m c main_v41 _
  congr 1
  funext a
  apply Fin.ext
  match a with
  | ⟨0, _⟩ => show win0_8.index t (0 : Fin 2) * 1 + 1 * 0 = 0; rw [e0]
  | ⟨1, _⟩ => show win0_8.index t (1 : Fin 2) * 6 + 1 * c'.val = c'.val; rw [e1]; omega

/-- At point t, sample p of the output block is the specification's array at row 2048·t + p: the kernel's arrangement of
    the row over the nine input blocks, each block read off its array, the host-computed arrays read off the arguments. -/
theorem point_eq (c : Dev nD) (t : Fin cfg0.N) (p : Fin 2048) (b : Fin 131072) (hb : b.val = 2048 * t.val + p.val)
    (hply : (arg10 m c (ix1 b)).toNat < 60) :
    out0_9 (F := Ideal) (iblk m c 0 t) (iblk m c 1 t) (iblk m c 2 t) (iblk m c 3 t) (iblk m c 4 t) (iblk m c 5 t)
        (iblk m c 6 t) (iblk m c 7 t) (iblk m c 8 t) (ix2 p 0)
      = Cert.Spec.G (arg0 m c) (arg1 m c) (arg2 m c) (arg3 m c) (arg4 m c) (arg5 m c) (arg6 m c) (arg7 m c) (arg8 m c)
          (arg9 m c) (arg10 m c) (ix2 b 0) := by
  have h2 : (iblk m c 2 t : Vec Ideal S2048x1 .i32) (ix2 p 0) = arg10 m c (ix1 b) :=
    (iblk2_apply m c t p b hb).trans (KHost.V_v49 m c b)
  rw [KPay.out0_9_apply (iblk m c 0 t) (iblk m c 1 t) (iblk m c 2 t) (iblk m c 3 t) (iblk m c 4 t) (iblk m c 5 t)
    (iblk m c 6 t) (iblk m c 7 t) (iblk m c 8 t) p (by rw [h2]; exact hply)]
  rw [h2]
  have h0 : (fun k => (iblk m c 0 t : Vec Ideal S2048x97 .f32) (ix2 p k)) = fun k => arg0 m c (ix2 b k) :=
    funext fun k => iblk0_apply m c t p b hb k
  have h1 : (fun k => (iblk m c 1 t : Vec Ideal S2048x97 .f32) (ix2 p k)) = fun k => arg1 m c (ix2 b k) :=
    funext fun k => iblk1_apply m c t p b hb k
  have h3 : (fun j k => (iblk m c 3 t : Vec Ideal S96x194 .f32) (ix2 j k))
      = fusedW (fun j k => arg2 m c (ix2 j k)) (fun j k => arg4 m c (ix2 j k)) :=
    funext fun j => funext fun k => (iblk3_apply m c t j k).trans (KHost.V_v46 m c j k)
  have h4 : (fun j => (iblk m c 4 t : Vec Ideal S1x96 .f32) (ix2 0 j))
      = fusedB (fun j => arg3 m c (ix1 j)) (fun j => arg5 m c (ix1 j)) :=
    funext fun j => (iblk4_apply m c t j).trans (KHost.V_v48 m c j)
  have h5 : (fun j i => (iblk m c 5 t : Vec Ideal S384x32 .f32) (ix2 j i))
      = fun j i => qr (lit 0x42800000#32) (arg6 m c (ix2 j i)) :=
    funext fun j => funext fun i => (iblk5_apply m c t j i).trans (KHost.V_v24 m c j i)
  have h6 : (fun j => (iblk m c 6 t : Vec Ideal S1x384 .f32) (ix2 0 j))
      = fun j => qr (lit 0x45FE0000#32) (arg7 m c (ix1 j)) :=
    funext fun j => (iblk6_apply m c t j).trans (KHost.V_v30 m c j)
  have h7 : (fun c' k => (iblk m c 7 t : Vec Ideal S6x64 .f32) (ix2 c' k))
      = fun c' k => qr (lit 0x42972E5D#32) (arg8 m c (ix2 c' k)) :=
    funext fun c' => funext fun k => (iblk7_apply m c t c' k).trans (KHost.V_v35 m c c' k)
  have h8 : (fun c' => (iblk m c 8 t : Vec Ideal S1x6 .f32) (ix2 0 c'))
      = fun c' => qr (lit 0x46160000#32) (arg9 m c (ix1 c')) :=
    funext fun c' => (iblk8_apply m c t c').trans (KHost.V_v41 m c c')
  rw [h0, h1, h3, h4, h5, h6, h7, h8]
  exact Cert.Spec.rowK_eq_row (arg10 m c (ix1 b)) (fun k => arg0 m c (ix2 b k)) (fun k => arg1 m c (ix2 b k))
    (fun j k => arg2 m c (ix2 j k)) (fun j k => arg4 m c (ix2 j k)) (fun j => arg3 m c (ix1 j)) (fun j => arg5 m c (ix1 j))
    (fun j i => arg6 m c (ix2 j i)) (fun j => arg7 m c (ix1 j)) (fun c' k => arg8 m c (ix2 c' k)) (fun c' => arg9 m c (ix1 c'))

/-- The specification's array of core c's arguments. -/
abbrev Garr (c : Dev nD) : (⟨2, ![131072, 1]⟩ : Shape).Idx → EReal :=
  Cert.Spec.G (arg0 m c) (arg1 m c) (arg2 m c) (arg3 m c) (arg4 m c) (arg5 m c) (arg6 m c) (arg7 m c) (arg8 m c) (arg9 m c) (arg10 m c)

/-- What point t writes back is block t of the specification's array. -/
theorem flushed_eq (hply : ∀ (c : Dev nD) (b : Fin 131072), (arg10 m c (ix1 b)).toNat < 60) (c : Dev nD) (t : Fin cfg0.N) :
    (dats m 0 c).flushed 9 t = ((cfg0.win 9).blk t).view.read (Elt Ideal) (Garr m c) := by
  rw [Value.flushed9]
  have ht : t.val < 64 := t.isLt
  obtain ⟨-, -, -, -, -, -, -, -, -, -, -, -, -, -, -, -, -, -, e0, e1⟩ := idx_facts t
  funext j
  obtain ⟨p, q, rfl⟩ : ∃ (p : Fin 2048) (q : Fin 1), j = ix2 p q := ⟨j 0, j 1, eq_ix2 j⟩
  obtain rfl : q = 0 := Subsingleton.elim _ _
  have hx : (cfg0.win 9).xinj (grid0.coords t) (ix2 p 0) = (ix2 p 0 : S2048x1.Idx) := by
    funext a; match a with | ⟨0, _⟩ => rfl | ⟨1, _⟩ => rfl
  show out0_9 (F := Ideal) (iblk m c 0 t) (iblk m c 1 t) (iblk m c 2 t) (iblk m c 3 t) (iblk m c 4 t) (iblk m c 5 t)
        (iblk m c 6 t) (iblk m c 7 t) (iblk m c 8 t) ((cfg0.win 9).xinj (grid0.coords t) (ix2 p 0))
      = Garr m c (((cfg0.win 9).blk t).view.emb (ix2 p 0))
  rw [hx, point_eq m c t p ⟨2048 * t.val + p.val, by omega⟩ rfl (hply c _)]
  congr 1
  funext a
  apply Fin.ext
  match a with
  | ⟨0, _⟩ => show 2048 * t.val + p.val = win0_9.index t (0 : Fin 2) * 2048 + 1 * p.val; rw [e0]; omega
  | ⟨1, _⟩ => show 0 = win0_9.index t (1 : Fin 2) * 1 + 1 * 0; rw [e1]

/-- An index of the array is in point t's block iff each coordinate is in the block's range on its axis. -/
theorem mem_blk (t : Fin cfg0.N) (i : S131072x1.Idx) :
    i ∈ ((cfg0.win 9).blk t).view.set ↔ ∀ a : Fin 2, win0_9.index t a * S2048x1.size a ≤ (i a).val ∧ (i a).val < win0_9.index t a * S2048x1.size a + S2048x1.size a := by
  show i ∈ ((View.whole main_v50).slice (win0_9.rect t)).set ↔ _
  rw [View.set_slice_whole, Rect.mem_set_unit]
  exact Iff.rfl

/-- Row r of the array is in the block of point ⌊r / 2048⌋: the 64 blocks cover the array. -/
theorem cover (i : S131072x1.Idx) : ∃ t : Fin cfg0.N, (cfg0.win 9).flush t = true ∧ i ∈ ((cfg0.win 9).blk t).view.set := by
  have hi0 : (i 0).val < 131072 := (i 0).isLt
  have hi1 : (i 1).val < 1 := (i 1).isLt
  let t : Fin cfg0.N := ⟨(i 0).val / 2048, by show _ < 64; omega⟩
  obtain ⟨-, -, -, -, -, -, -, -, -, -, -, -, -, -, -, -, -, -, e0, e1⟩ := idx_facts t
  have e0' : win0_9.index t (0 : Fin 2) = (i 0).val / 2048 := e0
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; rw [e0']; omega
  | ⟨1, _⟩ => show win0_9.index t (1 : Fin 2) * 1 ≤ (i 1).val ∧ (i 1).val < win0_9.index t (1 : Fin 2) * 1 + 1; rw [e1]; omega

/-- The result array after the run is the specification's array. -/
theorem final (hply : ∀ (c : Dev nD) (b : Fin 131072), (arg10 m c (ix1 b)).toNat < 60) (c : Dev nD) :
    (dats m 0 c).arrAt 9 cfg0.N = Garr m c :=
  (dats m 0 c).arrAt_eq_of_cover 9 (Garr m c) (fun t _ => flushed_eq m hply c t) cover

/-- The run, read: the result array is the specification's array of the arguments, the arguments unchanged. -/
theorem run (hply : ∀ (c : Dev nD) (b : Fin 131072), (arg10 m c (ix1 b)).toNat < 60) :
    θ_run (defs (F := Ideal)) (onTc (τ := τ) (main (F := Ideal))) ⟨m, fun _ => 0, ρ⟩ fun r => ∀ c : Dev nD,
      r.2.mem ((c.tc : Thread nD τ).loc main_v50)
          = Cert.Spec.G (arg0 m c) (arg1 m c) (arg2 m c) (arg3 m c) (arg4 m c) (arg5 m c) (arg6 m c) (arg7 m c) (arg8 m c) (arg9 m c) (arg10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (final m hply c), (h c).2⟩) (Value.run_blocks m ρ)

end Cert.KernelIdeal.KValue

end
-- ==== Proof.RefStages.lean ====
/-
  The reference's @main cut into stages, each the composition of its printed operations on whole arrays:
  the rounding of a weight or bias in its straight-through form w + (round(w·s)/s − w); an affine map
  x · wᵀ + b; the bucket index ⌊ply / 10⌋ as the printed floor division; the selection of one bucket per
  sample (the index wrapped if negative, tested against [0, 5], gathered, and replaced by the fill where
  the test fails); the two activations (clip to [0, 1], floor to the grid of 1/127, straight-through form)
  and the last flooring to the grid of 1/600. `out` is the whole program's result.
-/
import proofs.«419896_j55293408969355_3_alg».proof.ReferenceIdeal

noncomputable section

namespace Cert.ReferenceIdeal.Stage

open Idealize.ShloMosaic Cert.ReferenceIdeal Cert.ReferenceIdeal.Facts₀ Cert.ReferenceIdeal.Facts

variable {F : FTy → Type} [FloatOps F] [Cert.ReferenceIdeal.Facts]

/-! ## A weight or bias on its grid, straight-through form -/

def q48x97 (w : FVec F S48x97 .f32) : FVec F S48x97 .f32 :=
  addf w (subf (Host.divf (Host.roundeven (mulf w (broadcastInDim S48x97 ![] bcast_S_S48x97 (constant S_ .f32 0x42800000#32))))
    (broadcastInDim S48x97 ![] bcast_S_S48x97 (constant S_ .f32 0x42800000#32))) w)
def q48 (w : FVec F S48 .f32) : FVec F S48 .f32 :=
  addf w (subf (Host.divf (Host.roundeven (mulf w (broadcastInDim S48 ![] bcast_S_S48 (constant S_ .f32 0x45FE0000#32))))
    (broadcastInDim S48 ![] bcast_S_S48 (constant S_ .f32 0x45FE0000#32))) w)
def q384x32 (w : FVec F S384x32 .f32) : FVec F S384x32 .f32 :=
  addf w (subf (Host.divf (Host.roundeven (mulf w (broadcastInDim S384x32 ![] bcast_S_S384x32 (constant S_ .f32 0x42800000#32))))
    (broadcastInDim S384x32 ![] bcast_S_S384x32 (constant S_ .f32 0x42800000#32))) w)
def q384 (w : FVec F S384 .f32) : FVec F S384 .f32 :=
  addf w (subf (Host.divf (Host.roundeven (mulf w (broadcastInDim S384 ![] bcast_S_S384 (constant S_ .f32 0x45FE0000#32))))
    (broadcastInDim S384 ![] bcast_S_S384 (constant S_ .f32 0x45FE0000#32))) w)
def q6x64 (w : FVec F S6x64 .f32) : FVec F S6x64 .f32 :=
  addf w (subf (Host.divf (Host.roundeven (mulf w (broadcastInDim S6x64 ![] bcast_S_S6x64 (constant S_ .f32 0x42972E5D#32))))
    (broadcastInDim S6x64 ![] bcast_S_S6x64 (constant S_ .f32 0x42972E5D#32))) w)
def q6 (w : FVec F S6 .f32) : FVec F S6 .f32 :=
  addf w (subf (Host.divf (Host.roundeven (mulf w (broadcastInDim S6 ![] bcast_S_S6 (constant S_ .f32 0x46160000#32))))
    (broadcastInDim S6 ![] bcast_S_S6 (constant S_ .f32 0x46160000#32))) w)

/-! ## The affine maps -/

def lin48 (x : FVec F S131072x97 .f32) (wq : FVec F S48x97 .f32) (bq : FVec F S48 .f32) : FVec F S131072x48 .f32 :=
  addf (Host.dotGeneral dot_S131072x97_S97x48_S131072x48_1_0_0_1_n_n none x (transpose S97x48 [1, 0] wq transposes_S48x97_S97x48_1_0))
    (broadcastInDim S131072x48 ![0, 1] bcast_S1x48_S131072x48_0_1 (broadcastInDim S1x48 ![1] bcast_S48_S1x48_1 bq))
def lin384 (x : FVec F S131072x32 .f32) (wq : FVec F S384x32 .f32) (bq : FVec F S384 .f32) : FVec F S131072x384 .f32 :=
  addf (Host.dotGeneral dot_S131072x32_S32x384_S131072x384_1_0_0_1_n_n none x (transpose S32x384 [1, 0] wq transposes_S384x32_S32x384_1_0))
    (broadcastInDim S131072x384 ![0, 1] bcast_S1x384_S131072x384_0_1 (broadcastInDim S1x384 ![1] bcast_S384_S1x384_1 bq))
def lin6 (x : FVec F S131072x64 .f32) (wq : FVec F S6x64 .f32) (bq : FVec F S6 .f32) : FVec F S131072x6 .f32 :=
  addf (Host.dotGeneral dot_S131072x64_S64x6_S131072x6_1_0_0_1_n_n none x (transpose S64x6 [1, 0] wq transposes_S6x64_S64x6_1_0))
    (broadcastInDim S131072x6 ![0, 1] bcast_S1x6_S131072x6_0_1 (broadcastInDim S1x6 ![1] bcast_S6_S1x6_1 bq))

/-! ## The bucket index and the selection -/

/-- ⌊ply / 10⌋ as printed: the truncated quotient, less one where the signs differ and the remainder is not zero. -/
def lsOf (p : IVec S131072 32) : IVec S131072 32 :=
  select
    (andi (cmpi .ne (signi p) (broadcastInDim S131072 ![] bcast_S_S131072 (signi (constantI S_ 32 10#32))))
      (cmpi .ne (Host.remsi p (broadcastInDim S131072 ![] bcast_S_S131072 (constantI S_ 32 10#32)))
        (broadcastInDim S131072 ![] bcast_S_S131072 (constantI S_ 32 0#32))))
    (subi (Host.divsi p (broadcastInDim S131072 ![] bcast_S_S131072 (constantI S_ 32 10#32)))
      (broadcastInDim S131072 ![] bcast_S_S131072 (constantI S_ 32 1#32)))
    (Host.divsi p (broadcastInDim S131072 ![] bcast_S_S131072 (constantI S_ 32 10#32)))

/-- The index as the gather takes it: a negative one moved up by 6. -/
def idx4 (l : IVec S131072 32) : IVec S131072x1x1 32 :=
  select
    (cmpi .slt (broadcastInDim S131072x1x1 ![0] bcast_S131072_S131072x1x1_0 l)
      (broadcastInDim S131072x1x1 ![] bcast_S_S131072x1x1 (constantI S_ 32 0#32)))
    (addi (broadcastInDim S131072x1x1 ![0] bcast_S131072_S131072x1x1_0 l)
      (broadcastInDim S131072x1x1 ![] bcast_S_S131072x1x1 (constantI S_ 32 6#32)))
    (broadcastInDim S131072x1x1 ![0] bcast_S131072_S131072x1x1_0 l)

/-- Whether that index lies in [0, 5]. -/
def inb (i4 : IVec S131072x1x1 32) : IVec S131072x1 1 :=
  Host.reduce IntOp.andi
    (andi (cmpi .sge i4 (broadcastInDim S131072x1x1 ![] bcast_S_S131072x1x1 (constantI S_ 32 0#32)))
      (cmpi .sle i4 (broadcastInDim S131072x1x1 ![0, 1, 2] bcast_S1x1x1_S131072x1x1_0_1_2
        (broadcastInDim S1x1x1 ![2] bcast_S1_S1x1x1_2 (constantI S1 32 5#32)))))
    (constantI S_ 1 1#1) reducesTo_S131072x1x1_S131072x1_d2 h_S_

def take8 (y : FVec F S131072x48 .f32) (l : IVec S131072 32) : FVec F S131072x8 .f32 :=
  shapeCast S131072x8
    (select (broadcastInDim S131072x1x8 ![0, 1] bcast_S131072x1_S131072x1x8_0_1 (inb (idx4 l)))
      (Host.gather gather_S131072x6x8_S131072x1x1_S131072x1x8_2_1_0_0_1_2_118 (shapeCast S131072x6x8 y shapeCasts_S131072x48_S131072x6x8) (idx4 l))
      (broadcastInDim S131072x1x8 ![] bcast_S_S131072x1x8 (constant S_ .f32 0x7FC00000#32)))
    shapeCasts_S131072x1x8_S131072x8
def take64 (y : FVec F S131072x384 .f32) (l : IVec S131072 32) : FVec F S131072x64 .f32 :=
  shapeCast S131072x64
    (select (broadcastInDim S131072x1x64 ![0, 1] bcast_S131072x1_S131072x1x64_0_1 (inb (idx4 l)))
      (Host.gather gather_S131072x6x64_S131072x1x1_S131072x1x64_2_1_0_0_1_2_1164 (shapeCast S131072x6x64 y shapeCasts_S131072x384_S131072x6x64) (idx4 l))
      (broadcastInDim S131072x1x64 ![] bcast_S_S131072x1x64 (constant S_ .f32 0x7FC00000#32)))
    shapeCasts_S131072x1x64_S131072x64
def take1 (y : FVec F S131072x6 .f32) (l : IVec S131072 32) : FVec F S131072x1 .f32 :=
  shapeCast S131072x1
    (select (broadcastInDim S131072x1x1 ![0, 1] bcast_S131072x1_S131072x1x1_0_1 (inb (idx4 l)))
      (Host.gather gather_S131072x6x1_S131072x1x1_S131072x1x1_2_1_0_0_1_2_111 (shapeCast S131072x6x1 y shapeCasts_S131072x6_S131072x6x1) (idx4 l))
      (broadcastInDim S131072x1x1 ![] bcast_S_S131072x1x1 (constant S_ .f32 0x7FC00000#32)))
    shapeCasts_S131072x1x1_S131072x1

/-! ## The activations -/

/-- The sixteen selected values side by side. -/
def cat16 (tb tpa : FVec F S131072x8 .f32) : FVec F S131072x16 .f32 :=
  concatenate S131072x16 1 [⟨S131072x8, tb⟩, ⟨S131072x8, tpa⟩] concatenates_S131072x8_S131072x8_S131072x16_d1

/-- The thirty-two values before clipping: the squares scaled, then the values. -/
def cat32 (v : FVec F S131072x16 .f32) : FVec F S131072x32 .f32 :=
  concatenate S131072x32 1
    [⟨S131072x16, mulf (mulf v v) (broadcastInDim S131072x16 ![] bcast_S_S131072x16 (constant S_ .f32 0x3F7E0000#32))⟩,
     ⟨S131072x16, v⟩] concatenates_S131072x16_S131072x16_S131072x32_d1

def clip32 (v : FVec F S131072x32 .f32) : FVec F S131072x32 .f32 :=
  minimumf (broadcastInDim S131072x32 ![] bcast_S_S131072x32 (constant S_ .f32 0x3F800000#32))
    (maximumf (broadcastInDim S131072x32 ![] bcast_S_S131072x32 (constant S_ .f32 0x00000000#32)) v)

/-- Floored to the grid of 1/127, straight-through form. -/
def fq32 (v : FVec F S131072x32 .f32) : FVec F S131072x32 .f32 :=
  addf v (subf (Host.divf (Host.floor (mulf v (broadcastInDim S131072x32 ![] bcast_S_S131072x32 (constant S_ .f32 0x42FE0000#32))))
    (broadcastInDim S131072x32 ![] bcast_S_S131072x32 (constant S_ .f32 0x42FE0000#32))) v)

def act1 (tb tpa : FVec F S131072x8 .f32) : FVec F S131072x32 .f32 := fq32 (clip32 (cat32 (cat16 tb tpa)))

def clip64 (v : FVec F S131072x64 .f32) : FVec F S131072x64 .f32 :=
  minimumf (broadcastInDim S131072x64 ![] bcast_S_S131072x64 (constant S_ .f32 0x3F800000#32))
    (maximumf (broadcastInDim S131072x64 ![] bcast_S_S131072x64 (constant S_ .f32 0x00000000#32)) v)

def fq64 (v : FVec F S131072x64 .f32) : FVec F S131072x64 .f32 :=
  addf v (subf (Host.divf (Host.floor (mulf v (broadcastInDim S131072x64 ![] bcast_S_S131072x64 (constant S_ .f32 0x42FE0000#32))))
    (broadcastInDim S131072x64 ![] bcast_S_S131072x64 (constant S_ .f32 0x42FE0000#32))) v)

def act2 (t : FVec F S131072x64 .f32) : FVec F S131072x64 .f32 := fq64 (clip64 t)

/-- Floored to the grid of 1/600, straight-through form. -/
def fin (t : FVec F S131072x1 .f32) : FVec F S131072x1 .f32 :=
  addf t (subf (Host.divf (Host.floor (mulf t (broadcastInDim S131072x1 ![] bcast_S_S131072x1 (constant S_ .f32 0x44160000#32))))
    (broadcastInDim S131072x1 ![] bcast_S_S131072x1 (constant S_ .f32 0x44160000#32))) t)

/-! ## The whole program -/

def out (a0 a1 : FVec F S131072x97 .f32) (a2 : FVec F S48x97 .f32) (a3 : FVec F S48 .f32) (a4 : FVec F S48x97 .f32)
    (a5 : FVec F S48 .f32) (a6 : FVec F S384x32 .f32) (a7 : FVec F S384 .f32) (a8 : FVec F S6x64 .f32) (a9 : FVec F S6 .f32)
    (a10 : IVec S131072 32) : FVec F S131072x1 .f32 :=
  fin (take1 (lin6
    (act2 (take64 (lin384
      (act1 (take8 (lin48 a0 (q48x97 a2) (q48 a3)) (lsOf a10)) (take8 (lin48 a1 (q48x97 a4) (q48 a5)) (lsOf a10)))
      (q384x32 a6) (q384 a7)) (lsOf a10)))
    (q6x64 a8) (q6 a9)) (lsOf a10))

end Cert.ReferenceIdeal.Stage

end
-- ==== Proof.RefRun.lean ====
/-
  The reference's @main as one straight line of host operations (the called functions' operations in place at their
  calls), its run, and its result as the composition of the stages.

  The line is cut into consecutive stretches, one per stage: the bucket index; an affine map with the rounding of
  its weight and bias; a selection; the two activations; the last flooring. Each stretch's result buffer holds the
  stage's function of the buffers the stretch reads, and a stretch leaves every buffer it does not write as it was;
  the whole line's result is then the stages' composition, read off stretch by stretch from the last.
-/
import proofs.«419896_j55293408969355_3_alg».proof.Proof.Gen.ReferenceIdeal
import proofs.«419896_j55293408969355_3_alg».proof.Proof.RefStages
import proofs.«419896_j55293408969355_3_alg».proof.Proof.Spec
import Idealize.ShloMosaic.Lib.StableHlo.Run
import Idealize.ShloMosaic.Lib.Pipeline.Frame

noncomputable section

namespace Cert.ReferenceIdeal.RRun

open Cert.ReferenceIdeal Cert.ReferenceIdeal.Facts₀ Cert.ReferenceIdeal.Facts Cert.Spec Idealize.ShloMosaic Idealize.ShloMosaic.ValueIdx Idealize.ShloMosaic.TcCoe Idealize.SL.Sem Idealize.ShloMosaic.StableHlo
open scoped BigOperators

section Line

variable {F : FTy → Type} [FloatOps F]

/-! ## The stretches of statements 1 … 60

A called function's operations are written with @main's builders at the call's own buffers: a typed reference made of
a literal buffer moves contents along `rfl`, so the typed builder at it is the plain one (`part0_eq` checks it). -/

/-- The bucket index: the constant 10, then the floor division's operations (the truncated quotient, the two sign
    tests, the remainder's test, the quotient less one, the choice). -/
def sLs : List (HloOp τ sig (Elt F)) :=
  [ nullary main_c (constantI S_ 32 10#32),
    unary main_c main_call0_v0 id,
    unary main_call0_v0 main_call0_v1 (broadcastInDim S131072 ![] bcast_S_S131072),
    binary main_arg10 main_call0_v1 main_call0_v2 Host.divsi,
    unary main_arg10 main_call0_v3 signi,
    unary main_call0_v0 main_call0_v4 signi,
    unary main_call0_v4 main_call0_v5 (broadcastInDim S131072 ![] bcast_S_S131072),
    binary main_call0_v3 main_call0_v5 main_call0_v6 (cmpi .ne),
    unary main_call0_v0 main_call0_v7 (broadcastInDim S131072 ![] bcast_S_S131072),
    binary main_arg10 main_call0_v7 main_call0_v8 Host.remsi,
    nullary main_call0_c (constantI S_ 32 0#32),
    unary main_call0_c main_call0_v9 (broadcastInDim S131072 ![] bcast_S_S131072),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S131072 ![] bcast_S_S131072),
    binary main_call0_v2 main_call0_v12 main_call0_v13 subi,
    ternary main_call0_v11 main_call0_v13 main_call0_v2 main_v0 select ]

/-- The first affine map: the weight %arg2 rounded, transposed and multiplied into %arg0, the bias %arg3 rounded
    and added. -/
def sLinB : List (HloOp τ sig (Elt F)) :=
  [ nullary main_cst (constant S_ .f32 0x42800000#32),
    unary main_cst main_v1 (broadcastInDim S48x97 ![] bcast_S_S48x97),
    binary main_arg2 main_v1 main_v2 mulf,
    unary main_v2 main_v3 Host.roundeven,
    nullary main_cst_0 (constant S_ .f32 0x42800000#32),
    unary main_cst_0 main_v4 (broadcastInDim S48x97 ![] bcast_S_S48x97),
    binary main_v3 main_v4 main_v5 Host.divf,
    binary main_v5 main_arg2 main_v6 subf,
    binary main_arg2 main_v6 main_v7 addf,
    unary main_v7 main_v8 (transpose S97x48 [1, 0] · transposes_S48x97_S97x48_1_0),
    binary main_arg0 main_v8 main_v9 (fun l r => Host.dotGeneral dot_S131072x97_S97x48_S131072x48_1_0_0_1_n_n none l r),
    nullary main_cst_1 (constant S_ .f32 0x45FE0000#32),
    unary main_cst_1 main_v10 (broadcastInDim S48 ![] bcast_S_S48),
    binary main_arg3 main_v10 main_v11 mulf,
    unary main_v11 main_v12 Host.roundeven,
    nullary main_cst_2 (constant S_ .f32 0x45FE0000#32),
    unary main_cst_2 main_v13 (broadcastInDim S48 ![] bcast_S_S48),
    binary main_v12 main_v13 main_v14 Host.divf,
    binary main_v14 main_arg3 main_v15 subf,
    binary main_arg3 main_v15 main_v16 addf,
    unary main_v16 main_v17 (broadcastInDim S1x48 ![1] bcast_S48_S1x48_1),
    unary main_v17 main_v18 (broadcastInDim S131072x48 ![0, 1] bcast_S1x48_S131072x48_0_1),
    binary main_v9 main_v18 main_v19 addf ]

/-- The first selection: %19 as six buckets of eight, the bucket index made a column, the selection's operations
    (the index wrapped, its range test, the gather, the fill where the test fails), and the result as eight values. -/
def sTakeB : List (HloOp τ sig (Elt F)) :=
  [ reshape main_v19 main_v20 rfl shapeCasts_S131072x48_S131072x6x8,
    unary main_v0 main_v21 (broadcastInDim S131072x1x1 ![0] bcast_S131072_S131072x1x1_0),
    nullary main_call3_c (constantI S_ 32 0#32),
    unary main_call3_c main_call3_v0 (broadcastInDim S131072x1x1 ![] bcast_S_S131072x1x1),
    binary main_v21 main_call3_v0 main_call3_v1 (cmpi .slt),
    nullary main_call3_c_0 (constantI S_ 32 6#32),
    unary main_call3_c_0 main_call3_v2 (broadcastInDim S131072x1x1 ![] bcast_S_S131072x1x1),
    binary main_v21 main_call3_v2 main_call3_v3 addi,
    ternary main_call3_v1 main_call3_v3 main_v21 main_call3_v4 select,
    nullary main_call3_c_1 (constantI S1 32 5#32),
    nullary main_call3_c_2 (constantI S_ 32 0#32),
    unary main_call3_c_2 main_call3_v5 (broadcastInDim S131072x1x1 ![] bcast_S_S131072x1x1),
    binary main_call3_v4 main_call3_v5 main_call3_v6 (cmpi .sge),
    unary main_call3_c_1 main_call3_v7 (broadcastInDim S1x1x1 ![2] bcast_S1_S1x1x1_2),
    unary main_call3_v7 main_call3_v8 (broadcastInDim S131072x1x1 ![0, 1, 2] bcast_S1x1x1_S131072x1x1_0_1_2),
    binary main_call3_v4 main_call3_v8 main_call3_v9 (cmpi .sle),
    binary main_call3_v6 main_call3_v9 main_call3_v10 andi,
    nullary main_call3_c_3 (constantI S_ 1 1#1),
    binary main_call3_v10 main_call3_c_3 main_call3_v11 (fun x v => Host.reduce IntOp.andi x v reducesTo_S131072x1x1_S131072x1_d2 h_S_),
    binary main_v20 main_call3_v4 main_call3_v12 (fun x i => Host.gather gather_S131072x6x8_S131072x1x1_S131072x1x8_2_1_0_0_1_2_118 x i),
    unary main_call3_v11 main_call3_v13 (broadcastInDim S131072x1x8 ![0, 1] bcast_S131072x1_S131072x1x8_0_1),
    nullary main_call3_cst (constant S_ .f32 0x7FC00000#32),
    unary main_call3_cst main_call3_v14 (broadcastInDim S131072x1x8 ![] bcast_S_S131072x1x8),
    ternary main_call3_v13 main_call3_v12 main_call3_v14 main_v22 select,
    reshape main_v22 main_v23 rfl shapeCasts_S131072x1x8_S131072x8 ]

/-- The second affine map: the weight %arg4 and the bias %arg5 rounded, applied to %arg1. -/
def sLinP : List (HloOp τ sig (Elt F)) :=
  [ nullary main_cst_3 (constant S_ .f32 0x42800000#32),
    unary main_cst_3 main_v24 (broadcastInDim S48x97 ![] bcast_S_S48x97),
    binary main_arg4 main_v24 main_v25 mulf,
    unary main_v25 main_v26 Host.roundeven,
    nullary main_cst_4 (constant S_ .f32 0x42800000#32),
    unary main_cst_4 main_v27 (broadcastInDim S48x97 ![] bcast_S_S48x97),
    binary main_v26 main_v27 main_v28 Host.divf,
    binary main_v28 main_arg4 main_v29 subf,
    binary main_arg4 main_v29 main_v30 addf,
    unary main_v30 main_v31 (transpose S97x48 [1, 0] · transposes_S48x97_S97x48_1_0),
    binary main_arg1 main_v31 main_v32 (fun l r => Host.dotGeneral dot_S131072x97_S97x48_S131072x48_1_0_0_1_n_n none l r),
    nullary main_cst_5 (constant S_ .f32 0x45FE0000#32),
    unary main_cst_5 main_v33 (broadcastInDim S48 ![] bcast_S_S48),
    binary main_arg5 main_v33 main_v34 mulf,
    unary main_v34 main_v35 Host.roundeven,
    nullary main_cst_6 (constant S_ .f32 0x45FE0000#32),
    unary main_cst_6 main_v36 (broadcastInDim S48 ![] bcast_S_S48),
    binary main_v35 main_v36 main_v37 Host.divf,
    binary main_v37 main_arg5 main_v38 subf,
    binary main_arg5 main_v38 main_v39 addf,
    unary main_v39 main_v40 (broadcastInDim S1x48 ![1] bcast_S48_S1x48_1),
    unary main_v40 main_v41 (broadcastInDim S131072x48 ![0, 1] bcast_S1x48_S131072x48_0_1),
    binary main_v32 main_v41 main_v42 addf ]

/-- The second selection, of %42's buckets. -/
def sTakeP : List (HloOp τ sig (Elt F)) :=
  [ reshape main_v42 main_v43 rfl shapeCasts_S131072x48_S131072x6x8,
    unary main_v0 main_v44 (broadcastInDim S131072x1x1 ![0] bcast_S131072_S131072x1x1_0),
    nullary main_call6_c (constantI S_ 32 0#32),
    unary main_call6_c main_call6_v0 (broadcastInDim S131072x1x1 ![] bcast_S_S131072x1x1),
    binary main_v44 main_call6_v0 main_call6_v1 (cmpi .slt),
    nullary main_call6_c_0 (constantI S_ 32 6#32),
    unary main_call6_c_0 main_call6_v2 (broadcastInDim S131072x1x1 ![] bcast_S_S131072x1x1),
    binary main_v44 main_call6_v2 main_call6_v3 addi,
    ternary main_call6_v1 main_call6_v3 main_v44 main_call6_v4 select,
    nullary main_call6_c_1 (constantI S1 32 5#32),
    nullary main_call6_c_2 (constantI S_ 32 0#32),
    unary main_call6_c_2 main_call6_v5 (broadcastInDim S131072x1x1 ![] bcast_S_S131072x1x1),
    binary main_call6_v4 main_call6_v5 main_call6_v6 (cmpi .sge),
    unary main_call6_c_1 main_call6_v7 (broadcastInDim S1x1x1 ![2] bcast_S1_S1x1x1_2),
    unary main_call6_v7 main_call6_v8 (broadcastInDim S131072x1x1 ![0, 1, 2] bcast_S1x1x1_S131072x1x1_0_1_2),
    binary main_call6_v4 main_call6_v8 main_call6_v9 (cmpi .sle),
    binary main_call6_v6 main_call6_v9 main_call6_v10 andi,
    nullary main_call6_c_3 (constantI S_ 1 1#1),
    binary main_call6_v10 main_call6_c_3 main_call6_v11 (fun x v => Host.reduce IntOp.andi x v reducesTo_S131072x1x1_S131072x1_d2 h_S_),
    binary main_v43 main_call6_v4 main_call6_v12 (fun x i => Host.gather gather_S131072x6x8_S131072x1x1_S131072x1x8_2_1_0_0_1_2_118 x i),
    unary main_call6_v11 main_call6_v13 (broadcastInDim S131072x1x8 ![0, 1] bcast_S131072x1_S131072x1x8_0_1),
    nullary main_call6_cst (constant S_ .f32 0x7FC00000#32),
    unary main_call6_cst main_call6_v14 (broadcastInDim S131072x1x8 ![] bcast_S_S131072x1x8),
    ternary main_call6_v13 main_call6_v12 main_call6_v14 main_v45 select,
    reshape main_v45 main_v46 rfl shapeCasts_S131072x1x8_S131072x8 ]

/-- The sixteen selected values side by side, their squares, and the squares' scale. -/
def sCatA : List (HloOp τ sig (Elt F)) :=
  [ binary main_v23 main_v46 main_v47 (fun a b => concatenate S131072x16 1 [⟨S131072x8, a⟩, ⟨S131072x8, b⟩] concatenates_S131072x8_S131072x8_S131072x16_d1),
    binary main_v47 main_v47 main_v48 mulf,
    nullary main_cst_7 (constant S_ .f32 0x3F7E0000#32),
    unary main_cst_7 main_v49 (broadcastInDim S131072x16 ![] bcast_S_S131072x16) ]

/-- Statements 1 … 60 as one line. -/
def ops0 : List (HloOp τ sig (Elt F)) := sLs ++ sLinB ++ sTakeB ++ sLinP ++ sTakeP ++ sCatA

/-! ## The stretches of statements 61 … 120 -/

/-- The squares scaled. -/
def sCatB : List (HloOp τ sig (Elt F)) :=
  [ binary main_v48 main_v49 main_v50 mulf ]

/-- The first activation: the scaled squares beside the values, clipped to [0, 1] (the clip's operations: each bound
    broadcast, the maximum, the minimum), floored to the grid of 1/127 in straight-through form. -/
def sAct1 : List (HloOp τ sig (Elt F)) :=
  [ binary main_v50 main_v47 main_v51 (fun a b => concatenate S131072x32 1 [⟨S131072x16, a⟩, ⟨S131072x16, b⟩] concatenates_S131072x16_S131072x16_S131072x32_d1),
    nullary main_cst_8 (constant S_ .f32 0x00000000#32),
    nullary main_cst_9 (constant S_ .f32 0x3F800000#32),
    unary main_cst_8 main_call7_v0 id,
    unary main_call7_v0 main_call7_v1 (broadcastInDim S131072x32 ![] bcast_S_S131072x32),
    binary main_call7_v1 main_v51 main_call7_v2 maximumf,
    unary main_cst_9 main_call7_v3 id,
    unary main_call7_v3 main_call7_v4 (broadcastInDim S131072x32 ![] bcast_S_S131072x32),
    binary main_call7_v4 main_call7_v2 main_v52 minimumf,
    nullary main_cst_10 (constant S_ .f32 0x42FE0000#32),
    unary main_cst_10 main_v53 (broadcastInDim S131072x32 ![] bcast_S_S131072x32),
    binary main_v52 main_v53 main_v54 mulf,
    unary main_v54 main_v55 Host.floor,
    nullary main_cst_11 (constant S_ .f32 0x42FE0000#32),
    unary main_cst_11 main_v56 (broadcastInDim S131072x32 ![] bcast_S_S131072x32),
    binary main_v55 main_v56 main_v57 Host.divf,
    binary main_v57 main_v52 main_v58 subf,
    binary main_v52 main_v58 main_v59 addf ]

/-- The third affine map: the weight %arg6 and the bias %arg7 rounded, applied to %59. -/
def sLin2 : List (HloOp τ sig (Elt F)) :=
  [ nullary main_cst_12 (constant S_ .f32 0x42800000#32),
    unary main_cst_12 main_v60 (broadcastInDim S384x32 ![] bcast_S_S384x32),
    binary main_arg6 main_v60 main_v61 mulf,
    unary main_v61 main_v62 Host.roundeven,
    nullary main_cst_13 (constant S_ .f32 0x42800000#32),
    unary main_cst_13 main_v63 (broadcastInDim S384x32 ![] bcast_S_S384x32),
    binary main_v62 main_v63 main_v64 Host.divf,
    binary main_v64 main_arg6 main_v65 subf,
    binary main_arg6 main_v65 main_v66 addf,
    unary main_v66 main_v67 (transpose S32x384 [1, 0] · transposes_S384x32_S32x384_1_0),
    binary main_v59 main_v67 main_v68 (fun l r => Host.dotGeneral dot_S131072x32_S32x384_S131072x384_1_0_0_1_n_n none l r),
    nullary main_cst_14 (constant S_ .f32 0x45FE0000#32),
    unary main_cst_14 main_v69 (broadcastInDim S384 ![] bcast_S_S384),
    binary main_arg7 main_v69 main_v70 mulf,
    unary main_v70 main_v71 Host.roundeven,
    nullary main_cst_15 (constant S_ .f32 0x45FE0000#32),
    unary main_cst_15 main_v72 (broadcastInDim S384 ![] bcast_S_S384),
    binary main_v71 main_v72 main_v73 Host.divf,
    binary main_v73 main_arg7 main_v74 subf,
    binary main_arg7 main_v74 main_v75 addf,
    unary main_v75 main_v76 (broadcastInDim S1x384 ![1] bcast_S384_S1x384_1),
    unary main_v76 main_v77 (broadcastInDim S131072x384 ![0, 1] bcast_S1x384_S131072x384_0_1),
    binary main_v68 main_v77 main_v78 addf ]

/-- The third selection: %78 as six buckets of sixty-four. -/
def sTake2 : List (HloOp τ sig (Elt F)) :=
  [ reshape main_v78 main_v79 rfl shapeCasts_S131072x384_S131072x6x64,
    unary main_v0 main_v80 (broadcastInDim S131072x1x1 ![0] bcast_S131072_S131072x1x1_0),
    nullary main_call10_c (constantI S_ 32 0#32),
    unary main_call10_c main_call10_v0 (broadcastInDim S131072x1x1 ![] bcast_S_S131072x1x1),
    binary main_v80 main_call10_v0 main_call10_v1 (cmpi .slt),
    nullary main_call10_c_0 (constantI S_ 32 6#32),
    unary main_call10_c_0 main_call10_v2 (broadcastInDim S131072x1x1 ![] bcast_S_S131072x1x1),
    binary main_v80 main_call10_v2 main_call10_v3 addi,
    ternary main_call10_v1 main_call10_v3 main_v80 main_call10_v4 select,
    nullary main_call10_c_1 (constantI S1 32 5#32),
    nullary main_call10_c_2 (constantI S_ 32 0#32),
    unary main_call10_c_2 main_call10_v5 (broadcastInDim S131072x1x1 ![] bcast_S_S131072x1x1),
    binary main_call10_v4 main_call10_v5 main_call10_v6 (cmpi .sge),
    unary main_call10_c_1 main_call10_v7 (broadcastInDim S1x1x1 ![2] bcast_S1_S1x1x1_2),
    unary main_call10_v7 main_call10_v8 (broadcastInDim S131072x1x1 ![0, 1, 2] bcast_S1x1x1_S131072x1x1_0_1_2),
    binary main_call10_v4 main_call10_v8 main_call10_v9 (cmpi .sle),
    binary main_call10_v6 main_call10_v9 main_call10_v10 andi,
    nullary main_call10_c_3 (constantI S_ 1 1#1),
    binary main_call10_v10 main_call10_c_3 main_call10_v11 (fun x v => Host.reduce IntOp.andi x v reducesTo_S131072x1x1_S131072x1_d2 h_S_),
    binary main_v79 main_call10_v4 main_call10_v12 (fun x i => Host.gather gather_S131072x6x64_S131072x1x1_S131072x1x64_2_1_0_0_1_2_1164 x i),
    unary main_call10_v11 main_call10_v13 (broadcastInDim S131072x1x64 ![0, 1] bcast_S131072x1_S131072x1x64_0_1),
    nullary main_call10_cst (constant S_ .f32 0x7FC00000#32),
    unary main_call10_cst main_call10_v14 (broadcastInDim S131072x1x64 ![] bcast_S_S131072x1x64),
    ternary main_call10_v13 main_call10_v12 main_call10_v14 main_v81 select,
    reshape main_v81 main_v82 rfl shapeCasts_S131072x1x64_S131072x64 ]

/-- The second activation: clipped to [0, 1], floored to the grid of 1/127 in straight-through form. -/
def sAct2 : List (HloOp τ sig (Elt F)) :=
  [ nullary main_cst_16 (constant S_ .f32 0x00000000#32),
    nullary main_cst_17 (constant S_ .f32 0x3F800000#32),
    unary main_cst_16 main_call11_v0 id,
    unary main_call11_v0 main_call11_v1 (broadcastInDim S131072x64 ![] bcast_S_S131072x64),
    binary main_call11_v1 main_v82 main_call11_v2 maximumf,
    unary main_cst_17 main_call11_v3 id,
    unary main_call11_v3 main_call11_v4 (broadcastInDim S131072x64 ![] bcast_S_S131072x64),
    binary main_call11_v4 main_call11_v2 main_v83 minimumf,
    nullary main_cst_18 (constant S_ .f32 0x42FE0000#32),
    unary main_cst_18 main_v84 (broadcastInDim S131072x64 ![] bcast_S_S131072x64),
    binary main_v83 main_v84 main_v85 mulf,
    unary main_v85 main_v86 Host.floor,
    nullary main_cst_19 (constant S_ .f32 0x42FE0000#32),
    unary main_cst_19 main_v87 (broadcastInDim S131072x64 ![] bcast_S_S131072x64),
    binary main_v86 main_v87 main_v88 Host.divf,
    binary main_v88 main_v83 main_v89 subf,
    binary main_v83 main_v89 main_v90 addf ]

/-- The last affine map's weight %arg8, as far as its rounded quotient. -/
def sLin3a : List (HloOp τ sig (Elt F)) :=
  [ nullary main_cst_20 (constant S_ .f32 0x42972E5D#32),
    unary main_cst_20 main_v91 (broadcastInDim S6x64 ![] bcast_S_S6x64),
    binary main_arg8 main_v91 main_v92 mulf,
    unary main_v92 main_v93 Host.roundeven,
    nullary main_cst_21 (constant S_ .f32 0x42972E5D#32),
    unary main_cst_21 main_v94 (broadcastInDim S6x64 ![] bcast_S_S6x64),
    binary main_v93 main_v94 main_v95 Host.divf ]

/-- Statements 61 … 120 as one line. -/
def ops1 : List (HloOp τ sig (Elt F)) := sCatB ++ sAct1 ++ sLin2 ++ sTake2 ++ sAct2 ++ sLin3a

/-! ## The stretches of statements 121 … 150 -/

/-- The rest of the last affine map: the weight's straight-through form, transposed and multiplied into %90, the bias
    %arg9 rounded and added. -/
def sLin3b : List (HloOp τ sig (Elt F)) :=
  [ binary main_v95 main_arg8 main_v96 subf,
    binary main_arg8 main_v96 main_v97 addf,
    unary main_v97 main_v98 (transpose S64x6 [1, 0] · transposes_S6x64_S64x6_1_0),
    binary main_v90 main_v98 main_v99 (fun l r => Host.dotGeneral dot_S131072x64_S64x6_S131072x6_1_0_0_1_n_n none l r),
    nullary main_cst_22 (constant S_ .f32 0x46160000#32),
    unary main_cst_22 main_v100 (broadcastInDim S6 ![] bcast_S_S6),
    binary main_arg9 main_v100 main_v101 mulf,
    unary main_v101 main_v102 Host.roundeven,
    nullary main_cst_23 (constant S_ .f32 0x46160000#32),
    unary main_cst_23 main_v103 (broadcastInDim S6 ![] bcast_S_S6),
    binary main_v102 main_v103 main_v104 Host.divf,
    binary main_v104 main_arg9 main_v105 subf,
    binary main_arg9 main_v105 main_v106 addf,
    unary main_v106 main_v107 (broadcastInDim S1x6 ![1] bcast_S6_S1x6_1),
    unary main_v107 main_v108 (broadcastInDim S131072x6 ![0, 1] bcast_S1x6_S131072x6_0_1),
    binary main_v99 main_v108 main_v109 addf ]

/-- The last selection: %109 as six buckets of one. -/
def sTake3 : List (HloOp τ sig (Elt F)) :=
  [ reshape main_v109 main_v110 rfl shapeCasts_S131072x6_S131072x6x1,
    unary main_v0 main_v111 (broadcastInDim S131072x1x1 ![0] bcast_S131072_S131072x1x1_0),
    nullary main_call14_c (constantI S_ 32 0#32),
    unary main_call14_c main_call14_v0 (broadcastInDim S131072x1x1 ![] bcast_S_S131072x1x1),
    binary main_v111 main_call14_v0 main_call14_v1 (cmpi .slt),
    nullary main_call14_c_0 (constantI S_ 32 6#32),
    unary main_call14_c_0 main_call14_v2 (broadcastInDim S131072x1x1 ![] bcast_S_S131072x1x1),
    binary main_v111 main_call14_v2 main_call14_v3 addi,
    ternary main_call14_v1 main_call14_v3 main_v111 main_call14_v4 select,
    nullary main_call14_c_1 (constantI S1 32 5#32),
    nullary main_call14_c_2 (constantI S_ 32 0#32),
    unary main_call14_c_2 main_call14_v5 (broadcastInDim S131072x1x1 ![] bcast_S_S131072x1x1),
    binary main_call14_v4 main_call14_v5 main_call14_v6 (cmpi .sge),
    unary main_call14_c_1 main_call14_v7 (broadcastInDim S1x1x1 ![2] bcast_S1_S1x1x1_2),
    unary main_call14_v7 main_call14_v8 (broadcastInDim S131072x1x1 ![0, 1, 2] bcast_S1x1x1_S131072x1x1_0_1_2),
    binary main_call14_v4 main_call14_v8 main_call14_v9 (cmpi .sle),
    binary main_call14_v6 main_call14_v9 main_call14_v10 andi,
    nullary main_call14_c_3 (constantI S_ 1 1#1),
    binary main_call14_v10 main_call14_c_3 main_call14_v11 (fun x v => Host.reduce IntOp.andi x v reducesTo_S131072x1x1_S131072x1_d2 h_S_),
    binary main_v110 main_call14_v4 main_call14_v12 (fun x i => Host.gather gather_S131072x6x1_S131072x1x1_S131072x1x1_2_1_0_0_1_2_111 x i),
    unary main_call14_v11 main_call14_v13 (broadcastInDim S131072x1x1 ![0, 1] bcast_S131072x1_S131072x1x1_0_1),
    nullary main_call14_cst (constant S_ .f32 0x7FC00000#32),
    unary main_call14_cst main_call14_v14 (broadcastInDim S131072x1x1 ![] bcast_S_S131072x1x1),
    ternary main_call14_v13 main_call14_v12 main_call14_v14 main_v112 select,
    reshape main_v112 main_v113 rfl shapeCasts_S131072x1x1_S131072x1 ]

/-- The last flooring, to the grid of 1/600, straight-through form. -/
def sFin : List (HloOp τ sig (Elt F)) :=
  [ nullary main_cst_24 (constant S_ .f32 0x44160000#32),
    unary main_cst_24 main_v114 (broadcastInDim S131072x1 ![] bcast_S_S131072x1),
    binary main_v113 main_v114 main_v115 mulf,
    unary main_v115 main_v116 Host.floor,
    nullary main_cst_25 (constant S_ .f32 0x44160000#32),
    unary main_cst_25 main_v117 (broadcastInDim S131072x1 ![] bcast_S_S131072x1),
    binary main_v116 main_v117 main_v118 Host.divf,
    binary main_v118 main_v113 main_v119 subf,
    binary main_v113 main_v119 main_v120 addf ]

/-- Statements 121 … 150 as one line. -/
def ops2 : List (HloOp τ sig (Elt F)) := sLin3b ++ sTake3 ++ sFin

/-- @main's operations, in order. -/
def ops : List (HloOp τ sig (Elt F)) := ops0 ++ ops1 ++ ops2

/-! ## @main is that line -/

-- the binds re-associated: the rewrite under the chain recurses once per statement; the reduction and the gather stay
-- folded while a typed builder is compared with the plain one (unfolded, the comparison walks their folds over the rows)
attribute [local irreducible] Host.reduce Host.gather in
set_option maxRecDepth 8192 in
set_option maxHeartbeats 4000000 in
/-- Statements 1 … 60 are their line: the called functions' bodies in place at their calls, sequencing re-associated. -/
theorem part0_eq (c : Dev nD) : main_part0 (F := F) c = seq ops0 := by
  simp only [main_part0, fn_floor_divide.body, fn_where.body, fn_round.body, fn_round_0.body, fn_take_along_axis.body,
    ops0, sLs, sLinB, sTakeB, sLinP, sTakeP, sCatA, List.cons_append, List.nil_append, seq, bind_assoc, pure_bind]
  rfl

attribute [local irreducible] Host.reduce Host.gather in
set_option maxRecDepth 8192 in
set_option maxHeartbeats 4000000 in
/-- Statements 61 … 120 are their line. -/
theorem part1_eq (c : Dev nD) : main_part1 (F := F) c = seq ops1 := by
  simp only [main_part1, fn_clip.body, fn_clip_4.body, fn_round_1.body, fn_round_2.body, fn_round_5.body, fn_take_along_axis_3.body,
    ops1, sCatB, sAct1, sLin2, sTake2, sAct2, sLin3a, List.cons_append, List.nil_append, seq, bind_assoc, pure_bind]
  rfl

attribute [local irreducible] Host.reduce Host.gather in
set_option maxRecDepth 8192 in
set_option maxHeartbeats 4000000 in
/-- Statements 121 … 150 are their line. -/
theorem part2_eq (c : Dev nD) : main_part2 (F := F) c = seq ops2 := by
  simp only [main_part2, fn_round_6.body, fn_take_along_axis_7.body,
    ops2, sLin3b, sTake3, sFin, List.cons_append, List.nil_append, seq, bind_assoc, pure_bind]
  rfl

/-- @main is the whole line: its three windows in order are their lines' concatenation. -/
theorem main_eq (c : Dev nD) : main (F := F) c = seq ops := by
  rw [ops, seq_append, seq_append, ← part0_eq c, ← part1_eq c, ← part2_eq c]
  rfl

/-! ## What each stretch computes

Each lemma reads a stretch's result buffer after the stretch, from any contents `V`: the fold unrolled, each
operation's result taken at its own buffer and passed over at every other, what is left is the stage's term. The
result buffer is un-indexed in the statement, so that the lemma rewrites under a later stretch's fold. -/

theorem sLs_v0 (V : Valuation τ sig (Elt F)) :
    after sLs V (no_index (Proc.devRef .tc main_v0)) = Stage.lsOf (V (main_arg10 : DevRef τ sig)) := by
  simp only [sLs]
  after_results_simp
  rfl

theorem sLinB_v19 (V : Valuation τ sig (Elt F)) :
    after sLinB V (no_index (Proc.devRef .tc main_v19))
      = Stage.lin48 (V (main_arg0 : DevRef τ sig)) (Stage.q48x97 (V (main_arg2 : DevRef τ sig))) (Stage.q48 (V (main_arg3 : DevRef τ sig))) := by
  simp only [sLinB]
  after_results_simp
  rfl

theorem sTakeB_v23 (V : Valuation τ sig (Elt F)) :
    after sTakeB V (no_index (Proc.devRef .tc main_v23))
      = Stage.take8 (V (main_v19 : DevRef τ sig)) (V (main_v0 : DevRef τ sig)) := by
  simp only [sTakeB]
  after_results_simp
  rfl

theorem sLinP_v42 (V : Valuation τ sig (Elt F)) :
    after sLinP V (no_index (Proc.devRef .tc main_v42))
      = Stage.lin48 (V (main_arg1 : DevRef τ sig)) (Stage.q48x97 (V (main_arg4 : DevRef τ sig))) (Stage.q48 (V (main_arg5 : DevRef τ sig))) := by
  simp only [sLinP]
  after_results_simp
  rfl

theorem sTakeP_v46 (V : Valuation τ sig (Elt F)) :
    after sTakeP V (no_index (Proc.devRef .tc main_v46))
      = Stage.take8 (V (main_v42 : DevRef τ sig)) (V (main_v0 : DevRef τ sig)) := by
  simp only [sTakeP]
  after_results_simp
  rfl

/-- The first activation runs over the end of the first window and the start of the second. -/
theorem sAct1_v59 (V : Valuation τ sig (Elt F)) :
    after sAct1 (after sCatB (after sCatA V)) (no_index (Proc.devRef .tc main_v59))
      = Stage.act1 (V (main_v23 : DevRef τ sig)) (V (main_v46 : DevRef τ sig)) := by
  simp only [sCatA, sCatB, sAct1]
  after_results_simp
  rfl

theorem sLin2_v78 (V : Valuation τ sig (Elt F)) :
    after sLin2 V (no_index (Proc.devRef .tc main_v78))
      = Stage.lin384 (V (main_v59 : DevRef τ sig)) (Stage.q384x32 (V (main_arg6 : DevRef τ sig))) (Stage.q384 (V (main_arg7 : DevRef τ sig))) := by
  simp only [sLin2]
  after_results_simp
  rfl

theorem sTake2_v82 (V : Valuation τ sig (Elt F)) :
    after sTake2 V (no_index (Proc.devRef .tc main_v82))
      = Stage.take64 (V (main_v78 : DevRef τ sig)) (V (main_v0 : DevRef τ sig)) := by
  simp only [sTake2]
  after_results_simp
  rfl

theorem sAct2_v90 (V : Valuation τ sig (Elt F)) :
    after sAct2 V (no_index (Proc.devRef .tc main_v90)) = Stage.act2 (V (main_v82 : DevRef τ sig)) := by
  simp only [sAct2]
  after_results_simp
  rfl

/-- The last affine map runs over the end of the second window and the start of the third. -/
theorem sLin3_v109 (V : Valuation τ sig (Elt F)) :
    after sLin3b (after sLin3a V) (no_index (Proc.devRef .tc main_v109))
      = Stage.lin6 (V (main_v90 : DevRef τ sig)) (Stage.q6x64 (V (main_arg8 : DevRef τ sig))) (Stage.q6 (V (main_arg9 : DevRef τ sig))) := by
  simp only [sLin3a, sLin3b]
  after_results_simp
  rfl

theorem sTake3_v113 (V : Valuation τ sig (Elt F)) :
    after sTake3 V (no_index (Proc.devRef .tc main_v113))
      = Stage.take1 (V (main_v109 : DevRef τ sig)) (V (main_v0 : DevRef τ sig)) := by
  simp only [sTake3]
  after_results_simp
  rfl

theorem sFin_v120 (V : Valuation τ sig (Elt F)) :
    after sFin V (no_index (Proc.devRef .tc main_v120)) = Stage.fin (V (main_v113 : DevRef τ sig)) := by
  simp only [sFin]
  after_results_simp
  rfl

/-! ## What each stretch writes, and that it keeps the rest

Per stretch: the buffers its operations write, in order (one per operation: each tensor value has a buffer of its
own); that each operation writes one of them; and so that a buffer outside the list is after the stretch as before. -/

abbrev sLs_W : List (Ref sig .tc) :=
  [main_c, main_call0_v0, main_call0_v1, main_call0_v2, main_call0_v3, main_call0_v4, main_call0_v5, main_call0_v6, main_call0_v7,
    main_call0_v8, main_call0_c, main_call0_v9, main_call0_v10, main_call0_v11, main_call0_c_0, main_call0_v12, main_call0_v13, main_v0]
abbrev sLinB_W : List (Ref sig .tc) :=
  [main_cst, main_v1, main_v2, main_v3, main_cst_0, main_v4, main_v5, main_v6, main_v7, main_v8, main_v9, main_cst_1, main_v10, main_v11,
    main_v12, main_cst_2, main_v13, main_v14, main_v15, main_v16, main_v17, main_v18, main_v19]
abbrev sTakeB_W : List (Ref sig .tc) :=
  [main_v20, main_v21, main_call3_c, main_call3_v0, main_call3_v1, main_call3_c_0, main_call3_v2, main_call3_v3, main_call3_v4,
    main_call3_c_1, main_call3_c_2, main_call3_v5, main_call3_v6, main_call3_v7, main_call3_v8, main_call3_v9, main_call3_v10,
    main_call3_c_3, main_call3_v11, main_call3_v12, main_call3_v13, main_call3_cst, main_call3_v14, main_v22, main_v23]
abbrev sLinP_W : List (Ref sig .tc) :=
  [main_cst_3, main_v24, main_v25, main_v26, main_cst_4, main_v27, main_v28, main_v29, main_v30, main_v31, main_v32, main_cst_5, main_v33,
    main_v34, main_v35, main_cst_6, main_v36, main_v37, main_v38, main_v39, main_v40, main_v41, main_v42]
abbrev sTakeP_W : List (Ref sig .tc) :=
  [main_v43, main_v44, main_call6_c, main_call6_v0, main_call6_v1, main_call6_c_0, main_call6_v2, main_call6_v3, main_call6_v4,
    main_call6_c_1, main_call6_c_2, main_call6_v5, main_call6_v6, main_call6_v7, main_call6_v8, main_call6_v9, main_call6_v10,
    main_call6_c_3, main_call6_v11, main_call6_v12, main_call6_v13, main_call6_cst, main_call6_v14, main_v45, main_v46]
abbrev sCatA_W : List (Ref sig .tc) := [main_v47, main_v48, main_cst_7, main_v49]
abbrev sCatB_W : List (Ref sig .tc) := [main_v50]
abbrev sAct1_W : List (Ref sig .tc) :=
  [main_v51, main_cst_8, main_cst_9, main_call7_v0, main_call7_v1, main_call7_v2, main_call7_v3, main_call7_v4, main_v52, main_cst_10,
    main_v53, main_v54, main_v55, main_cst_11, main_v56, main_v57, main_v58, main_v59]
abbrev sLin2_W : List (Ref sig .tc) :=
  [main_cst_12, main_v60, main_v61, main_v62, main_cst_13, main_v63, main_v64, main_v65, main_v66, main_v67, main_v68, main_cst_14, main_v69,
    main_v70, main_v71, main_cst_15, main_v72, main_v73, main_v74, main_v75, main_v76, main_v77, main_v78]
abbrev sTake2_W : List (Ref sig .tc) :=
  [main_v79, main_v80, main_call10_c, main_call10_v0, main_call10_v1, main_call10_c_0, main_call10_v2, main_call10_v3, main_call10_v4,
    main_call10_c_1, main_call10_c_2, main_call10_v5, main_call10_v6, main_call10_v7, main_call10_v8, main_call10_v9, main_call10_v10,
    main_call10_c_3, main_call10_v11, main_call10_v12, main_call10_v13, main_call10_cst, main_call10_v14, main_v81, main_v82]
abbrev sAct2_W : List (Ref sig .tc) :=
  [main_cst_16, main_cst_17, main_call11_v0, main_call11_v1, main_call11_v2, main_call11_v3, main_call11_v4, main_v83, main_cst_18,
    main_v84, main_v85, main_v86, main_cst_19, main_v87, main_v88, main_v89, main_v90]
abbrev sLin3a_W : List (Ref sig .tc) := [main_cst_20, main_v91, main_v92, main_v93, main_cst_21, main_v94, main_v95]
abbrev sLin3b_W : List (Ref sig .tc) :=
  [main_v96, main_v97, main_v98, main_v99, main_cst_22, main_v100, main_v101, main_v102, main_cst_23, main_v103, main_v104, main_v105,
    main_v106, main_v107, main_v108, main_v109]
abbrev sTake3_W : List (Ref sig .tc) :=
  [main_v110, main_v111, main_call14_c, main_call14_v0, main_call14_v1, main_call14_c_0, main_call14_v2, main_call14_v3, main_call14_v4,
    main_call14_c_1, main_call14_c_2, main_call14_v5, main_call14_v6, main_call14_v7, main_call14_v8, main_call14_v9, main_call14_v10,
    main_call14_c_3, main_call14_v11, main_call14_v12, main_call14_v13, main_call14_cst, main_call14_v14, main_v112, main_v113]
abbrev sFin_W : List (Ref sig .tc) :=
  [main_cst_24, main_v114, main_v115, main_v116, main_cst_25, main_v117, main_v118, main_v119, main_v120]

theorem sLs_writes : (sLs : List (HloOp τ sig (Elt F))).Forall fun op => op.writes ⊆ (sLs_W.map (Proc.devRef (τ := τ) .tc)).toFinset := by
  simp only [sLs, List.Forall, nullary_writes, unary_writes, binary_writes, ternary_writes, reshape_writes, Finset.singleton_subset_iff, List.mem_toFinset]
  repeat' apply And.intro
  all_goals exact List.mem_map_of_mem (by decide)
theorem sLinB_writes : (sLinB : List (HloOp τ sig (Elt F))).Forall fun op => op.writes ⊆ (sLinB_W.map (Proc.devRef (τ := τ) .tc)).toFinset := by
  simp only [sLinB, List.Forall, nullary_writes, unary_writes, binary_writes, ternary_writes, reshape_writes, Finset.singleton_subset_iff, List.mem_toFinset]
  repeat' apply And.intro
  all_goals exact List.mem_map_of_mem (by decide)
theorem sTakeB_writes : (sTakeB : List (HloOp τ sig (Elt F))).Forall fun op => op.writes ⊆ (sTakeB_W.map (Proc.devRef (τ := τ) .tc)).toFinset := by
  simp only [sTakeB, List.Forall, nullary_writes, unary_writes, binary_writes, ternary_writes, reshape_writes, Finset.singleton_subset_iff, List.mem_toFinset]
  repeat' apply And.intro
  all_goals exact List.mem_map_of_mem (by decide)
theorem sLinP_writes : (sLinP : List (HloOp τ sig (Elt F))).Forall fun op => op.writes ⊆ (sLinP_W.map (Proc.devRef (τ := τ) .tc)).toFinset := by
  simp only [sLinP, List.Forall, nullary_writes, unary_writes, binary_writes, ternary_writes, reshape_writes, Finset.singleton_subset_iff, List.mem_toFinset]
  repeat' apply And.intro
  all_goals exact List.mem_map_of_mem (by decide)
theorem sTakeP_writes : (sTakeP : List (HloOp τ sig (Elt F))).Forall fun op => op.writes ⊆ (sTakeP_W.map (Proc.devRef (τ := τ) .tc)).toFinset := by
  simp only [sTakeP, List.Forall, nullary_writes, unary_writes, binary_writes, ternary_writes, reshape_writes, Finset.singleton_subset_iff, List.mem_toFinset]
  repeat' apply And.intro
  all_goals exact List.mem_map_of_mem (by decide)
theorem sCatA_writes : (sCatA : List (HloOp τ sig (Elt F))).Forall fun op => op.writes ⊆ (sCatA_W.map (Proc.devRef (τ := τ) .tc)).toFinset := by
  simp only [sCatA, List.Forall, nullary_writes, unary_writes, binary_writes, ternary_writes, reshape_writes, Finset.singleton_subset_iff, List.mem_toFinset]
  repeat' apply And.intro
  all_goals exact List.mem_map_of_mem (by decide)
theorem sCatB_writes : (sCatB : List (HloOp τ sig (Elt F))).Forall fun op => op.writes ⊆ (sCatB_W.map (Proc.devRef (τ := τ) .tc)).toFinset := by
  simp only [sCatB, List.Forall, nullary_writes, unary_writes, binary_writes, ternary_writes, reshape_writes, Finset.singleton_subset_iff, List.mem_toFinset]
  exact List.mem_map_of_mem (by decide)
theorem sAct1_writes : (sAct1 : List (HloOp τ sig (Elt F))).Forall fun op => op.writes ⊆ (sAct1_W.map (Proc.devRef (τ := τ) .tc)).toFinset := by
  simp only [sAct1, List.Forall, nullary_writes, unary_writes, binary_writes, ternary_writes, reshape_writes, Finset.singleton_subset_iff, List.mem_toFinset]
  repeat' apply And.intro
  all_goals exact List.mem_map_of_mem (by decide)
theorem sLin2_writes : (sLin2 : List (HloOp τ sig (Elt F))).Forall fun op => op.writes ⊆ (sLin2_W.map (Proc.devRef (τ := τ) .tc)).toFinset := by
  simp only [sLin2, List.Forall, nullary_writes, unary_writes, binary_writes, ternary_writes, reshape_writes, Finset.singleton_subset_iff, List.mem_toFinset]
  repeat' apply And.intro
  all_goals exact List.mem_map_of_mem (by decide)
theorem sTake2_writes : (sTake2 : List (HloOp τ sig (Elt F))).Forall fun op => op.writes ⊆ (sTake2_W.map (Proc.devRef (τ := τ) .tc)).toFinset := by
  simp only [sTake2, List.Forall, nullary_writes, unary_writes, binary_writes, ternary_writes, reshape_writes, Finset.singleton_subset_iff, List.mem_toFinset]
  repeat' apply And.intro
  all_goals exact List.mem_map_of_mem (by decide)
theorem sAct2_writes : (sAct2 : List (HloOp τ sig (Elt F))).Forall fun op => op.writes ⊆ (sAct2_W.map (Proc.devRef (τ := τ) .tc)).toFinset := by
  simp only [sAct2, List.Forall, nullary_writes, unary_writes, binary_writes, ternary_writes, reshape_writes, Finset.singleton_subset_iff, List.mem_toFinset]
  repeat' apply And.intro
  all_goals exact List.mem_map_of_mem (by decide)
theorem sLin3a_writes : (sLin3a : List (HloOp τ sig (Elt F))).Forall fun op => op.writes ⊆ (sLin3a_W.map (Proc.devRef (τ := τ) .tc)).toFinset := by
  simp only [sLin3a, List.Forall, nullary_writes, unary_writes, binary_writes, ternary_writes, reshape_writes, Finset.singleton_subset_iff, List.mem_toFinset]
  repeat' apply And.intro
  all_goals exact List.mem_map_of_mem (by decide)
theorem sLin3b_writes : (sLin3b : List (HloOp τ sig (Elt F))).Forall fun op => op.writes ⊆ (sLin3b_W.map (Proc.devRef (τ := τ) .tc)).toFinset := by
  simp only [sLin3b, List.Forall, nullary_writes, unary_writes, binary_writes, ternary_writes, reshape_writes, Finset.singleton_subset_iff, List.mem_toFinset]
  repeat' apply And.intro
  all_goals exact List.mem_map_of_mem (by decide)
theorem sTake3_writes : (sTake3 : List (HloOp τ sig (Elt F))).Forall fun op => op.writes ⊆ (sTake3_W.map (Proc.devRef (τ := τ) .tc)).toFinset := by
  simp only [sTake3, List.Forall, nullary_writes, unary_writes, binary_writes, ternary_writes, reshape_writes, Finset.singleton_subset_iff, List.mem_toFinset]
  repeat' apply And.intro
  all_goals exact List.mem_map_of_mem (by decide)
theorem sFin_writes : (sFin : List (HloOp τ sig (Elt F))).Forall fun op => op.writes ⊆ (sFin_W.map (Proc.devRef (τ := τ) .tc)).toFinset := by
  simp only [sFin, List.Forall, nullary_writes, unary_writes, binary_writes, ternary_writes, reshape_writes, Finset.singleton_subset_iff, List.mem_toFinset]
  repeat' apply And.intro
  all_goals exact List.mem_map_of_mem (by decide)

theorem sLs_keep (V : Valuation τ sig (Elt F)) (r : Ref sig .tc) (h : r ∉ sLs_W) :
    after sLs V (no_index (Proc.devRef .tc r)) = V (Proc.devRef .tc r) := after_of_writes_sub sLs V sLs_writes h
theorem sLinB_keep (V : Valuation τ sig (Elt F)) (r : Ref sig .tc) (h : r ∉ sLinB_W) :
    after sLinB V (no_index (Proc.devRef .tc r)) = V (Proc.devRef .tc r) := after_of_writes_sub sLinB V sLinB_writes h
theorem sTakeB_keep (V : Valuation τ sig (Elt F)) (r : Ref sig .tc) (h : r ∉ sTakeB_W) :
    after sTakeB V (no_index (Proc.devRef .tc r)) = V (Proc.devRef .tc r) := after_of_writes_sub sTakeB V sTakeB_writes h
theorem sLinP_keep (V : Valuation τ sig (Elt F)) (r : Ref sig .tc) (h : r ∉ sLinP_W) :
    after sLinP V (no_index (Proc.devRef .tc r)) = V (Proc.devRef .tc r) := after_of_writes_sub sLinP V sLinP_writes h
theorem sTakeP_keep (V : Valuation τ sig (Elt F)) (r : Ref sig .tc) (h : r ∉ sTakeP_W) :
    after sTakeP V (no_index (Proc.devRef .tc r)) = V (Proc.devRef .tc r) := after_of_writes_sub sTakeP V sTakeP_writes h
theorem sCatA_keep (V : Valuation τ sig (Elt F)) (r : Ref sig .tc) (h : r ∉ sCatA_W) :
    after sCatA V (no_index (Proc.devRef .tc r)) = V (Proc.devRef .tc r) := after_of_writes_sub sCatA V sCatA_writes h
theorem sCatB_keep (V : Valuation τ sig (Elt F)) (r : Ref sig .tc) (h : r ∉ sCatB_W) :
    after sCatB V (no_index (Proc.devRef .tc r)) = V (Proc.devRef .tc r) := after_of_writes_sub sCatB V sCatB_writes h
theorem sAct1_keep (V : Valuation τ sig (Elt F)) (r : Ref sig .tc) (h : r ∉ sAct1_W) :
    after sAct1 V (no_index (Proc.devRef .tc r)) = V (Proc.devRef .tc r) := after_of_writes_sub sAct1 V sAct1_writes h
theorem sLin2_keep (V : Valuation τ sig (Elt F)) (r : Ref sig .tc) (h : r ∉ sLin2_W) :
    after sLin2 V (no_index (Proc.devRef .tc r)) = V (Proc.devRef .tc r) := after_of_writes_sub sLin2 V sLin2_writes h
theorem sTake2_keep (V : Valuation τ sig (Elt F)) (r : Ref sig .tc) (h : r ∉ sTake2_W) :
    after sTake2 V (no_index (Proc.devRef .tc r)) = V (Proc.devRef .tc r) := after_of_writes_sub sTake2 V sTake2_writes h
theorem sAct2_keep (V : Valuation τ sig (Elt F)) (r : Ref sig .tc) (h : r ∉ sAct2_W) :
    after sAct2 V (no_index (Proc.devRef .tc r)) = V (Proc.devRef .tc r) := after_of_writes_sub sAct2 V sAct2_writes h
theorem sLin3a_keep (V : Valuation τ sig (Elt F)) (r : Ref sig .tc) (h : r ∉ sLin3a_W) :
    after sLin3a V (no_index (Proc.devRef .tc r)) = V (Proc.devRef .tc r) := after_of_writes_sub sLin3a V sLin3a_writes h
theorem sLin3b_keep (V : Valuation τ sig (Elt F)) (r : Ref sig .tc) (h : r ∉ sLin3b_W) :
    after sLin3b V (no_index (Proc.devRef .tc r)) = V (Proc.devRef .tc r) := after_of_writes_sub sLin3b V sLin3b_writes h
theorem sTake3_keep (V : Valuation τ sig (Elt F)) (r : Ref sig .tc) (h : r ∉ sTake3_W) :
    after sTake3 V (no_index (Proc.devRef .tc r)) = V (Proc.devRef .tc r) := after_of_writes_sub sTake3 V sTake3_writes h
theorem sFin_keep (V : Valuation τ sig (Elt F)) (r : Ref sig .tc) (h : r ∉ sFin_W) :
    after sFin V (no_index (Proc.devRef .tc r)) = V (Proc.devRef .tc r) := after_of_writes_sub sFin V sFin_writes h

/-! ## The whole line -/

/-- Every operation of the line touches TensorCore buffers only. -/
theorem ops_sub : (ops : List (HloOp τ sig (Elt F))).Forall fun op => op.bufs ⊆ tcRefs τ sig := by
  simp only [ops, ops0, ops1, ops2, sLs, sLinB, sTakeB, sLinP, sTakeP, sCatA, sCatB, sAct1, sLin2, sTake2, sAct2, sLin3a, sLin3b, sTake3, sFin,
    List.cons_append, List.nil_append, List.Forall, nullary_bufs_sub, unary_bufs_sub, binary_bufs_sub, ternary_bufs_sub, reshape_bufs_sub, and_self]

/-- No operation of the line is an allocation: each determines what it writes. -/
theorem ops_fresh : ∀ op ∈ (ops : List (HloOp τ sig (Elt F))), op.fresh = ∅ := by
  refine List.forall_iff_forall_mem.mp ?_
  simp only [ops, ops0, ops1, ops2, sLs, sLinB, sTakeB, sLinP, sTakeP, sCatA, sCatB, sAct1, sLin2, sTake2, sAct2, sLin3a, sLin3b, sTake3, sFin,
    List.cons_append, List.nil_append, List.Forall]
  repeat' apply And.intro
  all_goals rfl

/-- The result buffer after the whole line is the stages' composition of the argument buffers: read off stretch by
    stretch from the last, a stretch's result by its lemma, a buffer an earlier stretch wrote (or an argument) carried
    back through the stretches between, none of which writes it. -/
theorem out_eq (V : Valuation τ sig (Elt F)) :
    after ops V (main_v120 : DevRef τ sig)
      = Stage.out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  simp (disch := decide) only [ops, ops0, ops1, ops2, after_append, Stage.out,
    sFin_v120, sTake3_v113, sLin3_v109, sAct2_v90, sTake2_v82, sLin2_v78, sAct1_v59, sTakeP_v46, sLinP_v42, sTakeB_v23, sLinB_v19, sLs_v0,
    sFin_keep, sTake3_keep, sLin3b_keep, sLin3a_keep, sAct2_keep, sTake2_keep, sLin2_keep, sAct1_keep, sCatB_keep, sCatA_keep, sTakeP_keep,
    sLinP_keep, sTakeB_keep, sLinB_keep, sLs_keep]

/-- No stretch writes an argument buffer. -/
theorem arg_eq (V : Valuation τ sig (Elt F)) (r : Ref sig .tc)
    (h : r ∉ sLs_W ∧ r ∉ sLinB_W ∧ r ∉ sTakeB_W ∧ r ∉ sLinP_W ∧ r ∉ sTakeP_W ∧ r ∉ sCatA_W ∧ r ∉ sCatB_W ∧ r ∉ sAct1_W ∧ r ∉ sLin2_W
      ∧ r ∉ sTake2_W ∧ r ∉ sAct2_W ∧ r ∉ sLin3a_W ∧ r ∉ sLin3b_W ∧ r ∉ sTake3_W ∧ r ∉ sFin_W) :
    after ops V (Proc.devRef .tc r) = V (Proc.devRef .tc r) := by
  obtain ⟨h0, h1, h2, h3, h4, h5, h6, h7, h8, h9, h10, h11, h12, h13, h14⟩ := h
  simp only [ops, ops0, ops1, ops2, after_append]
  rw [sFin_keep _ r h14, sTake3_keep _ r h13, sLin3b_keep _ r h12, sLin3a_keep _ r h11, sAct2_keep _ r h10, sTake2_keep _ r h9,
    sLin2_keep _ r h8, sAct1_keep _ r h7, sCatB_keep _ r h6, sCatA_keep _ r h5, sTakeP_keep _ r h4, sLinP_keep _ r h3, sTakeB_keep _ r h2,
    sLinB_keep _ r h1, sLs_keep _ r h0]

theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of @main on the TensorCores
    terminates, and every final state has each TensorCore buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Line

variable (m : (ℓ : Loc nD τ sig) → Buf (Elt Ideal) ℓ)

/-- Core c's argument arrays at their literal types. -/
abbrev arg0 (c : Dev nD) : FVec Ideal S131072x97 .f32 := m ((c.tc : Thread nD τ).loc main_arg0)
abbrev arg1 (c : Dev nD) : FVec Ideal S131072x97 .f32 := m ((c.tc : Thread nD τ).loc main_arg1)
abbrev arg2 (c : Dev nD) : FVec Ideal S48x97 .f32 := m ((c.tc : Thread nD τ).loc main_arg2)
abbrev arg3 (c : Dev nD) : FVec Ideal S48 .f32 := m ((c.tc : Thread nD τ).loc main_arg3)
abbrev arg4 (c : Dev nD) : FVec Ideal S48x97 .f32 := m ((c.tc : Thread nD τ).loc main_arg4)
abbrev arg5 (c : Dev nD) : FVec Ideal S48 .f32 := m ((c.tc : Thread nD τ).loc main_arg5)
abbrev arg6 (c : Dev nD) : FVec Ideal S384x32 .f32 := m ((c.tc : Thread nD τ).loc main_arg6)
abbrev arg7 (c : Dev nD) : FVec Ideal S384 .f32 := m ((c.tc : Thread nD τ).loc main_arg7)
abbrev arg8 (c : Dev nD) : FVec Ideal S6x64 .f32 := m ((c.tc : Thread nD τ).loc main_arg8)
abbrev arg9 (c : Dev nD) : FVec Ideal S6 .f32 := m ((c.tc : Thread nD τ).loc main_arg9)
abbrev arg10 (c : Dev nD) : IVec S131072 32 := m ((c.tc : Thread nD τ).loc main_arg10)

variable (ρ : Dev nD → PrngReg)

/-- Every weakly fair execution of the reference terminates with its result array at the stages' composition of the
    argument arrays, and the argument arrays unchanged. -/
theorem run :
    θ_run (defs (F := Ideal)) (onTc (τ := τ) (main (F := Ideal))) ⟨m, fun _ => 0, ρ⟩ fun r => ∀ c : Dev nD,
      r.2.mem ((c.tc : Thread nD τ).loc main_v120)
          = Stage.out (F := Ideal) (arg0 m c) (arg1 m c) (arg2 m c) (arg3 m c) (arg4 m c) (arg5 m c) (arg6 m c) (arg7 m c) (arg8 m c) (arg9 m c) (arg10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v120).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide))⟩)
    (run_main m ρ)

end Cert.ReferenceIdeal.RRun

end
-- ==== Proof.RefReadA.lean ====
/-
  The reference's rounding and affine stages read at an index: a weight in straight-through form is its rounded value
  when the weight is a real number; an affine map is the sum over the contracted axis plus the bias.
-/
import proofs.«419896_j55293408969355_3_alg».proof.Proof.Gen.ReferenceIdeal
import proofs.«419896_j55293408969355_3_alg».proof.Proof.RefStages
import proofs.«419896_j55293408969355_3_alg».proof.Proof.Spec
import Idealize.ShloMosaic.PureOps.Ideal.Laws
import Idealize.ShloMosaic.Lib.Pipeline.Value
import Idealize.ShloMosaic.Lib.ValueLayout
import Idealize.ShloMosaic.Lib.IdealHost
import Idealize.ShloMosaic.Lib.StackMember
import proofs.«419896_j55293408969355_3_alg».proof.Proof.SpecLaws

noncomputable section

namespace Cert.ReferenceIdeal.Read

open Cert.ReferenceIdeal Cert.Spec Idealize.ShloMosaic Idealize.ShloMosaic.ValueIdx Idealize.ShloMosaic.TcCoe Idealize.SL.Sem
open scoped BigOperators

/-! ## The straight-through rounding at an element -/

/-- w + (round(w · s) / s − w), with the scale s a scalar laid over the whole shape, read at an element that is a real
    number: the element rounded to the grid of step 1/s. -/
private theorem ste_round {S : Shape} (hb : S_.BroadcastsInDim S (![] : Fin 0 → Fin S.rank)) (c : BitVec 32)
    (w : FVec Ideal S .f32) (i : S.Idx) (h : IsReal (w i)) :
    addf w (subf (Host.divf (Host.roundeven (mulf w (broadcastInDim S ![] hb (constant (F := Ideal) S_ .f32 c))))
      (broadcastInDim S ![] hb (constant (F := Ideal) S_ .f32 c))) w) i = qr (lit c) (w i) := by
  rw [addf_apply, subf_apply, hostDivf_apply]
  show w i + (Ideal.div (Ideal.liftRound Ideal.roundHalfEven (mulf w _ i)) _ - w i) = _
  rw [mulf_apply, broadcastInDim_scalar_apply, constant_apply]
  exact ste h _

theorem q48x97_apply (w : FVec Ideal S48x97 .f32) (j : Fin 48) (k : Fin 97) (h : IsReal (w (ix2 j k))) :
    Stage.q48x97 (F := Ideal) w (ix2 j k) = qr (lit 0x42800000#32) (w (ix2 j k)) :=
  ste_round _ _ w _ h
theorem q48_apply (w : FVec Ideal S48 .f32) (j : Fin 48) (h : IsReal (w (ix1 j))) :
    Stage.q48 (F := Ideal) w (ix1 j) = qr (lit 0x45FE0000#32) (w (ix1 j)) :=
  ste_round _ _ w _ h
theorem q384x32_apply (w : FVec Ideal S384x32 .f32) (j : Fin 384) (i : Fin 32) (h : IsReal (w (ix2 j i))) :
    Stage.q384x32 (F := Ideal) w (ix2 j i) = qr (lit 0x42800000#32) (w (ix2 j i)) :=
  ste_round _ _ w _ h
theorem q384_apply (w : FVec Ideal S384 .f32) (j : Fin 384) (h : IsReal (w (ix1 j))) :
    Stage.q384 (F := Ideal) w (ix1 j) = qr (lit 0x45FE0000#32) (w (ix1 j)) :=
  ste_round _ _ w _ h
theorem q6x64_apply (w : FVec Ideal S6x64 .f32) (c : Fin 6) (k : Fin 64) (h : IsReal (w (ix2 c k))) :
    Stage.q6x64 (F := Ideal) w (ix2 c k) = qr (lit 0x42972E5D#32) (w (ix2 c k)) :=
  ste_round _ _ w _ h
theorem q6_apply (w : FVec Ideal S6 .f32) (c : Fin 6) (h : IsReal (w (ix1 c))) :
    Stage.q6 (F := Ideal) w (ix1 c) = qr (lit 0x46160000#32) (w (ix1 c)) :=
  ste_round _ _ w _ h

/-! ## An affine map at an index -/

/-- A vector of n entries made a one-row matrix, read at (0, t), is the vector at t. -/
private theorem row_of_vec_apply {α : Type} {n : Nat} (hb : (⟨1, ![n]⟩ : Shape).BroadcastsInDim ⟨2, ![1, n]⟩ ![1])
    (v : (⟨1, ![n]⟩ : Shape).Idx → α) (t : Fin n) :
    broadcastInDim ⟨2, ![1, n]⟩ ![1] hb v (ix2 (0 : Fin 1) t) = v (ix1 t) := by
  refine broadcastInDim_apply ![1] hb v (ix2 (0 : Fin 1) t) (ix1 t) ?_
  intro a
  match a with
  | ⟨0, _⟩ =>
    show t.val = if n = 1 then 0 else t.val
    split
    · have := t.isLt; omega
    · rfl

/-- x · wᵀ + b at (r, j): the contracted axis is axis 1 of x and axis 0 of wᵀ, so the product is the sum over c of
    x (r, c) · w (j, c); the bias is made a one-row matrix and laid down every row. -/
private theorem affine_apply {m k n : Nat}
    (wd : DotDims.WF ⟨2, ![m, k]⟩ ⟨2, ![k, n]⟩ ⟨2, ![m, n]⟩ [1] [0] [0] [1] [] [])
    (ht : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![m, n]⟩ ![0, 1])
    (x : FVec Ideal ⟨2, ![m, k]⟩ .f32) (w : FVec Ideal ⟨2, ![n, k]⟩ .f32) (bq : FVec Ideal ⟨1, ![n]⟩ .f32)
    (r : Fin m) (j : Fin n) :
    addf (Host.dotGeneral (F := Ideal) (⟨[1], [0], [0], [1], [], [], wd⟩ : DotDims _ _ _) none x
        (transpose ⟨2, ![k, n]⟩ [1, 0] w ht))
      (broadcastInDim ⟨2, ![m, n]⟩ ![0, 1] hb2 (broadcastInDim ⟨2, ![1, n]⟩ ![1] hb1 bq)) (ix2 r j)
      = (∑ c : Fin k, x (ix2 r c) * w (ix2 j c)) + bq (ix1 j) := by
  rw [addf_apply, broadcastInDim_oneRow_apply, row_of_vec_apply]
  congr 1
  refine (StackMember.dotGeneral_plain_apply none x (transpose ⟨2, ![k, n]⟩ [1, 0] w ht) r j).trans ?_
  exact Finset.sum_congr rfl fun c _ => by rw [transpose_ix2_apply]

theorem lin48_apply (x : FVec Ideal S131072x97 .f32) (wq : FVec Ideal S48x97 .f32) (bq : FVec Ideal S48 .f32) (b : Fin 131072) (j : Fin 48) :
    Stage.lin48 (F := Ideal) x wq bq (ix2 b j) = (∑ k : Fin 97, x (ix2 b k) * wq (ix2 j k)) + bq (ix1 j) :=
  affine_apply _ _ _ _ x wq bq b j
theorem lin384_apply (x : FVec Ideal S131072x32 .f32) (wq : FVec Ideal S384x32 .f32) (bq : FVec Ideal S384 .f32) (b : Fin 131072) (j : Fin 384) :
    Stage.lin384 (F := Ideal) x wq bq (ix2 b j) = (∑ i : Fin 32, x (ix2 b i) * wq (ix2 j i)) + bq (ix1 j) :=
  affine_apply _ _ _ _ x wq bq b j
theorem lin6_apply (x : FVec Ideal S131072x64 .f32) (wq : FVec Ideal S6x64 .f32) (bq : FVec Ideal S6 .f32) (b : Fin 131072) (c : Fin 6) :
    Stage.lin6 (F := Ideal) x wq bq (ix2 b c) = (∑ k : Fin 64, x (ix2 b k) * wq (ix2 c k)) + bq (ix1 c) :=
  affine_apply _ _ _ _ x wq bq b c

end Cert.ReferenceIdeal.Read

end
-- ==== Proof.RefReadB.lean ====
/-
  The reference's bucket index and selection read at an index: for a ply below 60 the printed floor division is
  ⌊ply / 10⌋, a bucket index in [0, 5] is neither wrapped nor refused, and the gather picks that bucket's entries.
-/
import proofs.«419896_j55293408969355_3_alg».proof.Proof.Gen.ReferenceIdeal
import proofs.«419896_j55293408969355_3_alg».proof.Proof.RefStages
import proofs.«419896_j55293408969355_3_alg».proof.Proof.Spec
import Idealize.ShloMosaic.PureOps.Ideal.Laws
import Idealize.ShloMosaic.Lib.Pipeline.Value
import Idealize.ShloMosaic.Lib.ValueLayout

noncomputable section

namespace Cert.ReferenceIdeal.Read

open Cert.ReferenceIdeal Cert.Spec Idealize.ShloMosaic Idealize.ShloMosaic.ValueIdx Idealize.ShloMosaic.TcCoe Idealize.SL.Sem
open scoped BigOperators

open Cert.ReferenceIdeal.Facts₀ Cert.ReferenceIdeal.Facts

/-! ## Two host operations read at an index, at any extents -/

section General
variable {α : Type}

/-- A left fold by `and` from 1 over one-bit words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a List.mem_cons_self]
    exact foldl_andi_ones f l fun n hn => hl n (List.mem_cons_of_mem _ hn)

/-- The and-reduction of a `[K, 1, 1]` array of bits along its last axis, from 1: it is 1 at `(k, 0)` when the one
    element `(k, 0, 0)` reduced there is 1. -/
private theorem reduce_andi_last {K : Nat} (x : (⟨3, ![K, 1, 1]⟩ : Shape).Idx → BitVec 1) (init : (⟨0, ![]⟩ : Shape).Idx → BitVec 1)
    (h : (⟨3, ![K, 1, 1]⟩ : Shape).ReducesTo [2] ⟨2, ![K, 1]⟩) (hu : 0 < (⟨0, ![]⟩ : Shape).numel) (k : Fin K)
    (hinit : ∀ i, init i = 1#1) (hx : x (ix3 k 0 0) = 1#1) : Host.reduce IntOp.andi x init h hu (ix2 k 0) = 1#1 := by
  rw [Host.reduce_eq_foldl, hinit]
  refine foldl_andi_ones _ _ fun i hi => ?_
  have hd : h.drop i = ix2 k 0 := of_decide_eq_true (List.mem_filter.1 hi).2
  have h0 : (h.drop i 0).val = k.val := by rw [hd]; rfl
  have e : i = ix3 k 0 0 := by
    funext a
    refine Fin.ext ?_
    match a with
    | ⟨0, _⟩ => exact h0
    | ⟨1, _⟩ => exact Nat.lt_one_iff.1 (i 1).isLt
    | ⟨2, _⟩ => exact Nat.lt_one_iff.1 (i 2).isLt
  rw [e]; exact hx

/-- A gather with one batching axis, one collapsed (indexed) axis and one kept axis: operand `[N, C, D]`, one start word
    per batch row, result `[N, 1, D]`. Result element `(b, 0, i)` is the operand at `(b, c, i)`, `c` the row's start
    word read signed and clamped into `[0, C − 1]`. -/
private theorem gather_row {N C D w : Nat} (d : GatherDims ⟨3, ![N, C, D]⟩ ⟨3, ![N, 1, 1]⟩ ⟨3, ![N, 1, D]⟩)
    (hod : d.offsetDims = [2]) (hcoll : d.collapsedSliceDims = [1]) (hob : d.operandBatchingDims = [0])
    (hsb : d.startIndicesBatchingDims = [0]) (hsim : d.startIndexMap = [1]) (hivd : d.indexVectorDim = 2) (hC : 0 < C)
    (x : (⟨3, ![N, C, D]⟩ : Shape).Idx → α) (idx : IVec ⟨3, ![N, 1, 1]⟩ w) (b : Fin N) (u : Fin 1) (i : Fin D) :
    Host.gather d x idx (ix3 b u i) = x (ix3 b (⟨min (idx (ix3 b 0 0)).toInt.toNat (C - 1), by omega⟩ : Fin C) i) := by
  have hsl1 : d.sliceSizes 1 = 1 := d.slice_collapsed 1 (by rw [hcoll]; exact List.mem_cons_self)
  have n10 : (1 : Fin 3) ∉ [(0 : Fin 3)] := by decide
  have n20 : (2 : Fin 3) ∉ [(0 : Fin 3)] := by decide
  have n21 : (2 : Fin 3) ∉ [(1 : Fin 3)] := by decide
  obtain ⟨od, cd, ob, sb, sm, iv, ss, wf⟩ := d
  dsimp only at hod hcoll hob hsb hsim hivd hsl1
  subst hod hcoll hob hsb hsim hivd
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.start_batching _ _ _ _ List.mem_cons_self,
      GatherDims.offCoord_eq_zero _ _ _ (fun h => ((GatherDims.mem_sKept _ _).mp h).2 List.mem_cons_self)]
    simp only [Nat.add_zero, Nat.zero_add]
    rfl
  | ⟨1, _⟩ =>
    show GatherDims.start _ _ idx 1 + GatherDims.batchCoord _ _ 1 + GatherDims.offCoord _ _ 1 = _
    rw [GatherDims.batchCoord_eq_zero _ _ _ n10,
      GatherDims.offCoord_eq_zero _ _ _ (fun h => ((GatherDims.mem_sKept _ _).mp h).1 List.mem_cons_self)]
    simp only [Nat.add_zero]
    unfold GatherDims.start
    rw [dif_pos List.mem_cons_self]
    show min (idx _).toInt.toNat (C - ss 1) = min (idx (ix3 b 0 0)).toInt.toNat (C - 1)
    rw [hsl1]
    refine congrArg (fun v => min (idx v).toInt.toNat (C - 1)) ?_
    funext q
    refine Fin.ext ?_
    match q with
    | ⟨0, _⟩ => rfl
    | ⟨1, _⟩ => exact Nat.lt_one_iff.1 (Fin.isLt _)
    | ⟨2, _⟩ => rfl
  | ⟨2, _⟩ =>
    show GatherDims.start _ _ idx 2 + GatherDims.batchCoord _ _ 2 + GatherDims.offCoord _ _ 2 = i.val
    rw [GatherDims.batchCoord_eq_zero _ _ _ n20]
    unfold GatherDims.start
    rw [dif_neg n21]
    simp only [Nat.add_zero, Nat.zero_add]
    rfl

end General

/-! ## The floor division by ten of one ply word -/

/-- The sign word of a 32-bit word: 0, −1 or 1. -/
private def sgn (x : BitVec 32) : BitVec 32 := if x = 0 then 0 else if x.msb then -1 else 1

/-- The printed floor division of one word by ten: the truncated quotient, less one where the signs differ and the
    remainder is not zero. -/
private def floorDiv10 (x : BitVec 32) : BitVec 32 :=
  Scalar.select
    (IntOp.andi (IntOp.cmpi .ne (sgn x) (sgn 10#32)) (IntOp.cmpi .ne (IntOp.remsi .host x 10#32) 0#32))
    (IntOp.subi (IntOp.divsi .host x 10#32) 1#32)
    (IntOp.divsi .host x 10#32)

/-- On the sixty words 0 … 59 it is the quotient of the naturals. -/
private theorem floorDiv10_lt60 : ∀ n, n < 60 → floorDiv10 (BitVec.ofNat 32 n) = BitVec.ofNat 32 (n / 10) := by
  decide +kernel

private theorem lsOf_eq (p : IVec S131072 32) (b : Fin 131072) : Stage.lsOf p (ix1 b) = floorDiv10 (p (ix1 b)) := rfl

theorem lsOf_apply (p : IVec S131072 32) (b : Fin 131072) (h : (p (ix1 b)).toNat < 60) :
    Stage.lsOf p (ix1 b) = BitVec.ofNat 32 ((p (ix1 b)).toNat / 10) := by
  rw [lsOf_eq]
  have := floorDiv10_lt60 _ h
  rwa [BitVec.ofNat_toNat, BitVec.setWidth_eq] at this

/-! ## The bucket word as the gather takes it, and its range test -/

/-- A negative word moved up by 6, any other left alone. -/
private def wrap6 (w : BitVec 32) : BitVec 32 := Scalar.select (IntOp.cmpi .slt w 0#32) (IntOp.addi w 6#32) w

private theorem wrap6_small : ∀ c : Fin 6, wrap6 (BitVec.ofNat 32 c.val) = BitVec.ofNat 32 c.val := by decide

private theorem inRange_small : ∀ c : Fin 6,
    IntOp.andi (IntOp.cmpi .sge (BitVec.ofNat 32 c.val) 0#32) (IntOp.cmpi .sle (BitVec.ofNat 32 c.val) 5#32) = 1#1 := by
  decide

private theorem clamp_small : ∀ c : Fin 6, min (BitVec.ofNat 32 c.val).toInt.toNat (6 - 1) = c.val := by decide

/-- The bucket vector spread over the two unit axes reads row `b`'s word. -/
private theorem bcast_row (l : IVec S131072 32) (b : Fin 131072) (u v : Fin 1) :
    broadcastInDim S131072x1x1 ![0] bcast_S131072_S131072x1x1_0 l (ix3 b u v) = l (ix1 b) :=
  broadcastInDim_apply _ _ l _ _ fun a => match a with | ⟨0, _⟩ => rfl

private theorem idx4_apply (l : IVec S131072 32) (b : Fin 131072) (u v : Fin 1) :
    Stage.idx4 l (ix3 b u v) = wrap6 (l (ix1 b)) := by
  show Scalar.select
      (IntOp.cmpi .slt (broadcastInDim S131072x1x1 ![0] bcast_S131072_S131072x1x1_0 l (ix3 b u v)) 0#32)
      (IntOp.addi (broadcastInDim S131072x1x1 ![0] bcast_S131072_S131072x1x1_0 l (ix3 b u v)) 6#32)
      (broadcastInDim S131072x1x1 ![0] bcast_S131072_S131072x1x1_0 l (ix3 b u v)) = _
  rw [bcast_row]; rfl

/-- A bucket word in [0, 5] is taken as it is. -/
private theorem idx4_small (l : IVec S131072 32) (b : Fin 131072) (c : Fin 6) (hl : l (ix1 b) = BitVec.ofNat 32 c.val) :
    Stage.idx4 l (ix3 b 0 0) = BitVec.ofNat 32 c.val := by
  rw [idx4_apply, hl, wrap6_small]

/-- And it passes the range test. -/
private theorem inb_small (l : IVec S131072 32) (b : Fin 131072) (c : Fin 6) (hl : l (ix1 b) = BitVec.ofNat 32 c.val) :
    Stage.inb (Stage.idx4 l) (ix2 b 0) = 1#1 := by
  unfold Stage.inb
  refine reduce_andi_last _ _ _ _ b (fun _ => rfl) ?_
  show IntOp.andi (IntOp.cmpi .sge (Stage.idx4 l (ix3 b 0 0)) 0#32) (IntOp.cmpi .sle (Stage.idx4 l (ix3 b 0 0)) 5#32) = 1#1
  rw [idx4_small l b c hl]
  exact inRange_small c

/-! ## The selection of one bucket per sample -/

section Take
variable {α : Type}

/-- The selection read at `(b, i)`, at any width `D` of a bucket: the last reshape drops the unit axis, the range test
    passes so the gathered branch is taken, the gather reads bucket `c` of row `b`, and the first reshape is row-major,
    `(b, c, i) ↔ (b, D·c + i)`. -/
private theorem take_core {D M : Nat} (hM : M = 6 * D)
    (y : (⟨2, ![131072, M]⟩ : Shape).Idx → α) (l : IVec S131072 32)
    (g : GatherDims ⟨3, ![131072, 6, D]⟩ S131072x1x1 ⟨3, ![131072, 1, D]⟩)
    (hod : g.offsetDims = [2]) (hcoll : g.collapsedSliceDims = [1]) (hob : g.operandBatchingDims = [0])
    (hsb : g.startIndicesBatchingDims = [0]) (hsim : g.startIndexMap = [1]) (hivd : g.indexVectorDim = 2)
    (sc1 : (⟨2, ![131072, M]⟩ : Shape).ShapeCasts ⟨3, ![131072, 6, D]⟩)
    (sc2 : (⟨3, ![131072, 1, D]⟩ : Shape).ShapeCasts ⟨2, ![131072, D]⟩)
    (bc : S131072x1.BroadcastsInDim ⟨3, ![131072, 1, D]⟩ (![0, 1] : Fin 2 → Fin 3))
    (fill : (⟨3, ![131072, 1, D]⟩ : Shape).Idx → α)
    (b : Fin 131072) (c : Fin 6) (i : Fin D) (hl : l (ix1 b) = BitVec.ofNat 32 c.val)
    (hlt : D * c.val + i.val < M) :
    shapeCast ⟨2, ![131072, D]⟩
        (select (broadcastInDim ⟨3, ![131072, 1, D]⟩ ![0, 1] bc (Stage.inb (Stage.idx4 l)))
          (Host.gather g (shapeCast ⟨3, ![131072, 6, D]⟩ y sc1) (Stage.idx4 l)) fill) sc2 (ix2 b i)
      = y (ix2 b (⟨D * c.val + i.val, hlt⟩ : Fin M)) := by
  -- the last reshape drops the unit axis
  refine (shapeCast_apply _ sc2 (ix2 b i) (ix3 b 0 i) ?_).trans ?_
  · rw [Shape.rowMajor_val_three, Shape.rowMajor_val_two]
    show (b.val * 1 + 0) * D + i.val = b.val * D + i.val
    rw [Nat.mul_one, Nat.add_zero]
  -- the range test passes, so the gathered branch is taken
  have hin : broadcastInDim ⟨3, ![131072, 1, D]⟩ ![0, 1] bc (Stage.inb (Stage.idx4 l)) (ix3 b 0 i) = 1#1 := by
    refine (broadcastInDim_apply _ bc _ (ix3 b 0 i) (ix2 b 0) fun a => ?_).trans (inb_small l b c hl)
    match a with
    | ⟨0, _⟩ => rfl
    | ⟨1, _⟩ => rfl
  show Scalar.select (broadcastInDim ⟨3, ![131072, 1, D]⟩ ![0, 1] bc (Stage.inb (Stage.idx4 l)) (ix3 b 0 i))
      (Host.gather g (shapeCast ⟨3, ![131072, 6, D]⟩ y sc1) (Stage.idx4 l) (ix3 b 0 i)) (fill (ix3 b 0 i)) = _
  rw [hin, select_one]
  -- the gather reads bucket c of row b
  rw [gather_row g hod hcoll hob hsb hsim hivd (by decide) _ _ b 0 i]
  -- the first reshape is row-major
  refine shapeCast_apply _ sc1 _ _ ?_
  rw [Shape.rowMajor_val_three, Shape.rowMajor_val_two]
  show b.val * M + (D * c.val + i.val)
    = (b.val * 6 + min (Stage.idx4 l (ix3 b 0 0)).toInt.toNat (6 - 1)) * D + i.val
  rw [idx4_small l b c hl, clamp_small c, hM]
  ring

end Take

theorem take8_apply (y : FVec Ideal S131072x48 .f32) (l : IVec S131072 32) (b : Fin 131072) (c : Fin 6) (i : Fin 8)
    (hl : l (ix1 b) = BitVec.ofNat 32 c.val) :
    Stage.take8 (F := Ideal) y l (ix2 b i) = y (ix2 b (⟨8 * c.val + i.val, by omega⟩ : Fin 48)) :=
  take_core (D := 8) (M := 48) rfl y l _ rfl rfl rfl rfl rfl rfl _ _ _ _ b c i hl _

theorem take64_apply (y : FVec Ideal S131072x384 .f32) (l : IVec S131072 32) (b : Fin 131072) (c : Fin 6) (k : Fin 64)
    (hl : l (ix1 b) = BitVec.ofNat 32 c.val) :
    Stage.take64 (F := Ideal) y l (ix2 b k) = y (ix2 b (⟨64 * c.val + k.val, by omega⟩ : Fin 384)) :=
  take_core (D := 64) (M := 384) rfl y l _ rfl rfl rfl rfl rfl rfl _ _ _ _ b c k hl _

theorem take1_apply (y : FVec Ideal S131072x6 .f32) (l : IVec S131072 32) (b : Fin 131072) (c : Fin 6)
    (hl : l (ix1 b) = BitVec.ofNat 32 c.val) :
    Stage.take1 (F := Ideal) y l (ix2 b 0) = y (ix2 b c) :=
  (take_core (D := 1) (M := 6) rfl y l _ rfl rfl rfl rfl rfl rfl _ _ _ _ b c 0 hl (by have := c.isLt; omega)).trans
    (congrArg y (congrArg (ix2 b) (Fin.ext (by show 1 * c.val + 0 = c.val; omega))))

end Cert.ReferenceIdeal.Read

end
-- ==== Proof.RefRead.lean ====
/-
  The reference's activations read at an index, and the whole reference as the specification: with every float input a
  real number and every ply below 60, the stages' composition is the specification's array.

  An activation stage is pointwise but for its two concatenations along the second axis: column i of the sixteen is
  column i of the first eight or column i − 8 of the second eight, and column i of the thirty-two is the scaled square
  of column i of the sixteen or column i − 16 itself. The clipped value c is a real number, so the straight-through
  form c + (⌊c · s⌋ / s − c) is ⌊c · s⌋ / s. The whole program is then read layer by layer at sample b with bucket
  ⌊ply / 10⌋: the selected outputs of the two first-layer maps, the thirty-two activations, the selected sixty-four
  outputs of the second layer, their activations, and the selected output of the last map, which is a real number, so
  its straight-through flooring is the flooring.
-/
import proofs.«419896_j55293408969355_3_alg».proof.Proof.Gen.ReferenceIdeal
import proofs.«419896_j55293408969355_3_alg».proof.Proof.RefStages
import proofs.«419896_j55293408969355_3_alg».proof.Proof.Spec
import Idealize.ShloMosaic.PureOps.Ideal.Laws
import Idealize.ShloMosaic.Lib.Pipeline.Value
import Idealize.ShloMosaic.Lib.ValueLayout
import proofs.«419896_j55293408969355_3_alg».proof.Proof.SpecLaws
import proofs.«419896_j55293408969355_3_alg».proof.Proof.RefReadA
import proofs.«419896_j55293408969355_3_alg».proof.Proof.RefReadB

noncomputable section

namespace Cert.ReferenceIdeal.Read

open Cert.ReferenceIdeal Cert.Spec Idealize.ShloMosaic Idealize.ShloMosaic.ValueIdx Idealize.ShloMosaic.TcCoe Idealize.SL.Sem
open scoped BigOperators

/-! ## The two concatenations -/

/-- Column i of the sixteen values: column i of the first eight when i < 8, else column i − 8 of the second eight. -/
private theorem cat16_apply (tb tpa : FVec Ideal S131072x8 .f32) (b : Fin 131072) (i : Fin 16) :
    Stage.cat16 (F := Ideal) tb tpa (ix2 b i)
      = if h : i.val < 8 then tb (ix2 b (⟨i.val, h⟩ : Fin 8)) else tpa (ix2 b (⟨i.val - 8, by omega⟩ : Fin 8)) := by
  unfold Stage.cat16
  split
  · next h =>
    exact concatenate_pair_apply_left 1 tb tpa _ (ix2 b i) rfl (ix2 b (⟨i.val, h⟩ : Fin 8)) (fun ax => by
      match ax with
      | ⟨0, _⟩ => rfl
      | ⟨1, _⟩ => rfl)
  · next h =>
    exact concatenate_pair_apply_right 1 tb tpa _ (ix2 b i) rfl rfl (ix2 b (⟨i.val - 8, by omega⟩ : Fin 8))
      (fun ax hax => by
        match ax with
        | ⟨0, _⟩ => rfl
        | ⟨1, _⟩ => exact absurd rfl hax)
      (by show (i.val - 8) + 8 = i.val; omega)

/-- Column i of the thirty-two values: the square of column i of the sixteen times the scale when i < 16, else column
    i − 16 of the sixteen. -/
private theorem cat32_apply (v : FVec Ideal S131072x16 .f32) (b : Fin 131072) (i : Fin 32) :
    Stage.cat32 (F := Ideal) v (ix2 b i) = l1cat (fun i' : Fin 16 => v (ix2 b i')) i := by
  unfold Stage.cat32 l1cat
  split
  · next h =>
    refine (concatenate_pair_apply_left (s₁ := S131072x16) (s₂ := S131072x16) 1 _ _ _ (ix2 b i) rfl
      (ix2 b (⟨i.val, h⟩ : Fin 16)) (fun ax => by
        match ax with
        | ⟨0, _⟩ => rfl
        | ⟨1, _⟩ => rfl)).trans ?_
    rfl
  · next h =>
    exact concatenate_pair_apply_right (s₁ := S131072x16) (s₂ := S131072x16) 1 _ _ _ (ix2 b i) rfl rfl
      (ix2 b (⟨i.val - 16, by omega⟩ : Fin 16))
      (fun ax hax => by
        match ax with
        | ⟨0, _⟩ => rfl
        | ⟨1, _⟩ => exact absurd rfl hax)
      (by show (i.val - 16) + 16 = i.val; omega)

/-! ## The activations and the last flooring

Each is pointwise past the concatenations: at an index it is c + (⌊c · s⌋ / s − c) with c the clipped value (or the
value itself for the last flooring), and c is a real number. -/

theorem act1_apply (tb tpa : FVec Ideal S131072x8 .f32) (b : Fin 131072) (i : Fin 32) :
    Stage.act1 (F := Ideal) tb tpa (ix2 b i)
      = act (l1cat (fun i' : Fin 16 => if h : i'.val < 8 then tb (ix2 b (⟨i'.val, h⟩ : Fin 8)) else tpa (ix2 b (⟨i'.val - 8, by omega⟩ : Fin 8))) i) := by
  have e : Stage.cat32 (F := Ideal) (Stage.cat16 tb tpa) (ix2 b i)
      = l1cat (fun i' : Fin 16 => if h : i'.val < 8 then tb (ix2 b (⟨i'.val, h⟩ : Fin 8)) else tpa (ix2 b (⟨i'.val - 8, by omega⟩ : Fin 8))) i := by
    rw [cat32_apply]
    congr 1
    funext i'
    exact cat16_apply tb tpa b i'
  show clip01 (Stage.cat32 (F := Ideal) (Stage.cat16 tb tpa) (ix2 b i))
      + (qf (lit 0x42FE0000#32) (clip01 (Stage.cat32 (F := Ideal) (Stage.cat16 tb tpa) (ix2 b i)))
        - clip01 (Stage.cat32 (F := Ideal) (Stage.cat16 tb tpa) (ix2 b i))) = _
  rw [e]
  exact ste (isReal_clip01 _) _

theorem act2_apply (t : FVec Ideal S131072x64 .f32) (b : Fin 131072) (k : Fin 64) :
    Stage.act2 (F := Ideal) t (ix2 b k) = act (t (ix2 b k)) := by
  show clip01 (t (ix2 b k)) + (qf (lit 0x42FE0000#32) (clip01 (t (ix2 b k))) - clip01 (t (ix2 b k))) = _
  exact ste (isReal_clip01 _) _

theorem fin_apply (t : FVec Ideal S131072x1 .f32) (b : Fin 131072) (h : IsReal (t (ix2 b 0))) :
    Stage.fin (F := Ideal) t (ix2 b 0) = qf (lit 0x44160000#32) (t (ix2 b 0)) := by
  show t (ix2 b 0) + (qf (lit 0x44160000#32) (t (ix2 b 0)) - t (ix2 b 0)) = _
  exact ste h _

/-! ## One layer at a sample: an affine map over rounded weights, then the sample's bucket -/

/-- One bucket's eight outputs of a first-layer affine map, weight and bias rounded to their grids. -/
private theorem layer1 (x : FVec Ideal S131072x97 .f32) (w : FVec Ideal S48x97 .f32) (bb : FVec Ideal S48 .f32) (l : IVec S131072 32)
    (hw : ∀ i, IsReal (w i)) (hb : ∀ i, IsReal (bb i)) (b : Fin 131072) (c : Fin 6) (i : Fin 8)
    (hl : l (ix1 b) = BitVec.ofNat 32 c.val) :
    Stage.take8 (F := Ideal) (Stage.lin48 x (Stage.q48x97 w) (Stage.q48 bb)) l (ix2 b i)
      = sel8 c (z1 (fun k => x (ix2 b k)) (fun j k => w (ix2 j k)) (fun j => bb (ix1 j))) i := by
  rw [take8_apply _ l b c i hl, lin48_apply]
  unfold sel8 z1
  rw [q48_apply _ _ (hb _)]
  congr 1
  exact Finset.sum_congr rfl fun k _ => by rw [q48x97_apply _ _ _ (hw _)]

/-- One bucket's sixty-four outputs of the second-layer affine map. -/
private theorem layer2 (x : FVec Ideal S131072x32 .f32) (w : FVec Ideal S384x32 .f32) (bb : FVec Ideal S384 .f32) (l : IVec S131072 32)
    (hw : ∀ i, IsReal (w i)) (hb : ∀ i, IsReal (bb i)) (b : Fin 131072) (c : Fin 6) (k : Fin 64)
    (hl : l (ix1 b) = BitVec.ofNat 32 c.val) :
    Stage.take64 (F := Ideal) (Stage.lin384 x (Stage.q384x32 w) (Stage.q384 bb)) l (ix2 b k)
      = sel64 c (z2 (fun i => x (ix2 b i)) (fun j i => w (ix2 j i)) (fun j => bb (ix1 j))) k := by
  rw [take64_apply _ l b c k hl, lin384_apply]
  unfold sel64 z2
  rw [q384_apply _ _ (hb _)]
  congr 1
  exact Finset.sum_congr rfl fun i _ => by rw [q384x32_apply _ _ _ (hw _)]

/-- The selected bucket's output of the last affine map. -/
private theorem layer3 (x : FVec Ideal S131072x64 .f32) (w : FVec Ideal S6x64 .f32) (bb : FVec Ideal S6 .f32) (l : IVec S131072 32)
    (hw : ∀ i, IsReal (w i)) (hb : ∀ i, IsReal (bb i)) (b : Fin 131072) (c : Fin 6)
    (hl : l (ix1 b) = BitVec.ofNat 32 c.val) :
    Stage.take1 (F := Ideal) (Stage.lin6 x (Stage.q6x64 w) (Stage.q6 bb)) l (ix2 b 0)
      = outv c (fun k => x (ix2 b k)) (fun c' k => w (ix2 c' k)) (fun c' => bb (ix1 c')) := by
  rw [take1_apply _ l b c hl, lin6_apply]
  unfold outv
  rw [q6_apply _ _ (hb _)]
  congr 1
  exact Finset.sum_congr rfl fun k _ => by rw [q6x64_apply _ _ _ (hw _)]

/-! ## The whole program -/

/-- At sample b the program's result is the specification's row: the bucket index is ⌊ply / 10⌋, which for a ply below
    60 is the specification's bucket; the layers are read from the output inwards, each under the next one's sum. -/
theorem out_eq_G (a0 a1 : FVec Ideal S131072x97 .f32) (a2 : FVec Ideal S48x97 .f32) (a3 : FVec Ideal S48 .f32) (a4 : FVec Ideal S48x97 .f32)
    (a5 : FVec Ideal S48 .f32) (a6 : FVec Ideal S384x32 .f32) (a7 : FVec Ideal S384 .f32) (a8 : FVec Ideal S6x64 .f32) (a9 : FVec Ideal S6 .f32)
    (a10 : IVec S131072 32)
    (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i)) (h9 : ∀ i, IsReal (a9 i))
    (hply : ∀ b : Fin 131072, (a10 (ix1 b)).toNat < 60) :
    Stage.out (F := Ideal) a0 a1 a2 a3 a4 a5 a6 a7 a8 a9 a10 = Cert.Spec.G a0 a1 a2 a3 a4 a5 a6 a7 a8 a9 a10 := by
  funext j
  obtain ⟨b, rfl⟩ : ∃ b : Fin 131072, j = ix2 b (0 : Fin 1) :=
    ⟨j 0, funext fun d => match d with
      | ⟨0, _⟩ => rfl
      | ⟨1, _⟩ => Fin.ext (Nat.lt_one_iff.mp (j 1).isLt)⟩
  have hl : Stage.lsOf a10 (ix1 b) = BitVec.ofNat 32 (bucket (a10 (ix1 b))).val := by
    rw [lsOf_apply a10 b (hply b), bucket_val _ (hply b)]
  -- the last flooring of an array whose entry at the sample is a known real number
  have key : ∀ (t : FVec Ideal S131072x1 .f32) (v : EReal), IsReal v → t (ix2 b 0) = v →
      Stage.fin (F := Ideal) t (ix2 b 0) = qf (lit 0x44160000#32) v := by
    intro t v hv ht
    rw [fin_apply t b (by rw [ht]; exact hv), ht]
  show Stage.out (F := Ideal) a0 a1 a2 a3 a4 a5 a6 a7 a8 a9 a10 (ix2 b 0)
      = row (a10 (ix1 b)) (fun k => a0 (ix2 b k)) (fun k => a1 (ix2 b k)) (fun j k => a2 (ix2 j k)) (fun j k => a4 (ix2 j k))
          (fun j => a3 (ix1 j)) (fun j => a5 (ix1 j)) (fun j i' => a6 (ix2 j i')) (fun j => a7 (ix1 j))
          (fun c k => a8 (ix2 c k)) (fun c => a9 (ix1 c))
  unfold Stage.out row
  refine key _ _ ?_ ?_
  · -- the selected output is a real number: a finite sum of products of real numbers plus a real number
    exact isReal_outv _ _ _ _ (fun k => isReal_act _) (fun c k => h8 _) (fun c => h9 _)
  · -- the output layer, over the sixty-four second activations
    refine (layer3 _ a8 a9 _ h8 h9 b _ hl).trans ?_
    refine congrArg (fun a => outv _ a _ _) (funext fun k => ?_)
    rw [act2_apply]
    refine congrArg act ?_
    -- the second layer, over the thirty-two first activations
    refine (layer2 _ a6 a7 _ h6 h7 b _ k hl).trans ?_
    refine congrArg (fun a => sel64 _ (z2 a _ _) k) (funext fun i => ?_)
    rw [act1_apply]
    refine congrArg (fun l => act (l1cat l i)) (funext fun i' => ?_)
    -- the first layer: the sample's bucket of each of the two maps
    unfold l1x
    split
    · exact layer1 a0 a2 a3 _ h2 h3 b _ _ hl
    · exact layer1 a1 a4 a5 _ h4 h5 b _ _ hl

end Cert.ReferenceIdeal.Read

end
-- ==== Proof.PreDecode.lean ====
/-
  What the precondition says of the argument arrays: every float entry is a real number, and every ply word, read
  signed, lies in [0, 60) — so read unsigned it is below 60.

  The precondition is a conjunction of twelve "for all entries" tests, each an and-reduction of a mask to one scalar.
  Ten of the masks test |x| < +∞ on a float array; over the extended reals |x| = max x (−x), which is +∞ exactly at
  x = ±∞, so the test holds exactly at the real numbers. The last two test 0 ≤ w and w < 60 on the ply words, read
  signed; a word that is non-negative signed has its top bit clear, so its unsigned value is its signed value.
-/
import proofs.«419896_j55293408969355_3_alg».proof.Pre_finite_inputs
import proofs.«419896_j55293408969355_3_alg».proof.Proof.Gen.Pre_finite_inputs
import proofs.«419896_j55293408969355_3_alg».proof.Proof.Spec
import Idealize.ShloMosaic.Lib.ReduceAll
import Idealize.ShloMosaic.Lib.StableHlo.Predicate

noncomputable section

namespace Cert.PreDecode

open Cert.Spec Idealize.ShloMosaic Idealize.ShloMosaic.ValueIdx
open Cert.Pre_finite_inputs (S131072x97 S48x97 S48 S384x32 S384 S6x64 S6 S131072 S_)

/-- The rank-0 shape has one index. -/
private instance : Subsingleton S_.Idx := ⟨fun a b => funext fun d => d.elim0⟩

/-- The word with all exponent bits set and no fraction bits denotes +∞. -/
private theorem inf_word : Ideal.ofBits .f32 0x7F800000#32 = (⊤ : EReal) := by
  simp [Ideal.ofBits, Ideal.ieee]

/-- |x| < +∞ only at a real number: at x = −∞ and at x = +∞ the maximum of x and −x is +∞. -/
private theorem real_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One float conjunct, at any shape: if "|x| < +∞ everywhere" reduces to 1, every entry of x is a real number. -/
private theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : IsReal (x i) :=
  real_of_abs_lt (x i) (Host.reduce_andi_all _ _ hr hu ix0 h i)

/-- A 32-bit word w with 0 ≤ w and w < 60, both read signed, is below 60 read unsigned: were its top bit set, its signed
    value w − 2³² would be negative. -/
private theorem toNat_lt_of_signed (w : BitVec 32) (h0 : IntOp.cmpi .sge w 0#32 = 1#1) (h60 : IntOp.cmpi .slt w 60#32 = 1#1) :
    w.toNat < 60 := by
  unfold IntOp.cmpi at h0 h60
  rw [StableHlo.Predicate.ofBool_eq_one_iff] at h0 h60
  simp only [BitVec.slt, BitVec.sle, decide_eq_true_eq] at h0 h60
  have h32 := w.isLt
  have e0 : (0#32 : BitVec 32).toInt = 0 := by decide
  have e60 : (60#32 : BitVec 32).toInt = 60 := by decide
  rw [e0] at h0
  rw [e60] at h60
  rw [BitVec.toInt_eq_toNat_cond] at h0 h60
  split at h0 <;> omega

/-- The two integer conjuncts, at any shape: if "0 ≤ x everywhere" and "x < 60 everywhere" (signed) both reduce to 1,
    every word of x is below 60 unsigned. A scalar broadcast reads the scalar at every index. -/
private theorem all_range {s : Shape} {axes : List (Fin s.rank)} (x : IVec s 32)
    (hb : S_.BroadcastsInDim s (![] : Fin 0 → Fin s.rank)) (hr : s.ReducesTo axes S_) (hu : 0 < S_.numel)
    (h0 : Host.reduce IntOp.andi (cmpi .sge x (broadcastInDim s ![] hb (constantI S_ 32 0#32))) (constantI S_ 1 1#1) hr hu ix0
      = 1#1)
    (h60 : Host.reduce IntOp.andi (cmpi .slt x (broadcastInDim s ![] hb (constantI S_ 32 60#32))) (constantI S_ 1 1#1) hr hu ix0
      = 1#1)
    (i : s.Idx) : (x i).toNat < 60 :=
  toNat_lt_of_signed (x i) (Host.reduce_andi_all _ _ hr hu ix0 h0 i) (Host.reduce_andi_all _ _ hr hu ix0 h60 i)

theorem decode [Cert.Pre_finite_inputs.Facts] (a0 a1 : FVec Ideal S131072x97 .f32) (a2 : FVec Ideal S48x97 .f32) (a3 : FVec Ideal S48 .f32)
    (a4 : FVec Ideal S48x97 .f32) (a5 : FVec Ideal S48 .f32) (a6 : FVec Ideal S384x32 .f32) (a7 : FVec Ideal S384 .f32)
    (a8 : FVec Ideal S6x64 .f32) (a9 : FVec Ideal S6 .f32) (a10 : IVec S131072 32)
    (h : Cert.Pre_finite_inputs.fn (F := Ideal) a0 a1 a2 a3 a4 a5 a6 a7 a8 a9 a10 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ b : Fin 131072, (a10 (ix1 b)).toNat < 60) := by
  -- the scalar result is 1: unfold the chain to its twelve conjuncts, left-nested in the order they are and-ed
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨h0, h1⟩, h2⟩, h3⟩, h4⟩, h5⟩, h6⟩, h7⟩, h8⟩, h9⟩, hge⟩, hlt⟩ := e
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7, all_real a8 _ _ _ h8, all_real a9 _ _ _ h9,
    fun b => all_range a10 _ _ _ hge hlt (ix1 b)⟩

end Cert.PreDecode

end
-- ==== Proof.lean ====
/-
  The certificate's claims.

  Both idealized programs compute, for every sample b, the specification's row (Proof/Spec.lean): the kernel by a
  block-diagonal fused product and sums over six 0/1 bucket masks (its result array is read off the generated frame
  run block by block), the reference by two products, gathers of the bucket ⌊ply / 10⌋ and straight-through
  roundings x + (q − x), which are q where x is a real number. The precondition supplies what each side needs:
  every float input a real number, every ply in [0, 60) — there the reference's gather neither wraps nor refuses
  its index, and the kernel's clip of the bucket does not bind.
-/
import proofs.«419896_j55293408969355_3_alg».proof.Defs
import proofs.«419896_j55293408969355_3_alg».proof.Proof.Gen.Kernel
import proofs.«419896_j55293408969355_3_alg».proof.Proof.Gen.Kernel.Frame
import proofs.«419896_j55293408969355_3_alg».proof.Proof.Gen.KernelIdeal
import proofs.«419896_j55293408969355_3_alg».proof.Proof.Gen.KernelIdeal.Frame
import proofs.«419896_j55293408969355_3_alg».proof.Proof.Gen.KernelIdeal.Value
import proofs.«419896_j55293408969355_3_alg».proof.Proof.Gen.ReferenceIdeal
import proofs.«419896_j55293408969355_3_alg».proof.Proof.Gen.Pre_finite_inputs
import proofs.«419896_j55293408969355_3_alg».proof.Proof.KFinal
import proofs.«419896_j55293408969355_3_alg».proof.Proof.RefRun
import proofs.«419896_j55293408969355_3_alg».proof.Proof.RefRead
import proofs.«419896_j55293408969355_3_alg».proof.Proof.PreDecode

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RRun.run m ρ)

/-- From memories agreeing on the arguments both programs end with the specification's array of those arguments. -/
theorem algebraic : Cert.algebraic_KernelIdeal_ReferenceIdeal := by
  intro m ρ m' ρ' hpre hagree
  have hd := fun c : Dev Cert.KernelIdeal.nD =>
    Cert.PreDecode.decode (Cert.KernelIdeal.KHost.arg0 m c) (Cert.KernelIdeal.KHost.arg1 m c) (Cert.KernelIdeal.KHost.arg2 m c) (Cert.KernelIdeal.KHost.arg3 m c) (Cert.KernelIdeal.KHost.arg4 m c) (Cert.KernelIdeal.KHost.arg5 m c) (Cert.KernelIdeal.KHost.arg6 m c) (Cert.KernelIdeal.KHost.arg7 m c) (Cert.KernelIdeal.KHost.arg8 m c) (Cert.KernelIdeal.KHost.arg9 m c) (Cert.KernelIdeal.KHost.arg10 m c) (hpre c)
  refine ⟨fun c => Cert.Spec.G (Cert.KernelIdeal.KHost.arg0 m c) (Cert.KernelIdeal.KHost.arg1 m c) (Cert.KernelIdeal.KHost.arg2 m c) (Cert.KernelIdeal.KHost.arg3 m c) (Cert.KernelIdeal.KHost.arg4 m c) (Cert.KernelIdeal.KHost.arg5 m c) (Cert.KernelIdeal.KHost.arg6 m c) (Cert.KernelIdeal.KHost.arg7 m c) (Cert.KernelIdeal.KHost.arg8 m c) (Cert.KernelIdeal.KHost.arg9 m c) (Cert.KernelIdeal.KHost.arg10 m c),
    Cert.KernelIdeal.KValue.run m ρ (fun c b => (hd c).2.2.2.2.2.2.2.2.2.2 b), ?_⟩
  refine (θ_run Cert.ReferenceIdeal.defs _ _).mono (fun _ h c => ⟨(h c).1.trans ?_, (h c).2⟩)
    (Cert.ReferenceIdeal.RRun.run m' ρ')
  obtain ⟨e0, e1, e2, e3, e4, e5, e6, e7, e8, e9, e10⟩ := hagree c
  obtain ⟨h0, h1, h2, h3, h4, h5, h6, h7, h8, h9, h10⟩ := hd c
  have ea : Cert.ReferenceIdeal.RRun.arg0 m' c = Cert.KernelIdeal.KHost.arg0 m c
      ∧ Cert.ReferenceIdeal.RRun.arg1 m' c = Cert.KernelIdeal.KHost.arg1 m c
      ∧ Cert.ReferenceIdeal.RRun.arg2 m' c = Cert.KernelIdeal.KHost.arg2 m c
      ∧ Cert.ReferenceIdeal.RRun.arg3 m' c = Cert.KernelIdeal.KHost.arg3 m c
      ∧ Cert.ReferenceIdeal.RRun.arg4 m' c = Cert.KernelIdeal.KHost.arg4 m c
      ∧ Cert.ReferenceIdeal.RRun.arg5 m' c = Cert.KernelIdeal.KHost.arg5 m c
      ∧ Cert.ReferenceIdeal.RRun.arg6 m' c = Cert.KernelIdeal.KHost.arg6 m c
      ∧ Cert.ReferenceIdeal.RRun.arg7 m' c = Cert.KernelIdeal.KHost.arg7 m c
      ∧ Cert.ReferenceIdeal.RRun.arg8 m' c = Cert.KernelIdeal.KHost.arg8 m c
      ∧ Cert.ReferenceIdeal.RRun.arg9 m' c = Cert.KernelIdeal.KHost.arg9 m c
      ∧ Cert.ReferenceIdeal.RRun.arg10 m' c = Cert.KernelIdeal.KHost.arg10 m c :=
    ⟨e0, e1, e2, e3, e4, e5, e6, e7, e8, e9, e10⟩
  obtain ⟨a0, a1, a2, a3, a4, a5, a6, a7, a8, a9, a10⟩ := ea
  rw [a0, a1, a2, a3, a4, a5, a6, a7, a8, a9, a10]
  exact Cert.ReferenceIdeal.Read.out_eq_G _ _ _ _ _ _ _ _ _ _ _ h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
